-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v30_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v30_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S2x400000 : Shape := ⟨2, ![2, 400000]⟩
abbrev S1x128 : Shape := ⟨2, ![1, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x400000 : S_.BroadcastsInDim S2x400000 (![] : Fin 0 → Fin S2x400000.rank)
  reducesTo_S2x400000_S_d0_1 : S2x400000.ReducesTo [0, 1] S_

variable [Facts]

def fn_part6 {F : FTy → Type} [FloatOps F] (main_arg2 : IVec S2x400000 32) (main_v98 : IVec S_ 1) (main_v101 : IVec S_ 1) : IVec S_ 1 :=
  let main_v102 : IVec S_ 1 := andi main_v98 main_v101
  let main_c_40 : IVec S_ 32 := constantI S_ 32 50000#32
  let main_v103 : IVec S2x400000 32 := broadcastInDim S2x400000 ![] bcast_S_S2x400000 main_c_40
  let main_v104 : IVec S2x400000 1 := cmpi .slt main_arg2 main_v103
  let main_c_41 : IVec S_ 1 := constantI S_ 1 1#1
  let main_v105 : IVec S_ 1 := (fun x v => Host.reduce IntOp.andi x v reducesTo_S2x400000_S_d0_1 h_S_) main_v104 main_c_41
  let main_v106 : IVec S_ 1 := andi main_v102 main_v105
  main_v106

def fn_part5 {F : FTy → Type} [FloatOps F] (main_arg2 : IVec S2x400000 32) (main_arg19 : FVec F S128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_c_38 : IVec S_ 32 := constantI S_ 32 0#32
  let main_v99 : IVec S2x400000 32 := broadcastInDim S2x400000 ![] bcast_S_S2x400000 main_c_38
  let main_v100 : IVec S2x400000 1 := cmpi .sge main_arg2 main_v99
  let main_c_39 : IVec S_ 1 := constantI S_ 1 1#1
  let main_v101 : IVec S_ 1 := (fun x v => Host.reduce IntOp.andi x v reducesTo_S2x400000_S_d0_1 h_S_) main_v100 main_c_39
  fn_part6 (F := F) main_arg2 main_v98 main_v101

def fn_part4 {F : FTy → Type} [FloatOps F] (main_arg2 : IVec S2x400000 32) (main_arg15 : FVec F S128x128 .f32) (main_arg16 : FVec F S128 .f32) (main_arg17 : FVec F S128x128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_arg19 main_arg20 main_v83 main_v84 main_cst_32

def fn_part3 {F : FTy → Type} [FloatOps F] (main_arg2 : IVec S2x400000 32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_arg19 main_arg20 main_v63 main_v67

def fn_part2 {F : FTy → Type} [FloatOps F] (main_arg2 : IVec S2x400000 32) (main_arg8 : FVec F S128x128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_arg15 main_arg16 main_arg17 main_arg18 main_arg19 main_arg20 main_v48 main_v49 main_v50

def fn_part1 {F : FTy → Type} [FloatOps F] (main_arg2 : IVec S2x400000 32) (main_arg5 : FVec F S128x128 .f32) (main_arg6 : FVec F S128x128 .f32) (main_arg7 : FVec F S128x128 .f32) (main_arg8 : FVec F S128x128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : FVec F S400000x128 .f32) (main_arg2 : IVec S2x400000 32) (main_arg3 : FVec F S1x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S400000x128 : Shape := ⟨2, ![400000, 128]⟩
abbrev S2x400000 : Shape := ⟨2, ![2, 400000]⟩
abbrev S1x128 : Shape := ⟨2, ![1, 128]⟩
abbrev S128x128 : Shape := ⟨2, ![128, 128]⟩
abbrev S128 : Shape := ⟨1, ![128]⟩
abbrev S1x400000 : Shape := ⟨2, ![1, 400000]⟩
abbrev S400000 : Shape := ⟨1, ![400000]⟩
abbrev S_ : Shape := ⟨0, ![]⟩
abbrev S5000x128 : Shape := ⟨2, ![5000, 128]⟩
abbrev S400000x1 : Shape := ⟨2, ![400000, 1]⟩
abbrev S1 : Shape := ⟨1, ![1]⟩
abbrev S1x1 : Shape := ⟨2, ![1, 1]⟩
abbrev S4000x128 : Shape := ⟨2, ![4000, 128]⟩
abbrev S4000 : Shape := ⟨1, ![4000]⟩
abbrev S4000x1 : Shape := ⟨2, ![4000, 1]⟩
abbrev S5000 : Shape := ⟨1, ![5000]⟩
abbrev S5000x1 : Shape := ⟨2, ![5000, 1]⟩

abbrev nBuf : Space → Nat
  | .hbm => 128
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S2x400000, .i32⟩
  | .hbm, ⟨3, _⟩ => ⟨S1x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x400000, .i32⟩
  | .hbm, ⟨22, _⟩ => ⟨S400000, .i32⟩
  | .hbm, ⟨23, _⟩ => ⟨S1x400000, .i32⟩
  | .hbm, ⟨24, _⟩ => ⟨S400000, .i32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S128x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S128x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S400000, .i32⟩
  | .hbm, ⟨54, _⟩ => ⟨S400000, .i1⟩
  | .hbm, ⟨55, _⟩ => ⟨S_, .i32⟩
  | .hbm, ⟨56, _⟩ => ⟨S400000, .i32⟩
  | .hbm, ⟨57, _⟩ => ⟨S400000, .i32⟩
  | .hbm, ⟨58, _⟩ => ⟨S400000, .i32⟩
  | .hbm, ⟨59, _⟩ => ⟨S400000x1, .i32⟩
  | .hbm, ⟨60, _⟩ => ⟨S1, .i32⟩
  | .hbm, ⟨61, _⟩ => ⟨S_, .i32⟩
  | .hbm, ⟨62, _⟩ => ⟨S400000x1, .i32⟩
  | .hbm, ⟨63, _⟩ => ⟨S400000x1, .i1⟩
  | .hbm, ⟨64, _⟩ => ⟨S1x1, .i32⟩
  | .hbm, ⟨65, _⟩ => ⟨S400000x1, .i32⟩
  | .hbm, ⟨66, _⟩ => ⟨S400000x1, .i1⟩
  | .hbm, ⟨67, _⟩ => ⟨S400000x1, .i1⟩
  | .hbm, ⟨68, _⟩ => ⟨S_, .i1⟩
  | .hbm, ⟨69, _⟩ => ⟨S400000, .i1⟩
  | .hbm, ⟨70, _⟩ => ⟨S400000x128, .f32⟩
  | .hbm, ⟨71, _⟩ => ⟨S400000x128, .i1⟩
  | .hbm, ⟨72, _⟩ => ⟨S_, .f32⟩
  | .hbm, ⟨73, _⟩ => ⟨S400000x128, .f32⟩
  | .hbm, ⟨74, _⟩ => ⟨S400000x128, .f32⟩
  | .hbm, ⟨75, _⟩ => ⟨S_, .i32⟩
  | .hbm, ⟨76, _⟩ => ⟨S400000, .i32⟩
  | .hbm, ⟨77, _⟩ => ⟨S400000, .i1⟩
  | .hbm, ⟨78, _⟩ => ⟨S_, .i32⟩
  | .hbm, ⟨79, _⟩ => ⟨S400000, .i32⟩
  | .hbm, ⟨80, _⟩ => ⟨S400000, .i32⟩
  | .hbm, ⟨81, _⟩ => ⟨S400000, .i32⟩
  | .hbm, ⟨82, _⟩ => ⟨S400000x1, .i32⟩
  | .hbm, ⟨83, _⟩ => ⟨S1, .i32⟩
  | .hbm, ⟨84, _⟩ => ⟨S_, .i32⟩
  | .hbm, ⟨85, _⟩ => ⟨S400000x1, .i32⟩
  | .hbm, ⟨86, _⟩ => ⟨S400000x1, .i1⟩
  | .hbm, ⟨87, _⟩ => ⟨S1x1, .i32⟩
  | .hbm, ⟨88, _⟩ => ⟨S400000x1, .i32⟩
  | .hbm, ⟨89, _⟩ => ⟨S400000x1, .i1⟩
  | .hbm, ⟨90, _⟩ => ⟨S400000x1, .i1⟩
  | .hbm, ⟨91, _⟩ => ⟨S_, .i1⟩
  | .hbm, ⟨92, _⟩ => ⟨S400000, .i1⟩
  | .hbm, ⟨93, _⟩ => ⟨S400000x128, .f32⟩
  | .hbm, ⟨94, _⟩ => ⟨S400000x128, .i1⟩
  | .hbm, ⟨95, _⟩ => ⟨S_, .f32⟩
  | .hbm, ⟨96, _⟩ => ⟨S400000x128, .f32⟩
  | .hbm, ⟨97, _⟩ => ⟨S400000x128, .f32⟩
  | .hbm, ⟨98, _⟩ => ⟨S_, .i32⟩
  | .hbm, ⟨99, _⟩ => ⟨S400000, .i32⟩
  | .hbm, ⟨100, _⟩ => ⟨S400000, .i1⟩
  | .hbm, ⟨101, _⟩ => ⟨S_, .i32⟩
  | .hbm, ⟨102, _⟩ => ⟨S400000, .i32⟩
  | .hbm, ⟨103, _⟩ => ⟨S400000, .i32⟩
  | .hbm, ⟨104, _⟩ => ⟨S400000, .i32⟩
  | .hbm, ⟨105, _⟩ => ⟨S400000x1, .i32⟩
  | .hbm, ⟨106, _⟩ => ⟨S1, .i32⟩
  | .hbm, ⟨107, _⟩ => ⟨S_, .i32⟩
  | .hbm, ⟨108, _⟩ => ⟨S400000x1, .i32⟩
  | .hbm, ⟨109, _⟩ => ⟨S400000x1, .i1⟩
  | .hbm, ⟨110, _⟩ => ⟨S1x1, .i32⟩
  | .hbm, ⟨111, _⟩ => ⟨S400000x1, .i32⟩
  | .hbm, ⟨112, _⟩ => ⟨S400000x1, .i1⟩
  | .hbm, ⟨113, _⟩ => ⟨S400000x1, .i1⟩
  | .hbm, ⟨114, _⟩ => ⟨S_, .i1⟩
  | .hbm, ⟨115, _⟩ => ⟨S400000, .i1⟩
  | .hbm, ⟨116, _⟩ => ⟨S400000x128, .f32⟩
  | .hbm, ⟨117, _⟩ => ⟨S400000x128, .i1⟩
  | .hbm, ⟨118, _⟩ => ⟨S_, .f32⟩
  | .hbm, ⟨119, _⟩ => ⟨S400000x128, .f32⟩
  | .hbm, ⟨120, _⟩ => ⟨S400000x128, .f32⟩
  | .hbm, ⟨121, _⟩ => ⟨S400000x128, .f32⟩
  | .hbm, ⟨122, _⟩ => ⟨S400000x128, .f32⟩
  | .hbm, ⟨123, _⟩ => ⟨S_, .f32⟩
  | .hbm, ⟨124, _⟩ => ⟨S50000x128, .f32⟩
  | .hbm, ⟨125, _⟩ => ⟨S400000x1, .i32⟩
  | .hbm, ⟨126, _⟩ => ⟨S50000x128, .f32⟩
  | .hbm, ⟨127, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call0_cst : Ref sig .tc := ⟨.hbm, 42, rfl⟩
abbrev main_call0_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev main_v26_2 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v27 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v28 : Ref sig .tc := ⟨.hbm, 97, rfl⟩
abbrev main_call3_c : Ref sig .tc := ⟨.hbm, 98, rfl⟩
abbrev main_call3_v0 : Ref sig .tc := ⟨.hbm, 99, rfl⟩
abbrev main_call3_v1 : Ref sig .tc := ⟨.hbm, 100, rfl⟩
abbrev main_call3_c_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_c_1 : Ref sig .tc := ⟨.hbm, 106, rfl⟩
abbrev main_call3_c_2 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_c_3 : Ref sig .tc := ⟨.hbm, 114, rfl⟩
abbrev main_call3_v12 : Ref sig .tc := ⟨.hbm, 115, rfl⟩
abbrev main_call3_v13 : Ref sig .tc := ⟨.hbm, 116, rfl⟩
abbrev main_call3_v14 : Ref sig .tc := ⟨.hbm, 117, rfl⟩
abbrev main_call3_cst : Ref sig .tc := ⟨.hbm, 118, rfl⟩
abbrev main_call3_v15 : Ref sig .tc := ⟨.hbm, 119, rfl⟩
abbrev main_v29 : Ref sig .tc := ⟨.hbm, 120, rfl⟩
abbrev main_v30_0 : Ref sig .tc := ⟨.hbm, 121, rfl⟩
abbrev main_v30_1 : Ref sig .tc := ⟨.hbm, 122, rfl⟩
abbrev main_cst : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg12_1 : Ref sig .tc := ⟨.vmem, 28, rfl⟩
abbrev cc1_stg13_0 : Ref sig .tc := ⟨.vmem, 29, rfl⟩
abbrev cc1_stg13_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem12_1 : DmaSem sig := 28
abbrev cc1_sem13_0 : DmaSem sig := 29
abbrev cc1_sem13_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem5_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S4000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  transposes_S128x128_S128x128_1_0 : S128x128.Transposes [1, 0] S128x128
  shapeCasts_S128_S1x128 : S128.ShapeCasts S1x128
  bcast_S128_S1x128_1 : S128.BroadcastsInDim S1x128 (![1] : Fin 1 → Fin S1x128.rank)
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  broadcasts_S1x128_S5000x128 : S1x128.Broadcasts S5000x128
  dot_S1x128_S128x128_S1x128_1_0_0_1_n_n_wf : DotDims.WF S1x128 S128x128 S1x128 [1] [0] [0] [1] [] []
  dot_S5000x128_S128x128_S5000x128_1_0_0_1_n_n_wf : DotDims.WF S5000x128 S128x128 S5000x128 [1] [0] [0] [1] [] []
  gather_S50000x128_S400000x1_S400000x128_1_0_n_n_0_1_1128_wf : GatherDims.WF S50000x128 S400000x1 S400000x128 [1] [0] [] [0] [] 1 ![1, 128]
  dot_S4000x128_S128x128_S4000x128_1_0_0_1_n_n_wf : DotDims.WF S4000x128 S128x128 S4000x128 [1] [0] [0] [1] [] []
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S400000x128.size a
  hwx1_0 : ∀ i : grid1.Coords, EltTy.bits .f32 = 32 ∨ (Rect.block (s := S400000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S400000x128.size a
  hwx1_1 : ∀ i : grid1.Coords, EltTy.bits .f32 = 32 ∨ (Rect.block (s := S400000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S400000x128.size a
  hwx1_2 : ∀ i : grid1.Coords, EltTy.bits .f32 = 32 ∨ (Rect.block (s := S400000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S400000x128.size a
  hwx1_3 : ∀ i : grid1.Coords, EltTy.bits .f32 = 32 ∨ (Rect.block (s := S400000x128) S4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S4000x128.size a ≤ S400000x128.size a
  hwx1_12 : ∀ i : grid1.Coords, EltTy.bits .f32 = 32 ∨ (Rect.block (s := S400000x128) S4000x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S4000x128.size a ≤ S400000x128.size a
  hwx1_13 : ∀ i : grid1.Coords, EltTy.bits .f32 = 32 ∨ (Rect.block (s := S400000x128) S4000x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_2) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v25) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v30_0) S4000x128.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v30_1) S4000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S2x400000 : Shape := ⟨2, ![2, 400000]⟩
abbrev S1x128 : Shape := ⟨2, ![1, 128]⟩
abbrev S128x128 : Shape := ⟨2, ![128, 128]⟩
abbrev S128 : Shape := ⟨1, ![128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S50000 : Shape := ⟨1, ![50000]⟩
abbrev S50000x1 : Shape := ⟨2, ![50000, 1]⟩

abbrev nBuf : Space → Nat
  | .hbm => 167
  | .vmem => 0
  | .smem => 0
  | _ => 0

abbrev hbmTy0_0 (i : Nat) : BufTy := match i % 128 with
  | 0 => ⟨S50000x128, .f32⟩
  | 1 => ⟨S400000x128, .f32⟩
  | 2 => ⟨S2x400000, .i32⟩
  | 3 => ⟨S1x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128, .f32⟩
  | 20 => ⟨S128, .f32⟩
  | 21 => ⟨S1x400000, .i32⟩
  | 22 => ⟨S400000, .i32⟩
  | 23 => ⟨S1x400000, .i32⟩
  | 24 => ⟨S400000, .i32⟩
  | 25 => ⟨S128x128, .f32⟩
  | 26 => ⟨S50000x128, .f32⟩
  | 27 => ⟨S128x128, .f32⟩
  | 28 => ⟨S50000x128, .f32⟩
  | 29 => ⟨S128x128, .f32⟩
  | 30 => ⟨S400000x128, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x128, .f32⟩
  | 40 => ⟨S400000x128, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000x128, .f32⟩
  | 50 => ⟨S400000x128, .f32⟩
  | 51 => ⟨S_, .f32⟩
  | 52 => ⟨S400000, .f32⟩
  | 53 => ⟨S400000x1, .f32⟩
  | 54 => ⟨S_, .f32⟩
  | 55 => ⟨S400000x1, .f32⟩
  | 56 => ⟨S400000x1, .f32⟩
  | 57 => ⟨S400000x128, .f32⟩
  | 58 => ⟨S400000x128, .f32⟩
  | 59 => ⟨S400000x128, .f32⟩
  | 60 => ⟨S_, .f32⟩
  | 61 => ⟨S400000, .f32⟩
  | 62 => ⟨S400000x1, .f32⟩
  | 63 => ⟨S_, .f32⟩
  | 64 => ⟨S400000x1, .f32⟩
  | 65 => ⟨S400000x1, .f32⟩
  | 66 => ⟨S400000x128, .f32⟩
  | 67 => ⟨S400000x128, .f32⟩
  | 68 => ⟨S_, .f32⟩
  | 69 => ⟨S400000x1, .f32⟩
  | 70 => ⟨S400000x1, .f32⟩
  | 71 => ⟨S400000x1, .f32⟩
  | 72 => ⟨S400000x128, .f32⟩
  | 73 => ⟨S400000x128, .f32⟩
  | 74 => ⟨S1x128, .f32⟩
  | 75 => ⟨S400000x128, .f32⟩
  | 76 => ⟨S400000x128, .f32⟩
  | 77 => ⟨S1x128, .f32⟩
  | 78 => ⟨S400000x128, .f32⟩
  | 79 => ⟨S400000x128, .f32⟩
  | 80 => ⟨S128x128, .f32⟩
  | 81 => ⟨S400000x128, .f32⟩
  | 82 => ⟨S1x128, .f32⟩
  | 83 => ⟨S400000x128, .f32⟩
  | 84 => ⟨S400000x128, .f32⟩
  | 85 => ⟨S_, .f32⟩
  | 86 => ⟨S400000x128, .f32⟩
  | 87 => ⟨S400000x128, .f32⟩
  | 88 => ⟨S128x128, .f32⟩
  | 89 => ⟨S400000x128, .f32⟩
  | 90 => ⟨S1x128, .f32⟩
  | 91 => ⟨S400000x128, .f32⟩
  | 92 => ⟨S400000x128, .f32⟩
  | 93 => ⟨S128x128, .f32⟩
  | 94 => ⟨S1x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S128x128, .f32⟩
  | 101 => ⟨S1x128, .f32⟩
  | 102 => ⟨S1x128, .f32⟩
  | 103 => ⟨S1x128, .f32⟩
  | 104 => ⟨S400000x128, .f32⟩
  | 105 => ⟨S400000x128, .f32⟩
  | 106 => ⟨S400000x128, .f32⟩
  | 107 => ⟨S128x128, .f32⟩
  | 108 => ⟨S50000x128, .f32⟩
  | 109 => ⟨S400000x128, .f32⟩
  | 110 => ⟨S400000x128, .f32⟩
  | 111 => ⟨S_, .f32⟩
  | 112 => ⟨S400000x128, .f32⟩
  | 113 => ⟨S400000x128, .f32⟩
  | 114 => ⟨S_, .f32⟩
  | 115 => ⟨S400000x128, .f32⟩
  | 116 => ⟨S400000x128, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x128, .f32⟩
  | 126 => ⟨S400000x128, .f32⟩
  | 127 => ⟨S_, .f32⟩
  | _ => ⟨S50000x128, .f32⟩

abbrev hbmTy0_1 (i : Nat) : BufTy := match i % 128 with
  | 0 => ⟨S50000x128, .f32⟩
  | 1 => ⟨S400000x1, .i32⟩
  | 2 => ⟨S50000x128, .f32⟩
  | 3 => ⟨S128x128, .f32⟩
  | 4 => ⟨S50000x128, .f32⟩
  | 5 => ⟨S50000x128, .f32⟩
  | 6 => ⟨S_, .f32⟩
  | 7 => ⟨S50000, .f32⟩
  | 8 => ⟨S50000x1, .f32⟩
  | 9 => ⟨S_, .f32⟩
  | 10 => ⟨S50000x1, .f32⟩
  | 11 => ⟨S50000x1, .f32⟩
  | 12 => ⟨S50000x128, .f32⟩
  | 13 => ⟨S50000x128, .f32⟩
  | 14 => ⟨S50000x128, .f32⟩
  | 15 => ⟨S_, .f32⟩
  | 16 => ⟨S50000, .f32⟩
  | 17 => ⟨S50000x1, .f32⟩
  | 18 => ⟨S_, .f32⟩
  | 19 => ⟨S50000x1, .f32⟩
  | 20 => ⟨S50000x1, .f32⟩
  | 21 => ⟨S50000x128, .f32⟩
  | 22 => ⟨S50000x128, .f32⟩
  | 23 => ⟨S_, .f32⟩
  | 24 => ⟨S50000x1, .f32⟩
  | 25 => ⟨S50000x1, .f32⟩
  | 26 => ⟨S50000x1, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c : Ref sig .tc := ⟨.hbm, 31, rfl⟩
abbrev main_v10 : Ref sig .tc := ⟨.hbm, 32, rfl⟩
abbrev main_v11 : Ref sig .tc := ⟨.hbm, 33, rfl⟩
abbrev main_c_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_1 : Ref sig .tc := ⟨.hbm, 41, rfl⟩
abbrev main_v18 : Ref sig .tc := ⟨.hbm, 42, rfl⟩
abbrev main_v19 : Ref sig .tc := ⟨.hbm, 43, rfl⟩
abbrev main_c_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst : Ref sig .tc := ⟨.hbm, 51, rfl⟩
abbrev main_v26 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call0_cst : Ref sig .tc := ⟨.hbm, 85, rfl⟩
abbrev main_call0_v0 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call1_cst : Ref sig .tc := ⟨.hbm, 97, rfl⟩
abbrev main_call1_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_7 : Ref sig .tc := ⟨.hbm, 111, rfl⟩
abbrev main_v77 : Ref sig .tc := ⟨.hbm, 112, rfl⟩
abbrev main_v78 : Ref sig .tc := ⟨.hbm, 113, rfl⟩
abbrev main_cst_8 : Ref sig .tc := ⟨.hbm, 114, rfl⟩
abbrev main_v79 : Ref sig .tc := ⟨.hbm, 115, rfl⟩
abbrev main_v80 : Ref sig .tc := ⟨.hbm, 116, rfl⟩
abbrev main_c_9 : Ref sig .tc := ⟨.hbm, 117, rfl⟩
abbrev main_v81 : Ref sig .tc := ⟨.hbm, 118, rfl⟩
abbrev main_v82 : Ref sig .tc := ⟨.hbm, 119, rfl⟩
abbrev main_c_10 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_11 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_12 : Ref sig .tc := ⟨.hbm, 134, rfl⟩
abbrev main_v95 : Ref sig .tc := ⟨.hbm, 135, rfl⟩
abbrev main_v96 : Ref sig .tc := ⟨.hbm, 136, rfl⟩
abbrev main_cst_13 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_14 : Ref sig .tc := ⟨.hbm, 143, rfl⟩
abbrev main_v102 : Ref sig .tc := ⟨.hbm, 144, rfl⟩
abbrev main_v103 : Ref sig .tc := ⟨.hbm, 145, rfl⟩
abbrev main_cst_15 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_16 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_call2_cst : Ref sig .tc := ⟨.hbm, 163, rfl⟩
abbrev main_call2_v0 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  transposes_S128x128_S128x128_1_0 : S128x128.Transposes [1, 0] S128x128
  bcast_S_S400000 : S_.BroadcastsInDim S400000 (![] : Fin 0 → Fin S400000.rank)
  bcast_S400000_S400000x1_0 : S400000.BroadcastsInDim S400000x1 (![0] : Fin 1 → Fin S400000x1.rank)
  reducesTo_S400000x128_S400000_d1 : S400000x128.ReducesTo [1] S400000
  h_S_ : 0 < S_.numel
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S1x128 : S_.BroadcastsInDim S1x128 (![] : Fin 0 → Fin S1x128.rank)
  bcast_S_S50000x128 : S_.BroadcastsInDim S50000x128 (![] : Fin 0 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S400000x128_S128x128_S400000x128_1_0_0_1_n_n_wf : DotDims.WF S400000x128 S128x128 S400000x128 [1] [0] [0] [1] [] []
  gather_S50000x128_S400000x1_S400000x128_1_0_n_n_0_1_1128_wf : GatherDims.WF S50000x128 S400000x1 S400000x128 [1] [0] [] [0] [] 1 ![1, 128]
  dot_S1x128_S128x128_S1x128_1_0_0_1_n_n_wf : DotDims.WF S1x128 S128x128 S1x128 [1] [0] [0] [1] [] []
  scatter_S50000x128_S400000x1_S400000x128_1_0_0_1_wf : ScatterDims.WF S50000x128 S400000x1 S400000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

class Facts : Prop extends Facts₀ where

variable [Facts]
-- ==== Proof.TakeFill.lean ====
/-
  Reading rows of a node array by an index vector, the way the kernel's program does it: negative entries are
  wrapped by 50000, the wrapped index is tested against 0 ≤ · ≤ 49999, the rows are gathered, and where the test
  fails the row is replaced by the not-a-number pattern. When every entry of the index vector lies in 0 … 49999 the
  test holds everywhere, so the result is the plain gather of the wrapped index column — which is how the reference
  reads the same rows. The precondition says exactly that of both rows of the edge index.
-/
import proofs.«426754_j1262720385540_1_alg».proof.Defs
import proofs.«426754_j1262720385540_1_alg».proof.Proof.Gen.KernelIdeal
import proofs.«426754_j1262720385540_1_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

set_option maxRecDepth 16384

noncomputable section

open Idealize.ShloMosaic Idealize.ShloMosaic.TcCoe Idealize.SL.Sem
open Idealize.ShloMosaic.Pipeline (Dat)

namespace Cert.GraphLayer.Take

open Cert.KernelIdeal Cert.KernelIdeal.Gen ValueIdx

/-- Row `r` (0 or 1) of the 2 × 400000 edge index as a vector of 400000 entries: a slice, then a reshape. -/
def srcOf (ei : IVec S2x400000 32) : IVec S400000 32 :=
  shapeCast S400000 (extractStridedSlice S1x400000 ![0, 0] ei slices_S2x400000_S1x400000_0_0) shapeCasts_S1x400000_S400000

def dstOf (ei : IVec S2x400000 32) : IVec S400000 32 :=
  shapeCast S400000 (extractStridedSlice S1x400000 ![1, 0] ei slices_S2x400000_S1x400000_1_0) shapeCasts_S1x400000_S400000

/-- The index vector with negative entries wrapped by 50000, laid out as a 400000 × 1 column. -/
def wrapCol (ix : IVec S400000 32) : IVec S400000x1 32 :=
  broadcastInDim S400000x1 ![0] bcast_S400000_S400000x1_0
    (select (cmpi .slt ix (broadcastInDim S400000 ![] bcast_S_S400000 (constantI S_ 32 0#32)))
      (addi ix (broadcastInDim S400000 ![] bcast_S_S400000 (constantI S_ 32 50000#32))) ix)

/-- Whether each wrapped index lies in 0 … 49999, spread over the 128 columns. -/
def inRange (ix : IVec S400000 32) : IVec S400000x128 1 :=
  broadcastInDim S400000x128 ![0] bcast_S400000_S400000x128_0
    ((fun x v => Host.reduce IntOp.andi x v reducesTo_S400000x1_S400000_d1 h_S_)
      (andi (cmpi .sge (wrapCol ix) (broadcastInDim S400000x1 ![] bcast_S_S400000x1 (constantI S_ 32 0#32)))
        (cmpi .sle (wrapCol ix) (broadcastInDim S400000x1 ![0, 1] bcast_S1x1_S400000x1_0_1
          (broadcastInDim S1x1 ![1] bcast_S1_S1x1_1 (constantI S1 32 49999#32)))))
      (constantI S_ 1 1#1))

/-- The rows of `X` at the wrapped indices, with the rows of out-of-range indices replaced by the not-a-number pattern. -/
def takeFill (X : FVec Ideal S50000x128 .f32) (ix : IVec S400000 32) : FVec Ideal S400000x128 .f32 :=
  select (inRange ix)
    ((fun x i => Host.gather gather_S50000x128_S400000x1_S400000x128_1_0_n_n_0_1_1128 x i) X (wrapCol ix))
    (broadcastInDim S400000x128 ![] bcast_S_S400000x128 (constant S_ .f32 0x7FC00000#32))

/-! ## Words: the three compares at an index in 0 … 49999 -/

/-- A word that reads non-negative is not below zero. -/
theorem slt_zero_of_nonneg (w : BitVec 32) (h : 0 ≤ w.toInt) : IntOp.cmpi .slt w 0#32 = 0#1 := by
  apply eq_zero_of_ne_one
  intro e
  rw [IntOp.cmpi_slt] at e
  have h0 : (0#32 : BitVec 32).toInt = 0 := by decide
  omega

/-- A word that reads non-negative is at least zero. -/
theorem sge_zero_of_nonneg (w : BitVec 32) (h : 0 ≤ w.toInt) : IntOp.cmpi .sge w 0#32 = 1#1 := by
  rw [IntOp.cmpi_sge]
  have h0 : (0#32 : BitVec 32).toInt = 0 := by decide
  omega

/-- A word that reads below 50000 is at most 49999. -/
theorem sle_top_of_lt (w : BitVec 32) (h : w.toInt < 50000) : IntOp.cmpi .sle w 49999#32 = 1#1 := by
  rw [IntOp.cmpi_sle]
  have h0 : (49999#32 : BitVec 32).toInt = 49999 := by decide
  omega

/-! ## The wrapped column and the mask -/

/-- Where the index vector is non-negative the wrap changes nothing: row `p` of the column is entry `p` of the vector. -/
theorem wrapCol_apply (ix : IVec S400000 32) (h0 : ∀ k : S400000.Idx, 0 ≤ (ix k).toInt) (j : S400000x1.Idx) :
    wrapCol ix j = ix (ix1 (n := 400000) (j 0)) := by
  unfold wrapCol
  refine (broadcastInDim_apply _ _ _ j (ix1 (n := 400000) (j 0)) (fun a => ?_)).trans ?_
  · match a with
    | ⟨0, _⟩ => rfl
  · rw [select_apply]
    show Scalar.select (IntOp.cmpi .slt (ix _) 0#32) _ _ = _
    rw [slt_zero_of_nonneg _ (h0 _), select_zero]

/-- A left fold by `and` from the bit one over words that are all one is one. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a (List.mem_cons_self ..)]
    exact foldl_andi_of_all_one f l (fun n hn => hl n (List.mem_cons_of_mem _ hn))

/-- A reduction by `and` from the bit one over an array of ones is one, at every result index. -/
theorem reduce_andi_of_all_one {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1) (j : t.Idx) :
    Host.reduce IntOp.andi x init hr hu j = 1#1 := by
  rw [Host.reduce_eq_foldl, hinit]
  exact foldl_andi_of_all_one x _ (fun n _ => hx n)

/-- With every index in 0 … 49999 the mask is one everywhere. -/
theorem inRange_one (ix : IVec S400000 32) (h : ∀ k : S400000.Idx, 0 ≤ (ix k).toInt ∧ (ix k).toInt < 50000)
    (i : S400000x128.Idx) : inRange ix i = 1#1 := by
  unfold inRange broadcastInDim
  refine reduce_andi_of_all_one _ _ _ _ rfl (fun j => ?_) _
  show IntOp.andi (IntOp.cmpi .sge (wrapCol ix j) 0#32) (IntOp.cmpi .sle (wrapCol ix j) 49999#32) = 1#1
  rw [wrapCol_apply ix (fun k => (h k).1) j, sge_zero_of_nonneg _ (h _).1, sle_top_of_lt _ (h _).2]
  rfl

/-- With every index in 0 … 49999 nothing is replaced: the result is the gather of the wrapped column. -/
theorem takeFill_of_range (X : FVec Ideal S50000x128 .f32) (ix : IVec S400000 32)
    (h : ∀ k : S400000.Idx, 0 ≤ (ix k).toInt ∧ (ix k).toInt < 50000) :
    takeFill X ix = Host.gather gather_S50000x128_S400000x1_S400000x128_1_0_n_n_0_1_1128 X (wrapCol ix) := by
  funext i
  unfold takeFill
  rw [select_apply, inRange_one ix h i, select_one]

/-! ## The two rows of the edge index, read at an entry -/

/-- Entry `p` of the first row is the edge index at (0, p): the slice keeps row 0, the reshape drops the unit axis. -/
theorem srcOf_apply (ei : IVec S2x400000 32) (k : S400000.Idx) :
    srcOf ei k = ei (ix2 (n0 := 2) (n1 := 400000) 0 (k 0)) := by
  unfold srcOf
  refine (shapeCast_apply _ shapeCasts_S1x400000_S400000 k (ix2 (n0 := 1) (n1 := 400000) 0 (k 0)) ?_).trans ?_
  · rewrite [Shape.rowMajor_val_two, Shape.rowMajor_val_one]
    show 0 * 400000 + (k 0).val = (k 0).val
    omega
  · exact extractStridedSlice_apply ![0, 0] ei slices_S2x400000_S1x400000_0_0 _ _ (fun a => match a with
      | ⟨0, _⟩ => by show 0 = 0 + 0; omega
      | ⟨1, _⟩ => by show (k 0).val = 0 + (k 0).val; omega)

/-- Entry `p` of the second row is the edge index at (1, p). -/
theorem dstOf_apply (ei : IVec S2x400000 32) (k : S400000.Idx) :
    dstOf ei k = ei (ix2 (n0 := 2) (n1 := 400000) 1 (k 0)) := by
  unfold dstOf
  refine (shapeCast_apply _ shapeCasts_S1x400000_S400000 k (ix2 (n0 := 1) (n1 := 400000) 0 (k 0)) ?_).trans ?_
  · rewrite [Shape.rowMajor_val_two, Shape.rowMajor_val_one]
    show 0 * 400000 + (k 0).val = (k 0).val
    omega
  · exact extractStridedSlice_apply ![1, 0] ei slices_S2x400000_S1x400000_1_0 _ _ (fun a => match a with
      | ⟨0, _⟩ => by show 1 = 1 + 0; omega
      | ⟨1, _⟩ => by show (k 0).val = 0 + (k 0).val; omega)

/-! ## The precondition's two conjuncts on the edge index -/

/-- The scalar shape has one index. -/
local instance subsingleton_scalar_idx : Subsingleton Cert.Pre_finite_inputs.S_.Idx := ⟨fun a b => funext fun d => d.elim0⟩

/-- The precondition is a conjunction whose last two conjuncts are "every entry of the edge index is at least 0" and
    "every entry is below 50000", each an `and`-reduction over both axes of an entrywise signed compare with a broadcast
    constant. Read at an entry they bound it. -/
theorem ei_range (m : (ℓ : Loc nD τ sig) → Buf (Elt Ideal) ℓ) (hpre : Cert.Pre_KernelIdeal m) (c : Dev nD) (i : S2x400000.Idx) :
    0 ≤ ((m ((c.tc : Thread nD τ).loc main_arg2) : IVec S2x400000 32) i).toInt
      ∧ ((m ((c.tc : Thread nD τ).loc main_arg2) : IVec S2x400000 32) i).toInt < 50000 := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  obtain ⟨h12, h105⟩ := IntOp.andi_eq_one.1 h
  obtain ⟨-, h101⟩ := IntOp.andi_eq_one.1 h12
  have ge := Host.reduce_andi_all _ _ _ _ _ h101 i
  have lt := Host.reduce_andi_all _ _ _ _ _ h105 i
  have ge' : IntOp.cmpi .sge ((m ((c.tc : Thread nD τ).loc main_arg2) : IVec S2x400000 32) i) 0#32 = 1#1 := ge
  have lt' : IntOp.cmpi .slt ((m ((c.tc : Thread nD τ).loc main_arg2) : IVec S2x400000 32) i) 50000#32 = 1#1 := lt
  rw [IntOp.cmpi_sge] at ge'
  rw [IntOp.cmpi_slt] at lt'
  have h0 : (0#32 : BitVec 32).toInt = 0 := by decide
  have h5 : (50000#32 : BitVec 32).toInt = 50000 := by decide
  omega

/-- The precondition puts every entry of the edge index's first row in 0 … 49999 … -/
theorem src_range (m : (ℓ : Loc nD τ sig) → Buf (Elt Ideal) ℓ) (hpre : Cert.Pre_KernelIdeal m) (c : Dev nD) (k : S400000.Idx) :
    0 ≤ (srcOf (m ((c.tc : Thread nD τ).loc main_arg2) : IVec S2x400000 32) k).toInt
      ∧ (srcOf (m ((c.tc : Thread nD τ).loc main_arg2) : IVec S2x400000 32) k).toInt < 50000 := by
  rw [srcOf_apply]
  exact ei_range m hpre c _

/-- … and of its second row. -/
theorem dst_range (m : (ℓ : Loc nD τ sig) → Buf (Elt Ideal) ℓ) (hpre : Cert.Pre_KernelIdeal m) (c : Dev nD) (k : S400000.Idx) :
    0 ≤ (dstOf (m ((c.tc : Thread nD τ).loc main_arg2) : IVec S2x400000 32) k).toInt
      ∧ (dstOf (m ((c.tc : Thread nD τ).loc main_arg2) : IVec S2x400000 32) k).toInt < 50000 := by
  rw [dstOf_apply]
  exact ei_range m hpre c _

end Cert.GraphLayer.Take

end
-- ==== Proof.KGlue.lean ====
/-
  The kernel's program between its launches. Its @main is host operations, the projection launch, host operations (the
  three row gathers), the edge launch, host operations (the accumulation of messages per source node), the node
  launch. The generated frame names the TensorCore's buffer contents at each of the eleven boundaries (`W0` … `W10`);
  here each buffer a launch reads, and each result buffer, is read back through those boundaries to the operations
  that made it: which host stretch writes which buffers, hence which it leaves alone; what the launches' input
  buffers hold on entry; and what the two result buffers hold at the end.
-/
import proofs.«426754_j1262720385540_1_alg».proof.Proof.Gen.KernelIdeal.Frame
import proofs.«426754_j1262720385540_1_alg».proof.Proof.TakeFill
import Idealize.ShloMosaic.Lib.StableHlo.Run

set_option maxRecDepth 16384

noncomputable section

open Idealize.ShloMosaic Idealize.ShloMosaic.TcCoe Idealize.SL.Sem
open Idealize.ShloMosaic.Pipeline (Dat)

namespace Cert.GraphLayer.Fold

open Cert.KernelIdeal Cert.KernelIdeal.Gen Cert.GraphLayer.Take
open Idealize.ShloMosaic.StableHlo (after)

variable (m : (ℓ : Loc nD τ sig) → Buf (Elt Ideal) ℓ) (ρ : Dev nD → PrngReg)

/-! ## What each host stretch writes -/

/-- The buffers the operations of `hostOps0` write. -/
abbrev wr0 : List (Ref sig .tc) := [main_v0, main_v1, main_v2, main_v3, main_v4, main_v5, main_v6, main_v7, main_v8, main_v9, main_v10, main_v11, main_v12, main_v13, main_v14, main_v15, main_v16, main_v17, main_v18, main_v19, main_v20]
theorem wr0_sub : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps0_1` write. -/
abbrev wr0a : List (Ref sig .tc) := [main_call0_cst, main_call0_v0, main_v21]
theorem wr0a_sub : (hostOps0_1 : List (HloOp τ sig (Elt Ideal))).Forall fun op => op.writes ⊆ (wr0a.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps0_2` write. -/
abbrev wr0b : List (Ref sig .tc) := [main_v22, main_v23, main_v24, main_v25]
theorem wr0b_sub : (hostOps0_2 : List (HloOp τ sig (Elt Ideal))).Forall fun op => op.writes ⊆ (wr0b.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps1` write. -/
abbrev wr1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v27]
theorem wr1_sub : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps1_1` write. -/
abbrev wr1a : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v28]
theorem wr1a_sub : (hostOps1_1 : List (HloOp τ sig (Elt Ideal))).Forall fun op => op.writes ⊆ (wr1a.map (Proc.devRef (τ := τ) .tc)).toFinset := by
  simp only [hostOps1_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps1_2` write. -/
abbrev wr1b : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v29]
theorem wr1b_sub : (hostOps1_2 : List (HloOp τ sig (Elt Ideal))).Forall fun op => op.writes ⊆ (wr1b.map (Proc.devRef (τ := τ) .tc)).toFinset := by
  simp only [hostOps1_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps2` write. -/
abbrev wr2 : List (Ref sig .tc) := [main_cst, main_v31, main_v32, main_v33]
theorem wr2_sub : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## A buffer a stretch does not write keeps its contents across it -/

theorem W1_of (c : Dev nD) (r : Ref sig .tc) (h : r ∉ wr0) : W1 m ρ c (Proc.devRef .tc r) = W0 m ρ c (Proc.devRef .tc r) :=
  StableHlo.after_of_writes_sub hostOps0 _ wr0_sub h
theorem W2_of (c : Dev nD) (r : Ref sig .tc) (h : r ∉ wr0a) : W2 m ρ c (Proc.devRef .tc r) = W1 m ρ c (Proc.devRef .tc r) :=
  StableHlo.after_of_writes_sub hostOps0_1 _ wr0a_sub h
theorem W3_of (c : Dev nD) (r : Ref sig .tc) (h : r ∉ wr0b) : W3 m ρ c (Proc.devRef .tc r) = W2 m ρ c (Proc.devRef .tc r) :=
  StableHlo.after_of_writes_sub hostOps0_2 _ wr0b_sub h
theorem W5_of (c : Dev nD) (r : Ref sig .tc) (h : r ∉ wr1) : W5 m ρ c (Proc.devRef .tc r) = W4 m ρ c (Proc.devRef .tc r) :=
  StableHlo.after_of_writes_sub hostOps1 _ wr1_sub h
theorem W6_of (c : Dev nD) (r : Ref sig .tc) (h : r ∉ wr1a) : W6 m ρ c (Proc.devRef .tc r) = W5 m ρ c (Proc.devRef .tc r) :=
  StableHlo.after_of_writes_sub hostOps1_1 _ wr1a_sub h
theorem W7_of (c : Dev nD) (r : Ref sig .tc) (h : r ∉ wr1b) : W7 m ρ c (Proc.devRef .tc r) = W6 m ρ c (Proc.devRef .tc r) :=
  StableHlo.after_of_writes_sub hostOps1_2 _ wr1b_sub h
theorem W9_of (c : Dev nD) (r : Ref sig .tc) (h : r ∉ wr2) : W9 m ρ c (Proc.devRef .tc r) = W8 m ρ c (Proc.devRef .tc r) :=
  StableHlo.after_of_writes_sub hostOps2 _ wr2_sub h

/-! ## What the first host stretch computes

  Stated over any contents `X` the stretch starts from: the two rows of the edge index as vectors, the seven transposed
  matrices, the six vectors reshaped to one row each. -/

section Stretch0
variable (X : Valuation τ sig (Elt Ideal))

theorem s0_src : after hostOps0 X (Proc.devRef .tc main_v1) = srcOf (X (Proc.devRef .tc main_arg2)) := by
  dsimp only [hostOps0]; after_results; rfl
theorem s0_dst : after hostOps0 X (Proc.devRef .tc main_v3) = dstOf (X (Proc.devRef .tc main_arg2)) := by
  dsimp only [hostOps0]; after_results; rfl
theorem s0_v4 : after hostOps0 X (Proc.devRef .tc main_v4)
    = transpose S128x128 [1, 0] (X (Proc.devRef .tc main_arg5)) transposes_S128x128_S128x128_1_0 := by
  dsimp only [hostOps0]; after_results
theorem s0_v5 : after hostOps0 X (Proc.devRef .tc main_v5)
    = transpose S128x128 [1, 0] (X (Proc.devRef .tc main_arg6)) transposes_S128x128_S128x128_1_0 := by
  dsimp only [hostOps0]; after_results
theorem s0_v6 : after hostOps0 X (Proc.devRef .tc main_v6)
    = transpose S128x128 [1, 0] (X (Proc.devRef .tc main_arg8)) transposes_S128x128_S128x128_1_0 := by
  dsimp only [hostOps0]; after_results
theorem s0_v7 : after hostOps0 X (Proc.devRef .tc main_v7)
    = transpose S128x128 [1, 0] (X (Proc.devRef .tc main_arg7)) transposes_S128x128_S128x128_1_0 := by
  dsimp only [hostOps0]; after_results
theorem s0_v8 : after hostOps0 X (Proc.devRef .tc main_v8)
    = transpose S128x128 [1, 0] (X (Proc.devRef .tc main_arg4)) transposes_S128x128_S128x128_1_0 := by
  dsimp only [hostOps0]; after_results
theorem s0_v9 : after hostOps0 X (Proc.devRef .tc main_v9)
    = transpose S128x128 [1, 0] (X (Proc.devRef .tc main_arg11)) transposes_S128x128_S128x128_1_0 := by
  dsimp only [hostOps0]; after_results
theorem s0_v10 : after hostOps0 X (Proc.devRef .tc main_v10)
    = transpose S128x128 [1, 0] (X (Proc.devRef .tc main_arg13)) transposes_S128x128_S128x128_1_0 := by
  dsimp only [hostOps0]; after_results
theorem s0_v11 : after hostOps0 X (Proc.devRef .tc main_v11)
    = shapeCast S1x128 (X (Proc.devRef .tc main_arg9)) shapeCasts_S128_S1x128 := by
  dsimp only [hostOps0]; after_results; rfl
theorem s0_v12 : after hostOps0 X (Proc.devRef .tc main_v12)
    = shapeCast S1x128 (X (Proc.devRef .tc main_arg10)) shapeCasts_S128_S1x128 := by
  dsimp only [hostOps0]; after_results; rfl
theorem s0_v13 : after hostOps0 X (Proc.devRef .tc main_v13)
    = shapeCast S1x128 (X (Proc.devRef .tc main_arg19)) shapeCasts_S128_S1x128 := by
  dsimp only [hostOps0]; after_results; rfl
theorem s0_v14 : after hostOps0 X (Proc.devRef .tc main_v14)
    = shapeCast S1x128 (X (Proc.devRef .tc main_arg20)) shapeCasts_S128_S1x128 := by
  dsimp only [hostOps0]; after_results; rfl
theorem s0_v15 : after hostOps0 X (Proc.devRef .tc main_v15)
    = shapeCast S1x128 (X (Proc.devRef .tc main_arg12)) shapeCasts_S128_S1x128 := by
  dsimp only [hostOps0]; after_results; rfl
theorem s0_v16 : after hostOps0 X (Proc.devRef .tc main_v16)
    = shapeCast S1x128 (X (Proc.devRef .tc main_arg14)) shapeCasts_S128_S1x128 := by
  dsimp only [hostOps0]; after_results; rfl

end Stretch0

/-! ## The time row, the three row gathers and the accumulation, as the later stretches compute them -/

/-- The time row: the time embedding through a two-layer perceptron (matrix, bias, maximum with zero, matrix, bias). -/
def timeRow (t : FVec Ideal S1x128 .f32) (w1 : FVec Ideal S128x128 .f32) (b1 : FVec Ideal S128 .f32)
    (w2 : FVec Ideal S128x128 .f32) (b2 : FVec Ideal S128 .f32) : FVec Ideal S1x128 .f32 :=
  addf
    (Host.dotGeneral dot_S1x128_S128x128_S1x128_1_0_0_1_n_n none
      (maximumf
        (addf
          (Host.dotGeneral dot_S1x128_S128x128_S1x128_1_0_0_1_n_n none t
            (transpose S128x128 [1, 0] w1 transposes_S128x128_S128x128_1_0))
          (broadcastInDim S1x128 ![1] bcast_S128_S1x128_1 b1))
        (broadcastInDim S1x128 ![] bcast_S_S1x128 (constant S_ .f32 0x00000000#32)))
      (transpose S128x128 [1, 0] w2 transposes_S128x128_S128x128_1_0))
    (broadcastInDim S1x128 ![1] bcast_S128_S1x128_1 b2)

/-- The messages accumulated per source node: a scatter-add of the message rows into zeros at the source column. -/
def aggOf (src : IVec S400000 32) (msg : FVec Ideal S400000x128 .f32) : FVec Ideal S50000x128 .f32 :=
  Host.scatterAdd scatter_S50000x128_S400000x1_S400000x128_1_0_0_1
    (broadcastInDim S50000x128 ![] bcast_S_S50000x128 (constant S_ .f32 0x00000000#32))
    (broadcastInDim S400000x1 ![0] bcast_S400000_S400000x1_0 src) msg

section Stretches
variable (X : Valuation τ sig (Elt Ideal))

set_option maxHeartbeats 4000000 in
theorem s0_time : after hostOps0_2 (after hostOps0_1 (after hostOps0 X)) (Proc.devRef .tc main_v25)
    = timeRow (X (Proc.devRef .tc main_arg3)) (X (Proc.devRef .tc main_arg15)) (X (Proc.devRef .tc main_arg16))
        (X (Proc.devRef .tc main_arg17)) (X (Proc.devRef .tc main_arg18)) := by
  dsimp only [hostOps0, hostOps0_1, hostOps0_2]; after_results_simp
  unfold timeRow
  simp only [StableHlo.TRef.toBuf, StableHlo.TRef.ofBuf, cast_eq]

set_option maxHeartbeats 4000000 in
theorem s1_take : after hostOps1 X (Proc.devRef .tc main_v27)
    = takeFill (X (Proc.devRef .tc main_v26_0)) (X (Proc.devRef .tc main_v1)) := by
  dsimp only [hostOps1]; after_results_simp
  unfold takeFill inRange wrapCol
  simp only [StableHlo.TRef.toBuf, StableHlo.TRef.ofBuf, cast_eq]

set_option maxHeartbeats 4000000 in
theorem s1a_take : after hostOps1_1 X (Proc.devRef .tc main_v28)
    = takeFill (X (Proc.devRef .tc main_v26_1)) (X (Proc.devRef .tc main_v3)) := by
  dsimp only [hostOps1_1]; after_results_simp
  unfold takeFill inRange wrapCol
  simp only [StableHlo.TRef.toBuf, StableHlo.TRef.ofBuf, cast_eq]

set_option maxHeartbeats 4000000 in
theorem s1b_take : after hostOps1_2 X (Proc.devRef .tc main_v29)
    = takeFill (X (Proc.devRef .tc main_v26_2)) (X (Proc.devRef .tc main_v3)) := by
  dsimp only [hostOps1_2]; after_results_simp
  unfold takeFill inRange wrapCol
  simp only [StableHlo.TRef.toBuf, StableHlo.TRef.ofBuf, cast_eq]

theorem s2_agg : after hostOps2 X (Proc.devRef .tc main_v33)
    = aggOf (X (Proc.devRef .tc main_v1)) (X (Proc.devRef .tc main_v30_1)) := by
  dsimp only [hostOps2]; after_results; rfl

end Stretches

/-! ## Chains: a buffer from where it is written to where it is read -/

/-- A buffer the first three stretches do not write is as launched at the projection launch's entry. -/
theorem kept3 (c : Dev nD) (r : Ref sig .tc) (h0 : r ∉ wr0) (h0a : r ∉ wr0a) (h0b : r ∉ wr0b) :
    W3 m ρ c (Proc.devRef .tc r) = W0 m ρ c (Proc.devRef .tc r) :=
  (W3_of m ρ c r h0b).trans ((W2_of m ρ c r h0a).trans (W1_of m ρ c r h0))

/-- A buffer written by the first stretch only is, at the projection launch's entry, what that stretch left. -/
theorem from1 (c : Dev nD) (r : Ref sig .tc) (h0a : r ∉ wr0a) (h0b : r ∉ wr0b) :
    W3 m ρ c (Proc.devRef .tc r) = W1 m ρ c (Proc.devRef .tc r) :=
  (W3_of m ρ c r h0b).trans (W2_of m ρ c r h0a)

/-- A buffer that is no array of the projection launch and that the three gather stretches do not write is, at the
    edge launch's entry, what it was at the projection launch's entry. -/
theorem kept7 (c : Dev nD) (r : Ref sig .tc) (h : ∀ w, Pipeline.arrRef spec0 w ≠ r) (h1 : r ∉ wr1) (h1a : r ∉ wr1a)
    (h1b : r ∉ wr1b) : W7 m ρ c (Proc.devRef .tc r) = W3 m ρ c (Proc.devRef .tc r) :=
  (W7_of m ρ c r h1b).trans ((W6_of m ρ c r h1a).trans ((W5_of m ρ c r h1).trans (W4_of_ne m ρ c r h)))

/-- A buffer that is no array of the edge launch and that the accumulation stretch does not write is, at the node
    launch's entry, what it was at the edge launch's entry. -/
theorem kept9 (c : Dev nD) (r : Ref sig .tc) (h : ∀ w, Pipeline.arrRef spec1 w ≠ r) (h2 : r ∉ wr2) :
    W9 m ρ c (Proc.devRef .tc r) = W7 m ρ c (Proc.devRef .tc r) :=
  (W9_of m ρ c r h2).trans (W8_of_ne m ρ c r h)

/-- The source row of the edge index, at the projection launch's entry. -/
theorem W3_src (c : Dev nD) : W3 m ρ c (Proc.devRef .tc main_v1) = srcOf (m ((c : Thread nD τ).loc main_arg2)) :=
  (from1 m ρ c main_v1 (by decide) (by decide)).trans (s0_src (W0 m ρ c))
/-- The destination row. -/
theorem W3_dst (c : Dev nD) : W3 m ρ c (Proc.devRef .tc main_v3) = dstOf (m ((c : Thread nD τ).loc main_arg2)) :=
  (from1 m ρ c main_v3 (by decide) (by decide)).trans (s0_dst (W0 m ρ c))

/-! ## What the projection launch finds -/

theorem V3_nodes (c : Dev nD) : V3 m ρ c main_arg0 = (m ((c : Thread nD τ).loc main_arg0)) :=
  kept3 m ρ c main_arg0 (by decide) (by decide) (by decide)
theorem V3_QT (c : Dev nD) : V3 m ρ c main_v4 = transpose S128x128 [1, 0] (m ((c : Thread nD τ).loc main_arg5)) transposes_S128x128_S128x128_1_0 :=
  (from1 m ρ c main_v4 (by decide) (by decide)).trans (s0_v4 (W0 m ρ c))
theorem V3_RT (c : Dev nD) : V3 m ρ c main_v5 = transpose S128x128 [1, 0] (m ((c : Thread nD τ).loc main_arg6)) transposes_S128x128_S128x128_1_0 :=
  (from1 m ρ c main_v5 (by decide) (by decide)).trans (s0_v5 (W0 m ρ c))
theorem V3_VT (c : Dev nD) : V3 m ρ c main_v6 = transpose S128x128 [1, 0] (m ((c : Thread nD τ).loc main_arg8)) transposes_S128x128_S128x128_1_0 :=
  (from1 m ρ c main_v6 (by decide) (by decide)).trans (s0_v6 (W0 m ρ c))

/-! ## What the projection launch leaves, and the index rows after it -/

theorem W4_Qh (c : Dev nD) : W4 m ρ c (Proc.devRef .tc main_v26_0) = (dat0 (V3 m ρ) c).arrAt 4 cfg0.N := W4_arr m ρ c 4
theorem W4_Rh (c : Dev nD) : W4 m ρ c (Proc.devRef .tc main_v26_1) = (dat0 (V3 m ρ) c).arrAt 5 cfg0.N := W4_arr m ρ c 5
theorem W4_Vh (c : Dev nD) : W4 m ρ c (Proc.devRef .tc main_v26_2) = (dat0 (V3 m ρ) c).arrAt 6 cfg0.N := W4_arr m ρ c 6
theorem W4_src (c : Dev nD) : W4 m ρ c (Proc.devRef .tc main_v1) = srcOf (m ((c : Thread nD τ).loc main_arg2)) :=
  (W4_of_ne m ρ c main_v1 (by decide)).trans (W3_src m ρ c)
theorem W4_dst (c : Dev nD) : W4 m ρ c (Proc.devRef .tc main_v3) = dstOf (m ((c : Thread nD τ).loc main_arg2)) :=
  (W4_of_ne m ρ c main_v3 (by decide)).trans (W3_dst m ρ c)
/-- The node array is an input of the projection launch: it leaves it as it found it. -/
theorem W4_nodes (c : Dev nD) : W4 m ρ c (Proc.devRef .tc main_arg0) = (m ((c : Thread nD τ).loc main_arg0)) :=
  ((W4_arr m ρ c 0).trans (((dat0 (V3 m ρ) c).arrAt_in 0 rfl _).trans (A_eq0 (V3 m ρ) c 0))).trans (V3_nodes m ρ c)

/-! ## What the edge launch finds -/

theorem V7_edges (c : Dev nD) : V7 m ρ c main_arg1 = (m ((c : Thread nD τ).loc main_arg1)) :=
  (kept7 m ρ c main_arg1 (by decide) (by decide) (by decide) (by decide)).trans (kept3 m ρ c main_arg1 (by decide) (by decide) (by decide))
theorem V7_PT (c : Dev nD) : V7 m ρ c main_v8 = transpose S128x128 [1, 0] (m ((c : Thread nD τ).loc main_arg4)) transposes_S128x128_S128x128_1_0 :=
  (kept7 m ρ c main_v8 (by decide) (by decide) (by decide) (by decide)).trans ((from1 m ρ c main_v8 (by decide) (by decide)).trans (s0_v8 (W0 m ρ c)))
theorem V7_W1T (c : Dev nD) : V7 m ρ c main_v9 = transpose S128x128 [1, 0] (m ((c : Thread nD τ).loc main_arg11)) transposes_S128x128_S128x128_1_0 :=
  (kept7 m ρ c main_v9 (by decide) (by decide) (by decide) (by decide)).trans ((from1 m ρ c main_v9 (by decide) (by decide)).trans (s0_v9 (W0 m ρ c)))
theorem V7_W2T (c : Dev nD) : V7 m ρ c main_v10 = transpose S128x128 [1, 0] (m ((c : Thread nD τ).loc main_arg13)) transposes_S128x128_S128x128_1_0 :=
  (kept7 m ρ c main_v10 (by decide) (by decide) (by decide) (by decide)).trans ((from1 m ρ c main_v10 (by decide) (by decide)).trans (s0_v10 (W0 m ρ c)))
theorem V7_gain (c : Dev nD) : V7 m ρ c main_v11 = shapeCast S1x128 (m ((c : Thread nD τ).loc main_arg9)) shapeCasts_S128_S1x128 :=
  (kept7 m ρ c main_v11 (by decide) (by decide) (by decide) (by decide)).trans ((from1 m ρ c main_v11 (by decide) (by decide)).trans (s0_v11 (W0 m ρ c)))
theorem V7_bias (c : Dev nD) : V7 m ρ c main_v12 = shapeCast S1x128 (m ((c : Thread nD τ).loc main_arg10)) shapeCasts_S128_S1x128 :=
  (kept7 m ρ c main_v12 (by decide) (by decide) (by decide) (by decide)).trans ((from1 m ρ c main_v12 (by decide) (by decide)).trans (s0_v12 (W0 m ρ c)))
theorem V7_b1 (c : Dev nD) : V7 m ρ c main_v15 = shapeCast S1x128 (m ((c : Thread nD τ).loc main_arg12)) shapeCasts_S128_S1x128 :=
  (kept7 m ρ c main_v15 (by decide) (by decide) (by decide) (by decide)).trans ((from1 m ρ c main_v15 (by decide) (by decide)).trans (s0_v15 (W0 m ρ c)))
theorem V7_b2 (c : Dev nD) : V7 m ρ c main_v16 = shapeCast S1x128 (m ((c : Thread nD τ).loc main_arg14)) shapeCasts_S128_S1x128 :=
  (kept7 m ρ c main_v16 (by decide) (by decide) (by decide) (by decide)).trans ((from1 m ρ c main_v16 (by decide) (by decide)).trans (s0_v16 (W0 m ρ c)))
theorem V7_time (c : Dev nD) : V7 m ρ c main_v25 = timeRow (m ((c : Thread nD τ).loc main_arg3)) (m ((c : Thread nD τ).loc main_arg15)) (m ((c : Thread nD τ).loc main_arg16)) (m ((c : Thread nD τ).loc main_arg17)) (m ((c : Thread nD τ).loc main_arg18)) :=
  (kept7 m ρ c main_v25 (by decide) (by decide) (by decide) (by decide)).trans (s0_time (W0 m ρ c))
/-- The first gathered projection: the take of the first projection's rows at the source row of the edge index. -/
theorem V7_qs (c : Dev nD) : V7 m ρ c main_v27 = takeFill ((dat0 (V3 m ρ) c).arrAt 4 cfg0.N) (srcOf (m ((c : Thread nD τ).loc main_arg2))) :=
  (W7_of m ρ c main_v27 (by decide)).trans ((W6_of m ρ c main_v27 (by decide)).trans
    ((s1_take (W4 m ρ c)).trans (congrArg₂ takeFill (W4_Qh m ρ c) (W4_src m ρ c))))
/-- The second: the second projection's rows at the destination row. -/
theorem V7_rd (c : Dev nD) : V7 m ρ c main_v28 = takeFill ((dat0 (V3 m ρ) c).arrAt 5 cfg0.N) (dstOf (m ((c : Thread nD τ).loc main_arg2))) :=
  (W7_of m ρ c main_v28 (by decide)).trans ((s1a_take (W5 m ρ c)).trans
    (congrArg₂ takeFill ((W5_of m ρ c main_v26_1 (by decide)).trans (W4_Rh m ρ c))
      ((W5_of m ρ c main_v3 (by decide)).trans (W4_dst m ρ c))))
/-- The third: the third projection's rows at the destination row. -/
theorem V7_vd (c : Dev nD) : V7 m ρ c main_v29 = takeFill ((dat0 (V3 m ρ) c).arrAt 6 cfg0.N) (dstOf (m ((c : Thread nD τ).loc main_arg2))) :=
  (s1b_take (W6 m ρ c)).trans
    (congrArg₂ takeFill ((W6_of m ρ c main_v26_2 (by decide)).trans ((W5_of m ρ c main_v26_2 (by decide)).trans (W4_Vh m ρ c)))
      ((W6_of m ρ c main_v3 (by decide)).trans ((W5_of m ρ c main_v3 (by decide)).trans (W4_dst m ρ c))))

/-! ## What the node launch finds -/

theorem V9_nodes (c : Dev nD) : V9 m ρ c main_arg0 = (m ((c : Thread nD τ).loc main_arg0)) :=
  (kept9 m ρ c main_arg0 (by decide) (by decide)).trans ((W7_of m ρ c main_arg0 (by decide)).trans
    ((W6_of m ρ c main_arg0 (by decide)).trans ((W5_of m ρ c main_arg0 (by decide)).trans (W4_nodes m ρ c))))
theorem W8_src (c : Dev nD) : W8 m ρ c (Proc.devRef .tc main_v1) = srcOf (m ((c : Thread nD τ).loc main_arg2)) :=
  (W8_of_ne m ρ c main_v1 (by decide)).trans ((kept7 m ρ c main_v1 (by decide) (by decide) (by decide) (by decide)).trans (W3_src m ρ c))
/-- The aggregate: the messages the edge launch wrote, accumulated per source node. -/
theorem V9_agg (c : Dev nD) : V9 m ρ c main_v33 = aggOf (srcOf (m ((c : Thread nD τ).loc main_arg2))) ((dat1 (V7 m ρ) c).arrAt 13 cfg1.N) :=
  (s2_agg (W8 m ρ c)).trans (congrArg₂ aggOf (W8_src m ρ c) (W8_arr m ρ c 13))
theorem V9_UT (c : Dev nD) : V9 m ρ c main_v7 = transpose S128x128 [1, 0] (m ((c : Thread nD τ).loc main_arg7)) transposes_S128x128_S128x128_1_0 :=
  (kept9 m ρ c main_v7 (by decide) (by decide)).trans ((kept7 m ρ c main_v7 (by decide) (by decide) (by decide) (by decide)).trans
    ((from1 m ρ c main_v7 (by decide) (by decide)).trans (s0_v7 (W0 m ρ c))))
theorem V9_gain (c : Dev nD) : V9 m ρ c main_v13 = shapeCast S1x128 (m ((c : Thread nD τ).loc main_arg19)) shapeCasts_S128_S1x128 :=
  (kept9 m ρ c main_v13 (by decide) (by decide)).trans ((kept7 m ρ c main_v13 (by decide) (by decide) (by decide) (by decide)).trans
    ((from1 m ρ c main_v13 (by decide) (by decide)).trans (s0_v13 (W0 m ρ c))))
theorem V9_bias (c : Dev nD) : V9 m ρ c main_v14 = shapeCast S1x128 (m ((c : Thread nD τ).loc main_arg20)) shapeCasts_S128_S1x128 :=
  (kept9 m ρ c main_v14 (by decide) (by decide)).trans ((kept7 m ρ c main_v14 (by decide) (by decide) (by decide) (by decide)).trans
    ((from1 m ρ c main_v14 (by decide) (by decide)).trans (s0_v14 (W0 m ρ c))))

/-! ## What the two result buffers hold at the end -/

/-- The updated nodes: the node launch's output array. -/
theorem W10_hnew (c : Dev nD) : W10 m ρ c (Proc.devRef .tc main_v34) = (dat2 (V9 m ρ) c).arrAt 5 cfg2.N := W10_arr m ρ c 5
/-- The updated edges: the edge launch's first output array, untouched afterwards. -/
theorem W10_enew (c : Dev nD) : W10 m ρ c (Proc.devRef .tc main_v30_0) = (dat1 (V7 m ρ) c).arrAt 12 cfg1.N :=
  (W10_of_ne m ρ c main_v30_0 (by decide)).trans ((W9_of m ρ c main_v30_0 (by decide)).trans (W8_arr m ρ c 12))

end Cert.GraphLayer.Fold

end
-- ==== Proof.Spec.lean ====
/-
  One layer of gated message passing on a graph, as functions of rows.

  Every array here has 128 columns, and every step of the layer acts on one row at a time: a row times a
  128 × 128 matrix, a layer normalisation of a row (mean and variance over its 128 entries), an entrywise
  maximum with zero, an entrywise logistic gate. So the layer is written once, over a single row
  `Fin 128 → EReal`, and an array of `R` rows holds at index `(r, j)` the row formula of the operands' rows `r`,
  read at `j`. The same definition then describes a block of 4000 rows and the array of 400000 rows it is cut from.

  The float words that occur (128, the variance's small shift, zero, one) are kept as the values of their bit
  patterns; both programs carry the same patterns, so only `one` is ever evaluated.
-/
import Idealize.ShloMosaic.PureOps.Ideal
import Idealize.ShloMosaic.Lib.ValueIdx

noncomputable section

open Idealize.ShloMosaic

namespace Cert.GraphLayer

open ValueIdx

/-- A row of 128 extended reals. -/
abbrev Row := Fin 128 → EReal
/-- A 128 × 128 matrix, entry `(k, j)`: row index contracted, column index kept. -/
abbrev Mat := Fin 128 → Fin 128 → EReal

/-- The divisor of both means: the value of the pattern of 128.0. -/
abbrev c128 : EReal := Ideal.ofBits .f32 0x43000000#32
/-- The shift under the inverse square root: the value of the pattern nearest 1e-5. -/
abbrev cEps : EReal := Ideal.ofBits .f32 0x3727C5AC#32
/-- The value of the zero pattern. -/
abbrev cZero : EReal := Ideal.ofBits .f32 0x00000000#32
/-- The value of the pattern of 1.0. -/
abbrev cOne : EReal := Ideal.ofBits .f32 0x3F800000#32

/-! ## One row -/

/-- Row times matrix: entry `j` is the sum over `k` of `x k · W k j`. -/
def rdot (x : Row) (W : Mat) : Row := fun j => ∑ k : Fin 128, x k * W k j

/-- The mean of a row's entries. -/
def rmean (x : Row) : EReal := Ideal.div (∑ k : Fin 128, x k) c128

/-- The row with its mean taken off. -/
def rcen (x : Row) : Row := fun j => x j - rmean x

/-- The mean of the squares of the centred row. -/
def rvar (x : Row) : EReal := Ideal.div (∑ k : Fin 128, rcen x k * rcen x k) c128

/-- Layer normalisation of a row with gain `g` and bias `b`. -/
def rln (x g b : Row) : Row := fun j => rcen x j * Ideal.rsqrt (rvar x + cEps) * g j + b j

/-- Row times matrix plus bias. -/
def raff (x : Row) (W : Mat) (b : Row) : Row := fun j => rdot x W j + b j

/-- Entrywise maximum with zero. -/
def rrelu (x : Row) : Row := fun j => max (x j) cZero

/-- The edge's pre-activation: its own row through `PT`, plus the two gathered node rows. -/
def rEhat (e q r : Row) (PT : Mat) : Row := fun j => rdot e PT j + q j + r j

/-- The updated edge row: the edge row, plus a two-layer perceptron of the normalised pre-activation, plus the
    time row. -/
def rEnew (e q r : Row) (PT : Mat) (g b : Row) (W1 : Mat) (b1 : Row) (W2 : Mat) (b2 mt : Row) : Row :=
  fun j => e j + raff (rrelu (raff (rln (rEhat e q r PT) g b) W1 b1)) W2 b2 j + mt j

/-- The gated message of an edge: the logistic of the pre-activation times the gathered node row. -/
def rMsg (e q r vd : Row) (PT : Mat) : Row := fun j => Ideal.logistic (rEhat e q r PT j) * vd j

/-- The updated node row: the node row plus the rectified normalisation of its projection plus the
    aggregated messages. -/
def rHnew (h agg : Row) (UT : Mat) (g b : Row) : Row :=
  fun j => h j + rrelu (rln (fun j' => rdot h UT j' + agg j') g b) j

/-! ## Arrays of rows -/

/-- Row `r` of an array of `R` rows. -/
abbrev rowOf {R : Nat} (A : (⟨2, ![R, 128]⟩ : Shape).Idx → EReal) (r : Fin R) : Row := fun k => A (ix2 r k)

/-- A 128 × 128 array as a matrix. -/
abbrev matOf (W : (⟨2, ![128, 128]⟩ : Shape).Idx → EReal) : Mat := fun k j => W (ix2 k j)

/-- A 1 × 128 array as a row. -/
abbrev vecOf (g : (⟨2, ![1, 128]⟩ : Shape).Idx → EReal) : Row := fun j => g (ix2 0 j)

/-- A vector of 128 entries as a row. -/
abbrev vec1 (g : (⟨1, ![128]⟩ : Shape).Idx → EReal) : Row := fun j => g (ix1 j)

/-- Every row through one matrix. -/
def projA {R : Nat} (h : (⟨2, ![R, 128]⟩ : Shape).Idx → EReal) (WT : Mat) : (⟨2, ![R, 128]⟩ : Shape).Idx → EReal :=
  fun i => rdot (rowOf h (i 0)) WT (i 1)

/-- The updated edges, row by row. -/
def enewA {R : Nat} (e qs rd : (⟨2, ![R, 128]⟩ : Shape).Idx → EReal) (PT : Mat) (g b : Row) (W1 : Mat) (b1 : Row)
    (W2 : Mat) (b2 mt : Row) : (⟨2, ![R, 128]⟩ : Shape).Idx → EReal :=
  fun i => rEnew (rowOf e (i 0)) (rowOf qs (i 0)) (rowOf rd (i 0)) PT g b W1 b1 W2 b2 mt (i 1)

/-- The gated messages, row by row. -/
def msgA {R : Nat} (e qs rd vd : (⟨2, ![R, 128]⟩ : Shape).Idx → EReal) (PT : Mat) : (⟨2, ![R, 128]⟩ : Shape).Idx → EReal :=
  fun i => rMsg (rowOf e (i 0)) (rowOf qs (i 0)) (rowOf rd (i 0)) (rowOf vd (i 0)) PT (i 1)

/-- The updated nodes, row by row. -/
def hnewA {R : Nat} (h agg : (⟨2, ![R, 128]⟩ : Shape).Idx → EReal) (UT : Mat) (g b : Row) :
    (⟨2, ![R, 128]⟩ : Shape).Idx → EReal :=
  fun i => rHnew (rowOf h (i 0)) (rowOf agg (i 0)) UT g b (i 1)

/-! ## Rows of a block are rows of the array

  Each array-level function reads, at index `(r, j)`, only row `r` of its row-indexed operands. So if a block's row
  `p` is the array's row `r`, the function of the blocks at `(p, j)` is the function of the arrays at `(r, j)`. -/

theorem projA_rows {R R' : Nat} (h : (⟨2, ![R, 128]⟩ : Shape).Idx → EReal) (h' : (⟨2, ![R', 128]⟩ : Shape).Idx → EReal)
    (WT : Mat) (p : Fin R) (r : Fin R') (j : Fin 128) (hh : rowOf h p = rowOf h' r) :
    projA h WT (ix2 p j) = projA h' WT (ix2 r j) := by
  show rdot (rowOf h p) WT j = rdot (rowOf h' r) WT j
  rw [hh]

theorem enewA_rows {R R' : Nat} (e qs rd : (⟨2, ![R, 128]⟩ : Shape).Idx → EReal)
    (e' qs' rd' : (⟨2, ![R', 128]⟩ : Shape).Idx → EReal) (PT : Mat) (g b : Row) (W1 : Mat) (b1 : Row) (W2 : Mat) (b2 mt : Row)
    (p : Fin R) (r : Fin R') (j : Fin 128) (he : rowOf e p = rowOf e' r) (hq : rowOf qs p = rowOf qs' r)
    (hr : rowOf rd p = rowOf rd' r) :
    enewA e qs rd PT g b W1 b1 W2 b2 mt (ix2 p j) = enewA e' qs' rd' PT g b W1 b1 W2 b2 mt (ix2 r j) := by
  show rEnew (rowOf e p) (rowOf qs p) (rowOf rd p) PT g b W1 b1 W2 b2 mt j
    = rEnew (rowOf e' r) (rowOf qs' r) (rowOf rd' r) PT g b W1 b1 W2 b2 mt j
  rw [he, hq, hr]

theorem msgA_rows {R R' : Nat} (e qs rd vd : (⟨2, ![R, 128]⟩ : Shape).Idx → EReal)
    (e' qs' rd' vd' : (⟨2, ![R', 128]⟩ : Shape).Idx → EReal) (PT : Mat)
    (p : Fin R) (r : Fin R') (j : Fin 128) (he : rowOf e p = rowOf e' r) (hq : rowOf qs p = rowOf qs' r)
    (hr : rowOf rd p = rowOf rd' r) (hv : rowOf vd p = rowOf vd' r) :
    msgA e qs rd vd PT (ix2 p j) = msgA e' qs' rd' vd' PT (ix2 r j) := by
  show rMsg (rowOf e p) (rowOf qs p) (rowOf rd p) (rowOf vd p) PT j
    = rMsg (rowOf e' r) (rowOf qs' r) (rowOf rd' r) (rowOf vd' r) PT j
  rw [he, hq, hr, hv]

theorem hnewA_rows {R R' : Nat} (h agg : (⟨2, ![R, 128]⟩ : Shape).Idx → EReal)
    (h' agg' : (⟨2, ![R', 128]⟩ : Shape).Idx → EReal) (UT : Mat) (g b : Row)
    (p : Fin R) (r : Fin R') (j : Fin 128) (hh : rowOf h p = rowOf h' r) (ha : rowOf agg p = rowOf agg' r) :
    hnewA h agg UT g b (ix2 p j) = hnewA h' agg' UT g b (ix2 r j) := by
  show rHnew (rowOf h p) (rowOf agg p) UT g b j = rHnew (rowOf h' r) (rowOf agg' r) UT g b j
  rw [hh, ha]

/-! ## The one evaluated word -/

/-- The pattern of 1.0 is the number one. -/
theorem cOne_eq : cOne = 1 := by
  simp [cOne, Ideal.ofBits, Ideal.ieee, -EReal.coe_mul]
  norm_num

/-- The logistic written out with the word of 1.0 — negate, exponential, add one, divide one by it — is the
    logistic. -/
theorem logistic_expanded (x : EReal) : Ideal.div cOne (cOne + Ideal.exp (-x)) = Ideal.logistic x := by
  rw [cOne_eq]; rfl

end Cert.GraphLayer

end
-- ==== Proof.KProj.lean ====
/-
  The three node projections. The first launch cuts the 50000 node rows into ten blocks of 5000 and multiplies each
  block by three 128 × 128 matrices held whole; the three result arrays, once every block is written back, are the
  node array with every row through the matrix: `projA`.
-/
import proofs.«426754_j1262720385540_1_alg».proof.Proof.Gen.KernelIdeal.Frame
import proofs.«426754_j1262720385540_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphLayer.Proj

open Cert.KernelIdeal Cert.KernelIdeal.Gen Cert.GraphLayer ValueIdx

/-! ## One block times one matrix

  The product's dimension numbers contract the block's column axis with the matrix's row axis and keep the block's row
  axis and the matrix's column axis. So the left operand is read at (row of the output, contraction index) and the right
  operand at (contraction index, column of the output). -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block times the matrix, accumulated into zero, read at row `p` and column `q`: the sum over `k` of the
    block's entry `(p, k)` times the matrix's entry `(k, q)`. -/
theorem matmul_at (x0 : FVec Ideal S5000x128 .f32) (w : FVec Ideal S128x128 .f32) (p : Fin 5000) (q : Fin 128) :
    (matmul (F := Ideal) dot_S5000x128_S128x128_S5000x128_1_0_0_1_n_n none x0 w (constant (F := Ideal) S5000x128 .f32 0x00000000#32) : S5000x128.Idx → EReal) (ix2 p q)
      = ∑ k : Fin 128, (x0 : S5000x128.Idx → EReal) (ix2 p k) * (w : S128x128.Idx → EReal) (ix2 k q) := by
  refine (Ideal.matmul_constant_zero_apply dot_S5000x128_S128x128_S5000x128_1_0_0_1_n_n none x0 w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The first payload is the block with every row through the matrix. -/
theorem pay1 (x0 : Vec Ideal S5000x128 .f32) (x1 : Vec Ideal S128x128 .f32) :
    (k0_pay1 (F := Ideal) x0 x1 : S5000x128.Idx → EReal) = projA (R := 5000) x0 (matOf x1) := by
  funext i
  obtain ⟨p, q, rfl⟩ : ∃ (p : Fin 5000) (q : Fin 128), i = ix2 p q := ⟨i 0, i 1, eq_ix2 i⟩
  unfold k0_pay1
  rw [shapeCast_self]
  exact matmul_at x0 x1 p q

/-- The second payload likewise. -/
theorem pay2 (x0 : Vec Ideal S5000x128 .f32) (x1 : Vec Ideal S128x128 .f32) :
    (k0_pay2 (F := Ideal) x0 x1 : S5000x128.Idx → EReal) = projA (R := 5000) x0 (matOf x1) := by
  funext i
  obtain ⟨p, q, rfl⟩ : ∃ (p : Fin 5000) (q : Fin 128), i = ix2 p q := ⟨i 0, i 1, eq_ix2 i⟩
  unfold k0_pay2
  rw [shapeCast_self]
  exact matmul_at x0 x1 p q

/-- The third payload likewise. -/
theorem pay3 (x0 : Vec Ideal S5000x128 .f32) (x1 : Vec Ideal S128x128 .f32) :
    (k0_pay3 (F := Ideal) x0 x1 : S5000x128.Idx → EReal) = projA (R := 5000) x0 (matOf x1) := by
  funext i
  obtain ⟨p, q, rfl⟩ : ∃ (p : Fin 5000) (q : Fin 128), i = ix2 p q := ⟨i 0, i 1, eq_ix2 i⟩
  unfold k0_pay3
  rw [shapeCast_self]
  exact matmul_at x0 x1 p q

variable (V : (c : Dev nD) → (b : Ref sig .tc) → Buf (Elt Ideal) ((c : Thread nD τ).loc b))

/-! ## The blocks

  The grid is a line of ten points. At point `t` the node window and the three output windows sit at block
  `(t, 0)` of their arrays, blocks of 5000 rows; the three matrix windows sit at block `(0, 0)`, their whole array. -/

theorem hz : (![0, 0] : Fin 2 → Nat) = fun _ => 0 := funext fun a => by fin_cases a <;> rfl

theorem index_nodes : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_matrix1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index_matrix2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_matrix3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_out4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index_out5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem index_out6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- The node window's block at point `t` is rows `5000 t … 5000 t + 4999` of the node array. -/
theorem node_block (c : Dev nD) (t : Fin cfg0.N) (p : Fin 5000) (q : Fin 128) (r : Fin 50000)
    (hr : r.val = t.val * 5000 + p.val) :
    (iblk0 V c 0 t : S5000x128.Idx → EReal) (ix2 p q) = (V c main_arg0 : S50000x128.Idx → EReal) (ix2 r q) := by
  obtain ⟨e0, e1⟩ := index_nodes t
  unfold iblk0
  rw [View.read_apply]
  show V c main_arg0 _ = V c main_arg0 _
  congr 1
  funext a; apply Fin.ext
  match a with
  | ⟨0, _⟩ => show win0_0.index t (0 : Fin 2) * 5000 + 1 * p.val = r.val; rw [e0, hr]; omega
  | ⟨1, _⟩ => show win0_0.index t (1 : Fin 2) * 128 + 1 * q.val = q.val; rw [e1]; omega

/-- The block of input window 1 at every point is its whole matrix. -/
theorem matrix_block1 (c : Dev nD) (t : Fin cfg0.N) :
    (iblk0 V c 1 t : S128x128.Idx → EReal) = (V c main_v4 : S128x128.Idx → EReal) := by
  funext y
  obtain ⟨e0, e1⟩ := index_matrix1 t
  unfold iblk0
  rw [View.read_apply]
  show V c main_v4 _ = V c main_v4 y
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The block of input window 2 at every point is its whole matrix. -/
theorem matrix_block2 (c : Dev nD) (t : Fin cfg0.N) :
    (iblk0 V c 2 t : S128x128.Idx → EReal) = (V c main_v5 : S128x128.Idx → EReal) := by
  funext y
  obtain ⟨e0, e1⟩ := index_matrix2 t
  unfold iblk0
  rw [View.read_apply]
  show V c main_v5 _ = V c main_v5 y
  congr 1
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The block of input window 3 at every point is its whole matrix. -/
theorem matrix_block3 (c : Dev nD) (t : Fin cfg0.N) :
    (iblk0 V c 3 t : S128x128.Idx → EReal) = (V c main_v6 : S128x128.Idx → EReal) := by
  funext y
  obtain ⟨e0, e1⟩ := index_matrix3 t
  unfold iblk0
  rw [View.read_apply]
  show V c main_v6 _ = V c main_v6 y
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-! ## Output window 4 -/

/-- The one store through the whole block leaves the payload of the loaded blocks. -/
theorem stored4 (x0 : Vec Ideal S5000x128 .f32) (x1 x2 x3 : Vec Ideal S128x128 .f32) :
    out0_4 (F := Ideal) x0 x1 x2 x3 = k0_pay1 (F := Ideal) x0 x1 := by
  unfold out0_4
  rw [View.canon_unit_zero hz]
  simp only [View.ld_unit_zero (S := S5000x128) hz, View.ld_unit_zero (S := S128x128) hz]

/-- What point `t` writes back is block `t` of the node array with every row through the matrix: row `p` of the
    block is row `5000 t + p` of the array, on the input side and on the output side alike. -/
theorem flushed4 (c : Dev nD) (t : Fin cfg0.N) :
    (dat0 (F := Ideal) V c).flushed 4 t = ((cfg0.win 4).blk t).view.read (Elt Ideal)
      (projA (R := 50000) (V c main_arg0 : S50000x128.Idx → EReal) (matOf (V c main_v4 : S128x128.Idx → EReal))) := by
  show (cfg0.win 4).cut (grid0.coords t) ((dat0 V c).after 4 t) = _
  rw [after0_4, stored4, pay1]
  funext y
  obtain ⟨p, q, rfl⟩ : ∃ (p : Fin 5000) (q : Fin 128), y = ix2 p q := ⟨y 0, y 1, eq_ix2 y⟩
  have hr : t.val * 5000 + p.val < 50000 := by
    have ht := t.isLt; have hN : cfg0.N = 10 := N_0; have hp := p.isLt; omega
  obtain ⟨e0, e1⟩ := index_out4 t
  have hemb : ((cfg0.win 4).blk t).view.emb (ix2 p q) = (ix2 ⟨t.val * 5000 + p.val, hr⟩ q : S50000x128.Idx) := by
    funext a; apply Fin.ext
    match a with
    | ⟨0, _⟩ => show win0_4.index t (0 : Fin 2) * 5000 + 1 * p.val = t.val * 5000 + p.val; rw [e0]; omega
    | ⟨1, _⟩ => show win0_4.index t (1 : Fin 2) * 128 + 1 * q.val = q.val; rw [e1]; omega
  show projA (R := 5000) (iblk0 V c 0 t) (matOf (iblk0 V c 1 t)) (ix2 p q)
    = projA (R := 50000) (V c main_arg0 : S50000x128.Idx → EReal) (matOf (V c main_v4 : S128x128.Idx → EReal)) (((cfg0.win 4).blk t).view.emb (ix2 p q))
  rw [hemb, matrix_block1 V c t]
  exact projA_rows _ _ _ p ⟨t.val * 5000 + p.val, hr⟩ q (funext fun k => node_block V c t p k ⟨t.val * 5000 + p.val, hr⟩ rfl)

/-- Every index of the output array lies in the block of the point its row falls in, and every point writes back. -/
theorem covered4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1⟩ := index_out4 t
  refine ⟨t, flush0_4 t, ?_⟩
  show i ∈ ((View.whole main_v26_0).slice (win0_4.rect t)).set
  rw [View.set_slice_whole, Rect.mem_set_unit]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 128 ≤ (i 1).val ∧ (i 1).val < win0_4.index t (1 : Fin 2) * 128 + 128
    rw [e1]; omega

/-- Output window 4 of the first launch ends holding the node rows through the matrix of input window 1. -/
theorem out4 (c : Dev nD) :
    ((dat0 (F := Ideal) V c).arrAt 4 cfg0.N : S50000x128.Idx → EReal)
      = projA (R := 50000) (V c main_arg0 : S50000x128.Idx → EReal) (matOf (V c main_v4 : S128x128.Idx → EReal)) :=
  (dat0 (F := Ideal) V c).arrAt_eq_of_cover 4 _ (fun t _ => flushed4 V c t) covered4

/-! ## Output window 5 -/

/-- The one store through the whole block leaves the payload of the loaded blocks. -/
theorem stored5 (x0 : Vec Ideal S5000x128 .f32) (x1 x2 x3 : Vec Ideal S128x128 .f32) :
    out0_5 (F := Ideal) x0 x1 x2 x3 = k0_pay2 (F := Ideal) x0 x2 := by
  unfold out0_5
  rw [View.canon_unit_zero hz]
  simp only [View.ld_unit_zero (S := S5000x128) hz, View.ld_unit_zero (S := S128x128) hz]

/-- What point `t` writes back is block `t` of the node array with every row through the matrix: row `p` of the
    block is row `5000 t + p` of the array, on the input side and on the output side alike. -/
theorem flushed5 (c : Dev nD) (t : Fin cfg0.N) :
    (dat0 (F := Ideal) V c).flushed 5 t = ((cfg0.win 5).blk t).view.read (Elt Ideal)
      (projA (R := 50000) (V c main_arg0 : S50000x128.Idx → EReal) (matOf (V c main_v5 : S128x128.Idx → EReal))) := by
  show (cfg0.win 5).cut (grid0.coords t) ((dat0 V c).after 5 t) = _
  rw [after0_5, stored5, pay2]
  funext y
  obtain ⟨p, q, rfl⟩ : ∃ (p : Fin 5000) (q : Fin 128), y = ix2 p q := ⟨y 0, y 1, eq_ix2 y⟩
  have hr : t.val * 5000 + p.val < 50000 := by
    have ht := t.isLt; have hN : cfg0.N = 10 := N_0; have hp := p.isLt; omega
  obtain ⟨e0, e1⟩ := index_out5 t
  have hemb : ((cfg0.win 5).blk t).view.emb (ix2 p q) = (ix2 ⟨t.val * 5000 + p.val, hr⟩ q : S50000x128.Idx) := by
    funext a; apply Fin.ext
    match a with
    | ⟨0, _⟩ => show win0_5.index t (0 : Fin 2) * 5000 + 1 * p.val = t.val * 5000 + p.val; rw [e0]; omega
    | ⟨1, _⟩ => show win0_5.index t (1 : Fin 2) * 128 + 1 * q.val = q.val; rw [e1]; omega
  show projA (R := 5000) (iblk0 V c 0 t) (matOf (iblk0 V c 2 t)) (ix2 p q)
    = projA (R := 50000) (V c main_arg0 : S50000x128.Idx → EReal) (matOf (V c main_v5 : S128x128.Idx → EReal)) (((cfg0.win 5).blk t).view.emb (ix2 p q))
  rw [hemb, matrix_block2 V c t]
  exact projA_rows _ _ _ p ⟨t.val * 5000 + p.val, hr⟩ q (funext fun k => node_block V c t p k ⟨t.val * 5000 + p.val, hr⟩ rfl)

/-- Every index of the output array lies in the block of the point its row falls in, and every point writes back. -/
theorem covered5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1⟩ := index_out5 t
  refine ⟨t, flush0_5 t, ?_⟩
  show i ∈ ((View.whole main_v26_1).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- Output window 5: the node rows through the matrix of input window 2. -/
theorem out5 (c : Dev nD) :
    ((dat0 (F := Ideal) V c).arrAt 5 cfg0.N : S50000x128.Idx → EReal)
      = projA (R := 50000) (V c main_arg0 : S50000x128.Idx → EReal) (matOf (V c main_v5 : S128x128.Idx → EReal)) :=
  (dat0 (F := Ideal) V c).arrAt_eq_of_cover 5 _ (fun t _ => flushed5 V c t) covered5

/-! ## Output window 6 -/

/-- The one store through the whole block leaves the payload of the loaded blocks. -/
theorem stored6 (x0 : Vec Ideal S5000x128 .f32) (x1 x2 x3 : Vec Ideal S128x128 .f32) :
    out0_6 (F := Ideal) x0 x1 x2 x3 = k0_pay3 (F := Ideal) x0 x3 := by
  unfold out0_6
  rw [View.canon_unit_zero hz]
  simp only [View.ld_unit_zero (S := S5000x128) hz, View.ld_unit_zero (S := S128x128) hz]

/-- What point `t` writes back is block `t` of the node array with every row through the matrix: row `p` of the
    block is row `5000 t + p` of the array, on the input side and on the output side alike. -/
theorem flushed6 (c : Dev nD) (t : Fin cfg0.N) :
    (dat0 (F := Ideal) V c).flushed 6 t = ((cfg0.win 6).blk t).view.read (Elt Ideal)
      (projA (R := 50000) (V c main_arg0 : S50000x128.Idx → EReal) (matOf (V c main_v6 : S128x128.Idx → EReal))) := by
  show (cfg0.win 6).cut (grid0.coords t) ((dat0 V c).after 6 t) = _
  rw [after0_6, stored6, pay3]
  funext y
  obtain ⟨p, q, rfl⟩ : ∃ (p : Fin 5000) (q : Fin 128), y = ix2 p q := ⟨y 0, y 1, eq_ix2 y⟩
  have hr : t.val * 5000 + p.val < 50000 := by
    have ht := t.isLt; have hN : cfg0.N = 10 := N_0; have hp := p.isLt; omega
  obtain ⟨e0, e1⟩ := index_out6 t
  have hemb : ((cfg0.win 6).blk t).view.emb (ix2 p q) = (ix2 ⟨t.val * 5000 + p.val, hr⟩ q : S50000x128.Idx) := by
    funext a; apply Fin.ext
    match a with
    | ⟨0, _⟩ => show win0_6.index t (0 : Fin 2) * 5000 + 1 * p.val = t.val * 5000 + p.val; rw [e0]; omega
    | ⟨1, _⟩ => show win0_6.index t (1 : Fin 2) * 128 + 1 * q.val = q.val; rw [e1]; omega
  show projA (R := 5000) (iblk0 V c 0 t) (matOf (iblk0 V c 3 t)) (ix2 p q)
    = projA (R := 50000) (V c main_arg0 : S50000x128.Idx → EReal) (matOf (V c main_v6 : S128x128.Idx → EReal)) (((cfg0.win 6).blk t).view.emb (ix2 p q))
  rw [hemb, matrix_block3 V c t]
  exact projA_rows _ _ _ p ⟨t.val * 5000 + p.val, hr⟩ q (funext fun k => node_block V c t p k ⟨t.val * 5000 + p.val, hr⟩ rfl)

/-- Every index of the output array lies in the block of the point its row falls in, and every point writes back. -/
theorem covered6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1⟩ := index_out6 t
  refine ⟨t, flush0_6 t, ?_⟩
  show i ∈ ((View.whole main_v26_2).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- Output window 6: the node rows through the matrix of input window 3. -/
theorem out6 (c : Dev nD) :
    ((dat0 (F := Ideal) V c).arrAt 6 cfg0.N : S50000x128.Idx → EReal)
      = projA (R := 50000) (V c main_arg0 : S50000x128.Idx → EReal) (matOf (V c main_v6 : S128x128.Idx → EReal)) :=
  (dat0 (F := Ideal) V c).arrAt_eq_of_cover 6 _ (fun t _ => flushed6 V c t) covered6

end Cert.GraphLayer.Proj

end
-- ==== Proof.KEdge.lean ====
/-
  The edge launch. It cuts the 400000 edge rows into a hundred blocks of 4000; each point reads its block of the edge
  array and of the three gathered node projections, and whole the five small operands of the layer normalisation and
  the two-layer perceptron and the time row. It writes two arrays: the updated edges and the gated messages. Row by
  row these are the specification's `enewA` and `msgA` of the arrays the launch finds.

  The order below: the body's non-pointwise operations at an index (a block times a matrix, a lane sum, the column and
  row broadcasts); each intermediate block of the body at `(p, q)` as the specification's row formula of the operands'
  rows `p`; what the one store leaves in each output buffer; row `p` of a block at point `t` is row `t · 4000 + p` of
  its array, and a whole operand's block is the operand; so point `t` writes back block `t` of the whole-array function,
  and since row `r` lies in the block of point `r / 4000`, the hundred blocks fill the array.
-/
import proofs.«426754_j1262720385540_1_alg».proof.Proof.Gen.KernelIdeal.Frame
import proofs.«426754_j1262720385540_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphLayer.Edge

open Cert.KernelIdeal Cert.KernelIdeal.Gen Cert.GraphLayer ValueIdx

variable (V : (c : Dev nD) → (b : Ref sig .tc) → Buf (Elt Ideal) ((c : Thread nD τ).loc b))

/-! ## The operations of the body read at an index -/

theorem hz : (![0, 0] : Fin 2 → Nat) = fun _ => 0 := funext fun a => by fin_cases a <;> rfl

theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block of rows times a matrix, accumulated into zero: entry `(p, q)` is row `p` times column `q`. -/
theorem matmul_rows (x : FVec Ideal S4000x128 .f32) (W : FVec Ideal S128x128 .f32) (p : Fin 4000) (q : Fin 128) :
    matmul dot_S4000x128_S128x128_S4000x128_1_0_0_1_n_n none x W (constant (F := Ideal) S4000x128 .f32 0x00000000#32) (ix2 p q)
      = rdot (rowOf x p) (matOf W) q := by
  refine (Ideal.matmul_constant_zero_apply dot_S4000x128_S128x128_S4000x128_1_0_0_1_n_n none x W (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The sum over the 128 lanes of a block, at row `p`. -/
theorem lanesum_apply (src : FVec Ideal S4000x128 .f32) (hφ : FKind.Formats .f32)
    (hacc : (0x00000000#32 : BitVec 32) = FKind.add.neutral .f32 hφ) (p : Fin 4000) :
    multiReduction .add [1] S4000 src 0x00000000#32 reduces_S4000x128_S4000 hφ hacc (ix1 p) = ∑ k : Fin 128, src (ix2 p k) := by
  refine (Ideal.multiReduction_add_single src 0x00000000#32 reduces_S4000x128_S4000 hφ hacc (ix1 p)).trans ?_
  refine Finset.sum_congr rfl fun k _ => congrArg src ?_
  funext a; apply Fin.ext
  rw [Shape.Reduces.lift_val]
  match a with
  | ⟨0, _⟩ => rfl
  | ⟨1, _⟩ => rfl

/-- A vector of 4000 entries as a column: entry `(p, 0)` is entry `p`. -/
theorem col_cast_apply {α : Type} (v : S4000.Idx → α) (p : Fin 4000) (u : Fin 1) :
    shapeCast S4000x1 v shapeCasts_S4000_S4000x1 (ix2 p u) = v (ix1 p) :=
  shapeCast_apply v shapeCasts_S4000_S4000x1 (ix2 p u) (ix1 p) (by
    have hu : u.val = 0 := by omega
    rw [Shape.rowMajor_val_one, Shape.rowMajor_val_two]
    show p.val = p.val * 1 + u.val
    omega)

/-- A column broadcast along the lanes: entry `(p, q)` is the column's entry `(p, 0)`. -/
theorem col_bcast_apply {α : Type} (v : S4000x1.Idx → α) (p : Fin 4000) (q : Fin 128) :
    broadcastTo S4000x128 v broadcasts_S4000x1_S4000x128 (ix2 p q) = v (ix2 p (0 : Fin 1)) := by
  refine broadcastTo_apply v broadcasts_S4000x1_S4000x128 (ix2 p q) (ix2 p (0 : Fin 1)) fun ax => ?_
  match ax with
  | ⟨0, _⟩ => rfl
  | ⟨1, _⟩ => rfl

/-- One row broadcast over the block's rows: entry `(p, q)` is the row's entry `q`. -/
theorem row_bcast_apply {α : Type} (v : S1x128.Idx → α) (p : Fin 4000) (q : Fin 128) :
    broadcastTo S4000x128 v broadcasts_S1x128_S4000x128 (ix2 p q) = v (ix2 (0 : Fin 1) q) :=
  broadcastTo_1b_ab_apply v broadcasts_S1x128_S4000x128 p q

/-! ## The blocks of the body, row by row

  Each intermediate block of the body is named here as the body computes it, and read at `(p, q)` as the
  specification's row formula of the operands' rows `p`. -/

/-- The column of the row means of a block: the lane sums, as a column, over 128. -/
def meanCol (h : FVec Ideal S4000x128 .f32) : FVec Ideal S4000x1 .f32 :=
  divf (shapeCast S4000x1 (multiReduction .add [1] S4000 h 0x00000000#32 reduces_S4000x128_S4000 (.inl rfl) rfl) shapeCasts_S4000_S4000x1)
    (broadcast S4000x1 (Scalar.ofBits .f32 0x43000000#32 : Ideal .f32))

theorem meanCol_apply (h : FVec Ideal S4000x128 .f32) (p : Fin 4000) (u : Fin 1) :
    meanCol h (ix2 p u) = rmean (rowOf h p) := by
  unfold meanCol
  refine (divf_apply _ _ (ix2 p u)).trans ?_
  exact congrArg₂ Ideal.div ((col_cast_apply _ p u).trans (lanesum_apply h _ _ p)) rfl

/-- The block with each row's mean taken off. -/
def cenBlk (h : FVec Ideal S4000x128 .f32) : FVec Ideal S4000x128 .f32 :=
  subf h (broadcastTo S4000x128 (meanCol h) broadcasts_S4000x1_S4000x128)

theorem cenBlk_apply (h : FVec Ideal S4000x128 .f32) (p : Fin 4000) (q : Fin 128) :
    cenBlk h (ix2 p q) = rcen (rowOf h p) q := by
  unfold cenBlk
  refine (subf_apply _ _ (ix2 p q)).trans ?_
  exact congrArg (fun m => h (ix2 p q) - m) ((col_bcast_apply _ p q).trans (meanCol_apply h p 0))

/-- The column of the row variances: the lane sums of the squares of the centred block, over 128. -/
def varCol (h : FVec Ideal S4000x128 .f32) : FVec Ideal S4000x1 .f32 :=
  divf (shapeCast S4000x1 (multiReduction .add [1] S4000 (mulf (cenBlk h) (cenBlk h)) 0x00000000#32 reduces_S4000x128_S4000 (.inl rfl) rfl) shapeCasts_S4000_S4000x1)
    (broadcast S4000x1 (Scalar.ofBits .f32 0x43000000#32 : Ideal .f32))

theorem varCol_apply (h : FVec Ideal S4000x128 .f32) (p : Fin 4000) (u : Fin 1) :
    varCol h (ix2 p u) = rvar (rowOf h p) := by
  unfold varCol
  refine (divf_apply _ _ (ix2 p u)).trans ?_
  refine congrArg₂ Ideal.div ((col_cast_apply _ p u).trans ((lanesum_apply _ _ _ p).trans ?_)) rfl
  exact Finset.sum_congr rfl fun k _ => (mulf_apply _ _ (ix2 p k)).trans (congrArg₂ (· * ·) (cenBlk_apply h p k) (cenBlk_apply h p k))

/-- The layer normalisation of a block with gain `g` and bias `b`. -/
def lnBlk (h : FVec Ideal S4000x128 .f32) (g b : Vec Ideal S1x128 .f32) : FVec Ideal S4000x128 .f32 :=
  addf (mulf (mulf (cenBlk h)
        (broadcastTo S4000x128 (rsqrt (addf (varCol h) (broadcast S4000x1 (Scalar.ofBits .f32 0x3727C5AC#32 : Ideal .f32)))) broadcasts_S4000x1_S4000x128))
      (broadcastTo S4000x128 (shapeCast S1x128 g shapeCasts_S1x128_S1x128) broadcasts_S1x128_S4000x128))
    (broadcastTo S4000x128 (shapeCast S1x128 b shapeCasts_S1x128_S1x128) broadcasts_S1x128_S4000x128)

theorem lnBlk_apply (h : FVec Ideal S4000x128 .f32) (g b : Vec Ideal S1x128 .f32) (p : Fin 4000) (q : Fin 128) :
    lnBlk h g b (ix2 p q) = rln (rowOf h p) (vecOf g) (vecOf b) q := by
  unfold lnBlk
  rw [shapeCast_self, shapeCast_self]
  refine (addf_apply _ _ (ix2 p q)).trans ?_
  refine congrArg₂ (· + ·) ?_ (row_bcast_apply b p q)
  refine (mulf_apply _ _ (ix2 p q)).trans ?_
  refine congrArg₂ (· * ·) ?_ (row_bcast_apply g p q)
  refine (mulf_apply _ _ (ix2 p q)).trans ?_
  refine congrArg₂ (· * ·) (cenBlk_apply h p q) ((col_bcast_apply _ p q).trans ?_)
  show Ideal.rsqrt (varCol h (ix2 p (0 : Fin 1)) + cEps) = Ideal.rsqrt (rvar (rowOf h p) + cEps)
  rw [varCol_apply]

/-- A block through a matrix plus a bias row. -/
def affBlk (z : FVec Ideal S4000x128 .f32) (W : Vec Ideal S128x128 .f32) (b : Vec Ideal S1x128 .f32) : FVec Ideal S4000x128 .f32 :=
  addf (matmul dot_S4000x128_S128x128_S4000x128_1_0_0_1_n_n none z (shapeCast S128x128 W shapeCasts_S128x128_S128x128 : FVec Ideal S128x128 .f32)
      (constant (F := Ideal) S4000x128 .f32 0x00000000#32))
    (broadcastTo S4000x128 (shapeCast S1x128 b shapeCasts_S1x128_S1x128) broadcasts_S1x128_S4000x128)

theorem affBlk_apply (z : FVec Ideal S4000x128 .f32) (W : Vec Ideal S128x128 .f32) (b : Vec Ideal S1x128 .f32) (p : Fin 4000) (q : Fin 128) :
    affBlk z W b (ix2 p q) = raff (rowOf z p) (matOf W) (vecOf b) q := by
  unfold affBlk
  rw [shapeCast_self, shapeCast_self]
  refine (addf_apply _ _ (ix2 p q)).trans ?_
  exact congrArg₂ (· + ·) (matmul_rows z W p q) (row_bcast_apply b p q)

/-- The entrywise maximum of a block with zero. -/
def reluBlk (z : FVec Ideal S4000x128 .f32) : FVec Ideal S4000x128 .f32 :=
  maximumf z (broadcast S4000x128 (Scalar.ofBits .f32 0x00000000#32 : Ideal .f32))

theorem reluBlk_apply (z : FVec Ideal S4000x128 .f32) (p : Fin 4000) (q : Fin 128) :
    reluBlk z (ix2 p q) = rrelu (rowOf z p) q := rfl

/-- The pre-activation block: the edge block through `PT`, plus the two gathered blocks. -/
theorem pay4_apply (x0 x1 x2 : Vec Ideal S4000x128 .f32) (x4 : Vec Ideal S128x128 .f32) (p : Fin 4000) (q : Fin 128) :
    k1_pay4 (F := Ideal) x0 x1 x2 x4 (ix2 p q) = rEhat (rowOf x0 p) (rowOf x1 p) (rowOf x2 p) (matOf x4) q := by
  unfold k1_pay4
  rw [shapeCast_self, shapeCast_self, shapeCast_self]
  refine (addf_apply _ _ (ix2 p q)).trans ?_
  refine congrArg₂ (· + ·) ((addf_apply _ _ (ix2 p q)).trans ?_) rfl
  exact congrArg₂ (· + ·) (matmul_rows x0 x4 p q) rfl

/-- The normalised pre-activation is the layer normalisation of the pre-activation block. -/
theorem pay5_eq (x0 x1 x2 : Vec Ideal S4000x128 .f32) (x4 : Vec Ideal S128x128 .f32) (x5 x6 : Vec Ideal S1x128 .f32) :
    k1_pay5 (F := Ideal) x0 x1 x2 x4 x5 x6 = lnBlk (k1_pay4 (F := Ideal) x0 x1 x2 x4) x5 x6 := rfl

theorem pay5_apply (x0 x1 x2 : Vec Ideal S4000x128 .f32) (x4 : Vec Ideal S128x128 .f32) (x5 x6 : Vec Ideal S1x128 .f32)
    (p : Fin 4000) (q : Fin 128) :
    k1_pay5 (F := Ideal) x0 x1 x2 x4 x5 x6 (ix2 p q)
      = rln (rEhat (rowOf x0 p) (rowOf x1 p) (rowOf x2 p) (matOf x4)) (vecOf x5) (vecOf x6) q := by
  refine (congrFun (pay5_eq x0 x1 x2 x4 x5 x6) (ix2 p q)).trans ?_
  refine (lnBlk_apply _ x5 x6 p q).trans ?_
  exact congrArg (fun r => rln r (vecOf x5) (vecOf x6) q) (funext fun k => pay4_apply x0 x1 x2 x4 p k)

/-- The stored edge block: the edge block plus the perceptron of the normalised block plus the time row. -/
theorem pay1_eq (x0 : Vec Ideal S4000x128 .f32) (z : FVec Ideal S4000x128 .f32) (x7 : Vec Ideal S128x128 .f32) (x8 : Vec Ideal S1x128 .f32)
    (x9 : Vec Ideal S128x128 .f32) (x10 x11 : Vec Ideal S1x128 .f32) :
    k1_pay1 (F := Ideal) x0 z x7 x8 x9 x10 x11
      = addf (addf x0 (affBlk (reluBlk (affBlk z x7 x8)) x9 x10))
          (broadcastTo S4000x128 (shapeCast S1x128 x11 shapeCasts_S1x128_S1x128) broadcasts_S1x128_S4000x128) := rfl

theorem pay1_apply (x0 : Vec Ideal S4000x128 .f32) (z : FVec Ideal S4000x128 .f32) (x7 : Vec Ideal S128x128 .f32) (x8 : Vec Ideal S1x128 .f32)
    (x9 : Vec Ideal S128x128 .f32) (x10 x11 : Vec Ideal S1x128 .f32) (p : Fin 4000) (q : Fin 128) :
    k1_pay1 (F := Ideal) x0 z x7 x8 x9 x10 x11 (ix2 p q)
      = x0 (ix2 p q) + raff (rrelu (raff (rowOf z p) (matOf x7) (vecOf x8))) (matOf x9) (vecOf x10) q + vecOf x11 q := by
  refine (congrFun (pay1_eq x0 z x7 x8 x9 x10 x11) (ix2 p q)).trans ?_
  rw [shapeCast_self]
  refine (addf_apply _ _ (ix2 p q)).trans ?_
  refine congrArg₂ (· + ·) ((addf_apply _ _ (ix2 p q)).trans ?_) (row_bcast_apply x11 p q)
  refine congrArg (fun m => x0 (ix2 p q) + m) ((affBlk_apply _ x9 x10 p q).trans ?_)
  refine congrArg (fun r => raff r (matOf x9) (vecOf x10) q) (funext fun k => ?_)
  refine (reluBlk_apply _ p k).trans ?_
  exact congrArg (fun r => rrelu r k) (funext fun k' => affBlk_apply z x7 x8 p k')

/-- THE UPDATED EDGE BLOCK is the specification's `enewA` of the blocks the body loads. -/
theorem enew_block (x0 x1 x2 : Vec Ideal S4000x128 .f32) (x4 : Vec Ideal S128x128 .f32) (x5 x6 : Vec Ideal S1x128 .f32)
    (x7 : Vec Ideal S128x128 .f32) (x8 : Vec Ideal S1x128 .f32) (x9 : Vec Ideal S128x128 .f32) (x10 x11 : Vec Ideal S1x128 .f32) :
    k1_pay1 (F := Ideal) x0 (k1_pay5 (F := Ideal) x0 x1 x2 x4 x5 x6) x7 x8 x9 x10 x11
      = enewA (R := 4000) x0 x1 x2 (matOf x4) (vecOf x5) (vecOf x6) (matOf x7) (vecOf x8) (matOf x9) (vecOf x10) (vecOf x11) := by
  funext i
  obtain ⟨p, q, rfl⟩ : ∃ (p : Fin 4000) (q : Fin 128), i = ix2 p q := ⟨i 0, i 1, eq_ix2 i⟩
  refine (pay1_apply x0 _ x7 x8 x9 x10 x11 p q).trans ?_
  show _ = rowOf x0 p q + raff (rrelu (raff (rln (rEhat (rowOf x0 p) (rowOf x1 p) (rowOf x2 p) (matOf x4)) (vecOf x5) (vecOf x6)) (matOf x7) (vecOf x8))) (matOf x9) (vecOf x10) q + vecOf x11 q
  refine congrArg (fun r => x0 (ix2 p q) + raff (rrelu (raff r (matOf x7) (vecOf x8))) (matOf x9) (vecOf x10) q + vecOf x11 q) ?_
  exact funext fun k => pay5_apply x0 x1 x2 x4 x5 x6 p k

/-- THE MESSAGE BLOCK is the specification's `msgA` of the blocks the body loads. -/
theorem msg_block (x0 x1 x2 x3 : Vec Ideal S4000x128 .f32) (x4 : Vec Ideal S128x128 .f32) :
    k1_pay2 (F := Ideal) (k1_pay3 (F := Ideal) x3) (k1_pay4 (F := Ideal) x0 x1 x2 x4)
      = msgA (R := 4000) x0 x1 x2 x3 (matOf x4) := by
  funext i
  obtain ⟨p, q, rfl⟩ : ∃ (p : Fin 4000) (q : Fin 128), i = ix2 p q := ⟨i 0, i 1, eq_ix2 i⟩
  unfold k1_pay2 k1_pay3
  rw [shapeCast_self]
  show Ideal.logistic (k1_pay4 (F := Ideal) x0 x1 x2 x4 (ix2 p q)) * x3 (ix2 p q)
    = Ideal.logistic (rEhat (rowOf x0 p) (rowOf x1 p) (rowOf x2 p) (matOf x4) q) * rowOf x3 p q
  rw [pay4_apply]

/-! ## What the body leaves in the two output buffers -/

/-- The one store into the edge output's buffer leaves `enewA` of the loaded blocks. -/
theorem out1_12_eq (x0 x1 x2 x3 : Vec Ideal S4000x128 .f32) (x4 : Vec Ideal S128x128 .f32) (x5 x6 : Vec Ideal S1x128 .f32)
    (x7 : Vec Ideal S128x128 .f32) (x8 : Vec Ideal S1x128 .f32) (x9 : Vec Ideal S128x128 .f32) (x10 x11 : Vec Ideal S1x128 .f32) :
    out1_12 (F := Ideal) x0 x1 x2 x3 x4 x5 x6 x7 x8 x9 x10 x11
      = enewA (R := 4000) x0 x1 x2 (matOf x4) (vecOf x5) (vecOf x6) (matOf x7) (vecOf x8) (matOf x9) (vecOf x10) (vecOf x11) := by
  unfold out1_12
  rw [View.canon_unit_zero hz]
  simp only [View.ld_unit_zero (S := S4000x128) hz, View.ld_unit_zero (S := S128x128) hz, View.ld_unit_zero (S := S1x128) hz]
  exact enew_block x0 x1 x2 x4 x5 x6 x7 x8 x9 x10 x11

/-- The one store into the message output's buffer leaves `msgA` of the loaded blocks. -/
theorem out1_13_eq (x0 x1 x2 x3 : Vec Ideal S4000x128 .f32) (x4 : Vec Ideal S128x128 .f32) (x5 x6 : Vec Ideal S1x128 .f32)
    (x7 : Vec Ideal S128x128 .f32) (x8 : Vec Ideal S1x128 .f32) (x9 : Vec Ideal S128x128 .f32) (x10 x11 : Vec Ideal S1x128 .f32) :
    out1_13 (F := Ideal) x0 x1 x2 x3 x4 x5 x6 x7 x8 x9 x10 x11 = msgA (R := 4000) x0 x1 x2 x3 (matOf x4) := by
  unfold out1_13
  rw [View.canon_unit_zero hz]
  simp only [View.ld_unit_zero (S := S4000x128) hz, View.ld_unit_zero (S := S128x128) hz]
  exact msg_block x0 x1 x2 x3 x4

/-! ## The blocks the launch reads, as rows of its arrays -/

/-- The printed index maps over the grid of a hundred points: a row-tiled window's block index is `(t, 0)`, a whole
    operand's is `(0, 0)`. -/
theorem idx_facts : ∀ t : Fin cfg1.N,
    (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = 0 ∧ win1_4.index t 1 = 0) ∧ (win1_5.index t 0 = 0 ∧ win1_5.index t 1 = 0)
    ∧ (win1_6.index t 0 = 0 ∧ win1_6.index t 1 = 0) ∧ (win1_7.index t 0 = 0 ∧ win1_7.index t 1 = 0)
    ∧ (win1_8.index t 0 = 0 ∧ win1_8.index t 1 = 0) ∧ (win1_9.index t 0 = 0 ∧ win1_9.index t 1 = 0)
    ∧ (win1_10.index t 0 = 0 ∧ win1_10.index t 1 = 0) ∧ (win1_11.index t 0 = 0 ∧ win1_11.index t 1 = 0)
    ∧ (win1_12.index t 0 = t.val ∧ win1_12.index t 1 = 0) ∧ (win1_13.index t 0 = t.val ∧ win1_13.index t 1 = 0) :=
  (by decide +kernel : ∀ t : Fin grid1.N, _)

/-- Row `p` of the edge block at point `t` is row `t · 4000 + p` of its array. -/
theorem iblk_0_apply (c : Dev nD) (t : Fin cfg1.N) (p : Fin 4000) (q : Fin 128) (r : Fin 400000) (hr : r.val = t.val * 4000 + p.val) :
    (iblk1 (F := Ideal) V c 0 t : Vec Ideal S4000x128 .f32) (ix2 p q) = (V c main_arg1 : S400000x128.Idx → EReal) (ix2 r q) := by
  have hi := (idx_facts t).1
  unfold iblk1
  rw [View.read_apply]
  show V c main_arg1 _ = V c main_arg1 _
  refine congrArg (V c main_arg1) ?_
  funext a
  apply Fin.ext
  match a with
  | ⟨0, _⟩ => show win1_0.index t 0 * 4000 + 1 * p.val = r.val; rw [hi.1, hr]; omega
  | ⟨1, _⟩ => show win1_0.index t 1 * 128 + 1 * q.val = q.val; rw [hi.2]; omega

/-- Row `p` of the first gathered block at point `t` is row `t · 4000 + p` of its array. -/
theorem iblk_1_apply (c : Dev nD) (t : Fin cfg1.N) (p : Fin 4000) (q : Fin 128) (r : Fin 400000) (hr : r.val = t.val * 4000 + p.val) :
    (iblk1 (F := Ideal) V c 1 t : Vec Ideal S4000x128 .f32) (ix2 p q) = (V c main_v27 : S400000x128.Idx → EReal) (ix2 r q) := by
  have hi := (idx_facts t).2.1
  unfold iblk1
  rw [View.read_apply]
  show V c main_v27 _ = V c main_v27 _
  refine congrArg (V c main_v27) ?_
  funext a
  apply Fin.ext
  match a with
  | ⟨0, _⟩ => show win1_1.index t 0 * 4000 + 1 * p.val = r.val; rw [hi.1, hr]; omega
  | ⟨1, _⟩ => show win1_1.index t 1 * 128 + 1 * q.val = q.val; rw [hi.2]; omega

/-- Row `p` of the second gathered block at point `t` is row `t · 4000 + p` of its array. -/
theorem iblk_2_apply (c : Dev nD) (t : Fin cfg1.N) (p : Fin 4000) (q : Fin 128) (r : Fin 400000) (hr : r.val = t.val * 4000 + p.val) :
    (iblk1 (F := Ideal) V c 2 t : Vec Ideal S4000x128 .f32) (ix2 p q) = (V c main_v28 : S400000x128.Idx → EReal) (ix2 r q) := by
  have hi := (idx_facts t).2.2.1
  unfold iblk1
  rw [View.read_apply]
  show V c main_v28 _ = V c main_v28 _
  refine congrArg (V c main_v28) ?_
  funext a
  apply Fin.ext
  match a with
  | ⟨0, _⟩ => show win1_2.index t 0 * 4000 + 1 * p.val = r.val; rw [hi.1, hr]; omega
  | ⟨1, _⟩ => show win1_2.index t 1 * 128 + 1 * q.val = q.val; rw [hi.2]; omega

/-- Row `p` of the third gathered block at point `t` is row `t · 4000 + p` of its array. -/
theorem iblk_3_apply (c : Dev nD) (t : Fin cfg1.N) (p : Fin 4000) (q : Fin 128) (r : Fin 400000) (hr : r.val = t.val * 4000 + p.val) :
    (iblk1 (F := Ideal) V c 3 t : Vec Ideal S4000x128 .f32) (ix2 p q) = (V c main_v29 : S400000x128.Idx → EReal) (ix2 r q) := by
  have hi := (idx_facts t).2.2.2.1
  unfold iblk1
  rw [View.read_apply]
  show V c main_v29 _ = V c main_v29 _
  refine congrArg (V c main_v29) ?_
  funext a
  apply Fin.ext
  match a with
  | ⟨0, _⟩ => show win1_3.index t 0 * 4000 + 1 * p.val = r.val; rw [hi.1, hr]; omega
  | ⟨1, _⟩ => show win1_3.index t 1 * 128 + 1 * q.val = q.val; rw [hi.2]; omega

/-- The block of operand 4 is its whole array, at every point. -/
theorem iblk_4_eq (c : Dev nD) (t : Fin cfg1.N) :
    (iblk1 (F := Ideal) V c 4 t : Vec Ideal S128x128 .f32) = (V c main_v8 : S128x128.Idx → EReal) := by
  have hi := (idx_facts t).2.2.2.2.1
  funext y
  unfold iblk1
  rw [View.read_apply]
  show V c main_v8 _ = V c main_v8 _
  refine congrArg (V c main_v8) ?_
  funext a
  apply Fin.ext
  match a with
  | ⟨0, _⟩ => show win1_4.index t 0 * 128 + 1 * (y 0).val = (y 0).val; rw [hi.1]; omega
  | ⟨1, _⟩ => show win1_4.index t 1 * 128 + 1 * (y 1).val = (y 1).val; rw [hi.2]; omega

/-- The block of operand 5 is its whole array, at every point. -/
theorem iblk_5_eq (c : Dev nD) (t : Fin cfg1.N) :
    (iblk1 (F := Ideal) V c 5 t : Vec Ideal S1x128 .f32) = (V c main_v11 : S1x128.Idx → EReal) := by
  have hi := (idx_facts t).2.2.2.2.2.1
  funext y
  unfold iblk1
  rw [View.read_apply]
  show V c main_v11 _ = V c main_v11 _
  refine congrArg (V c main_v11) ?_
  funext a
  apply Fin.ext
  match a with
  | ⟨0, _⟩ => show win1_5.index t 0 * 1 + 1 * (y 0).val = (y 0).val; rw [hi.1]; omega
  | ⟨1, _⟩ => show win1_5.index t 1 * 128 + 1 * (y 1).val = (y 1).val; rw [hi.2]; omega

/-- The block of operand 6 is its whole array, at every point. -/
theorem iblk_6_eq (c : Dev nD) (t : Fin cfg1.N) :
    (iblk1 (F := Ideal) V c 6 t : Vec Ideal S1x128 .f32) = (V c main_v12 : S1x128.Idx → EReal) := by
  have hi := (idx_facts t).2.2.2.2.2.2.1
  funext y
  unfold iblk1
  rw [View.read_apply]
  show V c main_v12 _ = V c main_v12 _
  refine congrArg (V c main_v12) ?_
  funext a
  apply Fin.ext
  match a with
  | ⟨0, _⟩ => show win1_6.index t 0 * 1 + 1 * (y 0).val = (y 0).val; rw [hi.1]; omega
  | ⟨1, _⟩ => show win1_6.index t 1 * 128 + 1 * (y 1).val = (y 1).val; rw [hi.2]; omega

/-- The block of operand 7 is its whole array, at every point. -/
theorem iblk_7_eq (c : Dev nD) (t : Fin cfg1.N) :
    (iblk1 (F := Ideal) V c 7 t : Vec Ideal S128x128 .f32) = (V c main_v9 : S128x128.Idx → EReal) := by
  have hi := (idx_facts t).2.2.2.2.2.2.2.1
  funext y
  unfold iblk1
  rw [View.read_apply]
  show V c main_v9 _ = V c main_v9 _
  refine congrArg (V c main_v9) ?_
  funext a
  apply Fin.ext
  match a with
  | ⟨0, _⟩ => show win1_7.index t 0 * 128 + 1 * (y 0).val = (y 0).val; rw [hi.1]; omega
  | ⟨1, _⟩ => show win1_7.index t 1 * 128 + 1 * (y 1).val = (y 1).val; rw [hi.2]; omega

/-- The block of operand 8 is its whole array, at every point. -/
theorem iblk_8_eq (c : Dev nD) (t : Fin cfg1.N) :
    (iblk1 (F := Ideal) V c 8 t : Vec Ideal S1x128 .f32) = (V c main_v15 : S1x128.Idx → EReal) := by
  have hi := (idx_facts t).2.2.2.2.2.2.2.2.1
  funext y
  unfold iblk1
  rw [View.read_apply]
  show V c main_v15 _ = V c main_v15 _
  refine congrArg (V c main_v15) ?_
  funext a
  apply Fin.ext
  match a with
  | ⟨0, _⟩ => show win1_8.index t 0 * 1 + 1 * (y 0).val = (y 0).val; rw [hi.1]; omega
  | ⟨1, _⟩ => show win1_8.index t 1 * 128 + 1 * (y 1).val = (y 1).val; rw [hi.2]; omega

/-- The block of operand 9 is its whole array, at every point. -/
theorem iblk_9_eq (c : Dev nD) (t : Fin cfg1.N) :
    (iblk1 (F := Ideal) V c 9 t : Vec Ideal S128x128 .f32) = (V c main_v10 : S128x128.Idx → EReal) := by
  have hi := (idx_facts t).2.2.2.2.2.2.2.2.2.1
  funext y
  unfold iblk1
  rw [View.read_apply]
  show V c main_v10 _ = V c main_v10 _
  refine congrArg (V c main_v10) ?_
  funext a
  apply Fin.ext
  match a with
  | ⟨0, _⟩ => show win1_9.index t 0 * 128 + 1 * (y 0).val = (y 0).val; rw [hi.1]; omega
  | ⟨1, _⟩ => show win1_9.index t 1 * 128 + 1 * (y 1).val = (y 1).val; rw [hi.2]; omega

/-- The block of operand 10 is its whole array, at every point. -/
theorem iblk_10_eq (c : Dev nD) (t : Fin cfg1.N) :
    (iblk1 (F := Ideal) V c 10 t : Vec Ideal S1x128 .f32) = (V c main_v16 : S1x128.Idx → EReal) := by
  have hi := (idx_facts t).2.2.2.2.2.2.2.2.2.2.1
  funext y
  unfold iblk1
  rw [View.read_apply]
  show V c main_v16 _ = V c main_v16 _
  refine congrArg (V c main_v16) ?_
  funext a
  apply Fin.ext
  match a with
  | ⟨0, _⟩ => show win1_10.index t 0 * 1 + 1 * (y 0).val = (y 0).val; rw [hi.1]; omega
  | ⟨1, _⟩ => show win1_10.index t 1 * 128 + 1 * (y 1).val = (y 1).val; rw [hi.2]; omega

/-- The block of operand 11 is its whole array, at every point. -/
theorem iblk_11_eq (c : Dev nD) (t : Fin cfg1.N) :
    (iblk1 (F := Ideal) V c 11 t : Vec Ideal S1x128 .f32) = (V c main_v25 : S1x128.Idx → EReal) := by
  have hi := (idx_facts t).2.2.2.2.2.2.2.2.2.2.2.1
  funext y
  unfold iblk1
  rw [View.read_apply]
  show V c main_v25 _ = V c main_v25 _
  refine congrArg (V c main_v25) ?_
  funext a
  apply Fin.ext
  match a with
  | ⟨0, _⟩ => show win1_11.index t 0 * 1 + 1 * (y 0).val = (y 0).val; rw [hi.1]; omega
  | ⟨1, _⟩ => show win1_11.index t 1 * 128 + 1 * (y 1).val = (y 1).val; rw [hi.2]; omega

/-! ## From the blocks to the arrays -/

/-- The updated edges of the arrays the launch finds. -/
abbrev enewArr (c : Dev nD) : S400000x128.Idx → EReal :=
  enewA (R := 400000) (V c main_arg1 : S400000x128.Idx → EReal) (V c main_v27 : S400000x128.Idx → EReal)
      (V c main_v28 : S400000x128.Idx → EReal) (matOf (V c main_v8 : S128x128.Idx → EReal))
      (vecOf (V c main_v11 : S1x128.Idx → EReal)) (vecOf (V c main_v12 : S1x128.Idx → EReal))
      (matOf (V c main_v9 : S128x128.Idx → EReal)) (vecOf (V c main_v15 : S1x128.Idx → EReal))
      (matOf (V c main_v10 : S128x128.Idx → EReal)) (vecOf (V c main_v16 : S1x128.Idx → EReal))
      (vecOf (V c main_v25 : S1x128.Idx → EReal))

/-- The gated messages of the arrays the launch finds. -/
abbrev msgArr (c : Dev nD) : S400000x128.Idx → EReal :=
  msgA (R := 400000) (V c main_arg1 : S400000x128.Idx → EReal) (V c main_v27 : S400000x128.Idx → EReal)
      (V c main_v28 : S400000x128.Idx → EReal) (V c main_v29 : S400000x128.Idx → EReal)
      (matOf (V c main_v8 : S128x128.Idx → EReal))

/-- The updated edges of a block at `y` are those of the arrays at `i`, when `i` and `y` name the same lane and the
    blocks' rows `y 0` are the arrays' rows `i 0`. -/
theorem enewA_read (e qs rd : Vec Ideal S4000x128 .f32) (e' qs' rd' : S400000x128.Idx → EReal) (PT : Mat) (g b : Row) (W1 : Mat)
    (b1 : Row) (W2 : Mat) (b2 mt : Row) (y : S4000x128.Idx) (i : S400000x128.Idx) (h1 : (i 1).val = (y 1).val)
    (he : ∀ k : Fin 128, e (ix2 (y 0) k) = e' (ix2 (i 0) k)) (hq : ∀ k : Fin 128, qs (ix2 (y 0) k) = qs' (ix2 (i 0) k))
    (hr : ∀ k : Fin 128, rd (ix2 (y 0) k) = rd' (ix2 (i 0) k)) :
    enewA (R := 4000) e qs rd PT g b W1 b1 W2 b2 mt y = enewA (R := 400000) e' qs' rd' PT g b W1 b1 W2 b2 mt i := by
  have e1 : y 1 = i 1 := Fin.ext h1.symm
  show rEnew (rowOf e (y 0)) (rowOf qs (y 0)) (rowOf rd (y 0)) PT g b W1 b1 W2 b2 mt (y 1)
    = rEnew (rowOf e' (i 0)) (rowOf qs' (i 0)) (rowOf rd' (i 0)) PT g b W1 b1 W2 b2 mt (i 1)
  rw [e1, show rowOf e (y 0) = rowOf e' (i 0) from funext he, show rowOf qs (y 0) = rowOf qs' (i 0) from funext hq,
    show rowOf rd (y 0) = rowOf rd' (i 0) from funext hr]

/-- The same for the gated messages. -/
theorem msgA_read (e qs rd vd : Vec Ideal S4000x128 .f32) (e' qs' rd' vd' : S400000x128.Idx → EReal) (PT : Mat)
    (y : S4000x128.Idx) (i : S400000x128.Idx) (h1 : (i 1).val = (y 1).val)
    (he : ∀ k : Fin 128, e (ix2 (y 0) k) = e' (ix2 (i 0) k)) (hq : ∀ k : Fin 128, qs (ix2 (y 0) k) = qs' (ix2 (i 0) k))
    (hr : ∀ k : Fin 128, rd (ix2 (y 0) k) = rd' (ix2 (i 0) k)) (hv : ∀ k : Fin 128, vd (ix2 (y 0) k) = vd' (ix2 (i 0) k)) :
    msgA (R := 4000) e qs rd vd PT y = msgA (R := 400000) e' qs' rd' vd' PT i := by
  have e1 : y 1 = i 1 := Fin.ext h1.symm
  show rMsg (rowOf e (y 0)) (rowOf qs (y 0)) (rowOf rd (y 0)) (rowOf vd (y 0)) PT (y 1)
    = rMsg (rowOf e' (i 0)) (rowOf qs' (i 0)) (rowOf rd' (i 0)) (rowOf vd' (i 0)) PT (i 1)
  rw [e1, show rowOf e (y 0) = rowOf e' (i 0) from funext he, show rowOf qs (y 0) = rowOf qs' (i 0) from funext hq,
    show rowOf rd (y 0) = rowOf rd' (i 0) from funext hr, show rowOf vd (y 0) = rowOf vd' (i 0) from funext hv]

/-- WHAT POINT `t` WRITES BACK into the edge output is block `t` of the updated edges of the arrays. -/
theorem flushed12_eq (c : Dev nD) (t : Fin cfg1.N) :
    (dat1 (F := Ideal) V c).flushed 12 t = ((cfg1.win 12).blk t).view.read (Elt Ideal) (enewArr V c) := by
  have hi := (idx_facts t).2.2.2.2.2.2.2.2.2.2.2.2.1
  show (cfg1.win 12).cut (grid1.coords t) ((dat1 (F := Ideal) V c).after 12 t) = _
  rw [after1_12, out1_12_eq (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) (iblk1 (F := Ideal) V c 8 t) (iblk1 (F := Ideal) V c 9 t) (iblk1 (F := Ideal) V c 10 t) (iblk1 (F := Ideal) V c 11 t)]
  rw [iblk_4_eq V c t, iblk_5_eq V c t, iblk_6_eq V c t, iblk_7_eq V c t, iblk_8_eq V c t, iblk_9_eq V c t, iblk_10_eq V c t, iblk_11_eq V c t]
  funext y
  show enewA (R := 4000) (iblk1 (F := Ideal) V c 0 t : Vec Ideal S4000x128 .f32) (iblk1 (F := Ideal) V c 1 t : Vec Ideal S4000x128 .f32)
      (iblk1 (F := Ideal) V c 2 t : Vec Ideal S4000x128 .f32) (matOf (V c main_v8 : S128x128.Idx → EReal))
      (vecOf (V c main_v11 : S1x128.Idx → EReal)) (vecOf (V c main_v12 : S1x128.Idx → EReal))
      (matOf (V c main_v9 : S128x128.Idx → EReal)) (vecOf (V c main_v15 : S1x128.Idx → EReal))
      (matOf (V c main_v10 : S128x128.Idx → EReal)) (vecOf (V c main_v16 : S1x128.Idx → EReal))
      (vecOf (V c main_v25 : S1x128.Idx → EReal)) ((cfg1.win 12).xinj (grid1.coords t) y)
    = enewArr V c (((cfg1.win 12).blk t).view.emb y)
  have hr : ((((cfg1.win 12).blk t).view.emb y) 0).val = t.val * 4000 + (((cfg1.win 12).xinj (grid1.coords t) y) 0).val := by
    show win1_12.index t 0 * 4000 + 1 * (y 0).val = t.val * 4000 + (y 0).val
    rw [hi.1]; omega
  refine enewA_read _ _ _ _ _ _ _ _ _ _ _ _ _ _ ((cfg1.win 12).xinj (grid1.coords t) y) (((cfg1.win 12).blk t).view.emb y) ?_
    (fun k => iblk_0_apply V c t _ k _ hr) (fun k => iblk_1_apply V c t _ k _ hr) (fun k => iblk_2_apply V c t _ k _ hr)
  show win1_12.index t 1 * 128 + 1 * (y 1).val = (y 1).val
  rw [hi.2]; omega

/-- WHAT POINT `t` WRITES BACK into the message output is block `t` of the gated messages of the arrays. -/
theorem flushed13_eq (c : Dev nD) (t : Fin cfg1.N) :
    (dat1 (F := Ideal) V c).flushed 13 t = ((cfg1.win 13).blk t).view.read (Elt Ideal) (msgArr V c) := by
  have hi := (idx_facts t).2.2.2.2.2.2.2.2.2.2.2.2.2
  show (cfg1.win 13).cut (grid1.coords t) ((dat1 (F := Ideal) V c).after 13 t) = _
  rw [after1_13, out1_13_eq (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) (iblk1 (F := Ideal) V c 8 t) (iblk1 (F := Ideal) V c 9 t) (iblk1 (F := Ideal) V c 10 t) (iblk1 (F := Ideal) V c 11 t)]
  rw [iblk_4_eq V c t]
  funext y
  show msgA (R := 4000) (iblk1 (F := Ideal) V c 0 t : Vec Ideal S4000x128 .f32) (iblk1 (F := Ideal) V c 1 t : Vec Ideal S4000x128 .f32)
      (iblk1 (F := Ideal) V c 2 t : Vec Ideal S4000x128 .f32) (iblk1 (F := Ideal) V c 3 t : Vec Ideal S4000x128 .f32)
      (matOf (V c main_v8 : S128x128.Idx → EReal)) ((cfg1.win 13).xinj (grid1.coords t) y)
    = msgArr V c (((cfg1.win 13).blk t).view.emb y)
  have hr : ((((cfg1.win 13).blk t).view.emb y) 0).val = t.val * 4000 + (((cfg1.win 13).xinj (grid1.coords t) y) 0).val := by
    show win1_13.index t 0 * 4000 + 1 * (y 0).val = t.val * 4000 + (y 0).val
    rw [hi.1]; omega
  refine msgA_read _ _ _ _ _ _ _ _ _ ((cfg1.win 13).xinj (grid1.coords t) y) (((cfg1.win 13).blk t).view.emb y) ?_
    (fun k => iblk_0_apply V c t _ k _ hr) (fun k => iblk_1_apply V c t _ k _ hr) (fun k => iblk_2_apply V c t _ k _ hr)
    (fun k => iblk_3_apply V c t _ k _ hr)
  show win1_13.index t 1 * 128 + 1 * (y 1).val = (y 1).val
  rw [hi.2]; omega

/-- An index of the edge output lies in point `t`'s block iff each coordinate is in the block's range on its axis. -/
theorem mem_blk12 (t : Fin cfg1.N) (i : S400000x128.Idx) :
    i ∈ ((cfg1.win 12).blk t).view.set ↔ ∀ a : Fin 2, win1_12.index t a * S4000x128.size a ≤ (i a).val
      ∧ (i a).val < win1_12.index t a * S4000x128.size a + S4000x128.size a := by
  show i ∈ ((View.whole main_v30_0).slice (win1_12.rect t)).set ↔ _
  rw [View.set_slice_whole, Rect.mem_set_unit]
  exact Iff.rfl

theorem mem_blk13 (t : Fin cfg1.N) (i : S400000x128.Idx) :
    i ∈ ((cfg1.win 13).blk t).view.set ↔ ∀ a : Fin 2, win1_13.index t a * S4000x128.size a ≤ (i a).val
      ∧ (i a).val < win1_13.index t a * S4000x128.size a + S4000x128.size a := by
  show i ∈ ((View.whole main_v30_1).slice (win1_13.rect t)).set ↔ _
  rw [View.set_slice_whole, Rect.mem_set_unit]
  exact Iff.rfl

/-- Row `r` of the edge output is written by point `r / 4000`. -/
theorem cover12 (i : S400000x128.Idx) :
    ∃ t : Fin cfg1.N, (cfg1.win 12).flush t = true ∧ i ∈ ((cfg1.win 12).blk t).view.set := by
  have hi0 : (i 0).val < 400000 := (i 0).isLt
  have hi1 : (i 1).val < 128 := (i 1).isLt
  have hN : grid1.N = 100 := N_1
  have ht : (i 0).val / 4000 < cfg1.N := by show (i 0).val / 4000 < grid1.N; rw [hN]; omega
  refine ⟨⟨(i 0).val / 4000, ht⟩, flush1_12 _, ?_⟩
  have hi := (idx_facts ⟨(i 0).val / 4000, ht⟩).2.2.2.2.2.2.2.2.2.2.2.2.1
  rw [mem_blk12]
  intro a
  match a with
  | ⟨0, _⟩ =>
    show win1_12.index ⟨(i 0).val / 4000, ht⟩ 0 * 4000 ≤ (i 0).val ∧ (i 0).val < win1_12.index ⟨(i 0).val / 4000, ht⟩ 0 * 4000 + 4000
    rw [hi.1]; show (i 0).val / 4000 * 4000 ≤ (i 0).val ∧ (i 0).val < (i 0).val / 4000 * 4000 + 4000; omega
  | ⟨1, _⟩ =>
    show win1_12.index ⟨(i 0).val / 4000, ht⟩ 1 * 128 ≤ (i 1).val ∧ (i 1).val < win1_12.index ⟨(i 0).val / 4000, ht⟩ 1 * 128 + 128
    rw [hi.2]; omega

theorem cover13 (i : S400000x128.Idx) :
    ∃ t : Fin cfg1.N, (cfg1.win 13).flush t = true ∧ i ∈ ((cfg1.win 13).blk t).view.set := by
  have hi0 : (i 0).val < 400000 := (i 0).isLt
  have hi1 : (i 1).val < 128 := (i 1).isLt
  have hN : grid1.N = 100 := N_1
  have ht : (i 0).val / 4000 < cfg1.N := by show (i 0).val / 4000 < grid1.N; rw [hN]; omega
  refine ⟨⟨(i 0).val / 4000, ht⟩, flush1_13 _, ?_⟩
  have hi := (idx_facts ⟨(i 0).val / 4000, ht⟩).2.2.2.2.2.2.2.2.2.2.2.2.2
  rw [mem_blk13]
  intro a
  match a with
  | ⟨0, _⟩ =>
    show win1_13.index ⟨(i 0).val / 4000, ht⟩ 0 * 4000 ≤ (i 0).val ∧ (i 0).val < win1_13.index ⟨(i 0).val / 4000, ht⟩ 0 * 4000 + 4000
    rw [hi.1]; show (i 0).val / 4000 * 4000 ≤ (i 0).val ∧ (i 0).val < (i 0).val / 4000 * 4000 + 4000; omega
  | ⟨1, _⟩ =>
    show win1_13.index ⟨(i 0).val / 4000, ht⟩ 1 * 128 ≤ (i 1).val ∧ (i 1).val < win1_13.index ⟨(i 0).val / 4000, ht⟩ 1 * 128 + 128
    rw [hi.2]; omega

/-- Output window 12 of the edge launch ends holding the updated edges. -/
theorem out12 (c : Dev nD) :
    ((dat1 (F := Ideal) V c).arrAt 12 cfg1.N : S400000x128.Idx → EReal)
      = enewA (R := 400000) (V c main_arg1 : S400000x128.Idx → EReal) (V c main_v27 : S400000x128.Idx → EReal)
          (V c main_v28 : S400000x128.Idx → EReal) (matOf (V c main_v8 : S128x128.Idx → EReal))
          (vecOf (V c main_v11 : S1x128.Idx → EReal)) (vecOf (V c main_v12 : S1x128.Idx → EReal))
          (matOf (V c main_v9 : S128x128.Idx → EReal)) (vecOf (V c main_v15 : S1x128.Idx → EReal))
          (matOf (V c main_v10 : S128x128.Idx → EReal)) (vecOf (V c main_v16 : S1x128.Idx → EReal))
          (vecOf (V c main_v25 : S1x128.Idx → EReal)) :=
  (dat1 (F := Ideal) V c).arrAt_eq_of_cover 12 (enewArr V c) (fun t _ => flushed12_eq V c t) cover12

/-- Output window 13 of the edge launch ends holding the gated messages. -/
theorem out13 (c : Dev nD) :
    ((dat1 (F := Ideal) V c).arrAt 13 cfg1.N : S400000x128.Idx → EReal)
      = msgA (R := 400000) (V c main_arg1 : S400000x128.Idx → EReal) (V c main_v27 : S400000x128.Idx → EReal)
          (V c main_v28 : S400000x128.Idx → EReal) (V c main_v29 : S400000x128.Idx → EReal)
          (matOf (V c main_v8 : S128x128.Idx → EReal)) :=
  (dat1 (F := Ideal) V c).arrAt_eq_of_cover 13 (msgArr V c) (fun t _ => flushed13_eq V c t) cover13

end Cert.GraphLayer.Edge

end
-- ==== Proof.KNode.lean ====
/-
  The node launch. It cuts the 50000 node rows into ten blocks of 5000; each point reads its block of the node array and
  of the aggregated messages, and whole the projection matrix and the normalisation's gain and bias, and writes the
  updated node rows: row by row the specification's `hnewA` of the arrays the launch finds.
-/
import proofs.«426754_j1262720385540_1_alg».proof.Proof.Gen.KernelIdeal.Frame
import proofs.«426754_j1262720385540_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphLayer.Node

open Cert.KernelIdeal Cert.KernelIdeal.Gen Cert.GraphLayer ValueIdx

variable (V : (c : Dev nD) → (b : Ref sig .tc) → Buf (Elt Ideal) ((c : Thread nD τ).loc b))

/-! ## A row statistic kept as a column

  The kernel sums each row over its 128 lanes into a vector of 5000 entries, views that vector as a column of 5000 × 1,
  and spreads the column back over the 128 lanes. At `(p, q)` all of that reads entry `p`. -/

/-- A vector of `a` entries viewed as a column `[a, 1]` reads, at `(i, u)`, entry `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column's entry `p`. -/
theorem spread_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 128 lanes of a block of 5000 rows reads, at row `p`, the sum of that row's entries. -/
theorem laneSum_apply (x : FVec Ideal S5000x128 .f32) (h : S5000x128.Reduces [1] S5000) (hφ : FKind.Formats .f32)
    (hacc : (0x00000000#32 : BitVec 32) = 0x00000000#32) (p : Fin 5000) :
    multiReduction (F := Ideal) .add [1] S5000 x 0x00000000#32 h hφ hacc (ix1 p) = ∑ k : Fin 128, x (ix2 p k) := by
  refine (Ideal.multiReduction_add_single x 0x00000000#32 h hφ hacc (ix1 p)).trans ?_
  refine Finset.sum_congr rfl fun k _ => congrArg x ?_
  funext c
  apply Fin.ext
  match c with
  | ⟨0, _⟩ => rfl
  | ⟨1, _⟩ => rfl

/-- The inverse square root of a vector reads entrywise. -/
theorem rsqrt_apply {s : Shape} {φ : FTy} (a : FVec Ideal s φ) (i : s.Idx) : rsqrt a i = Ideal.rsqrt (a i) := rfl

/-! ## The block of node rows through the projection matrix

  The product contracts the block's lane axis with the matrix's row axis: at `(p, q)` it is row `p` of the block times
  column `q` of the matrix. -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero block reads, at `(p, q)`, the sum over `k` of the block's `(p, k)` times the matrix's `(k, q)`. -/
theorem product_apply (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The payload, row by row -/

/-- What the body stores, read at `(p, q)`: the specification's updated node row of row `p` of the two blocks, at `q`. -/
theorem pay1_apply (x0 x1' : Vec Ideal S5000x128 .f32) (x2 : Vec Ideal S128x128 .f32) (x3 x4 : Vec Ideal S1x128 .f32)
    (p : Fin 5000) (q : Fin 128) :
    k2_pay1 x0 x2 x1' x3 x4 (ix2 p q) = rHnew (rowOf x0 p) (rowOf x1' p) (matOf x2) (vecOf x3) (vecOf x4) q := by
  unfold k2_pay1
  simp only [shapeCast_self, addf_apply, subf_apply, mulf_apply, divf_apply, maximumf_apply, broadcast_apply, rsqrt_apply,
    spread_apply, broadcastTo_1b_ab_apply, column_apply, product_apply]
  rw [laneSum_apply, laneSum_apply]
  simp only [shapeCast_self, addf_apply, subf_apply, mulf_apply, divf_apply, maximumf_apply, broadcast_apply, rsqrt_apply,
    spread_apply, broadcastTo_1b_ab_apply, column_apply, product_apply]
  rw [laneSum_apply]
  simp only [shapeCast_self, addf_apply, subf_apply, mulf_apply, divf_apply, maximumf_apply, broadcast_apply, rsqrt_apply,
    spread_apply, broadcastTo_1b_ab_apply, column_apply, product_apply]
  rfl

/-- The payload as a whole block: the specification's updated nodes of the two blocks. -/
theorem pay1_eq (x0 x1' : Vec Ideal S5000x128 .f32) (x2 : Vec Ideal S128x128 .f32) (x3 x4 : Vec Ideal S1x128 .f32) :
    k2_pay1 x0 x2 x1' x3 x4 = hnewA (R := 5000) x0 x1' (matOf x2) (vecOf x3) (vecOf x4) := by
  funext i
  obtain ⟨p, q, rfl⟩ : ∃ (p : Fin 5000) (q : Fin 128), i = ix2 p q := ⟨i 0, i 1, eq_ix2 i⟩
  exact pay1_apply x0 x1' x2 x3 x4 p q

/-! ## The store

  The body's one store goes through the whole block's rectangle, and so do its loads: the output buffer ends holding the
  payload of the input buffers. -/

/-- The zero offsets of a whole-block rectangle, as a constant function. -/
theorem hz : (![0, 0] : Fin 2 → Nat) = fun _ => 0 := funext fun a => by fin_cases a <;> rfl

/-- What the body leaves in the output buffer: the updated nodes of the two input blocks. -/
theorem out2_5_eq (x0 x1' : Vec Ideal S5000x128 .f32) (x2 : Vec Ideal S128x128 .f32) (x3 x4 : Vec Ideal S1x128 .f32) :
    out2_5 x0 x1' x2 x3 x4 = hnewA (R := 5000) x0 x1' (matOf x2) (vecOf x3) (vecOf x4) := by
  unfold out2_5
  rw [View.canon_unit_zero hz]
  simp only [View.ld_unit_zero (S := S5000x128) hz, View.ld_unit_zero (S := S128x128) hz, View.ld_unit_zero (S := S1x128) hz]
  exact pay1_eq x0 x1' x2 x3 x4

/-! ## The blocks the launch reads

  The node array, the aggregated messages and the output are cut into ten blocks of 5000 rows: block `t` is rows
  `5000 t … 5000 t + 4999`. The matrix, the gain and the bias are read whole at every point. -/

/-- The windows' block indices over the ten points: `(t, 0)` for the three row-tiled windows, `(0, 0)` for the three
    whole operands. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the node block at point `t` is row `5000 t + p` of the node array. -/
theorem nodeBlock_row (c : Dev nD) (t : Fin cfg2.N) (p : Fin 5000) (r : Fin 50000) (hr : r.val = t.val * 5000 + p.val) :
    rowOf (R := 5000) (iblk2 V c 0 t : Vec Ideal S5000x128 .f32) p
      = rowOf (R := 50000) (V c main_arg0 : S50000x128.Idx → EReal) r := by
  obtain ⟨e0, e1, -⟩ := index_facts t
  funext q
  show (iblk2 V c 0 t : Vec Ideal S5000x128 .f32) (ix2 p q) = (V c main_arg0 : S50000x128.Idx → EReal) (ix2 r q)
  unfold iblk2
  rw [View.read_apply]
  show (V c main_arg0 : S50000x128.Idx → EReal) _ = (V c main_arg0 : S50000x128.Idx → EReal) _
  refine congrArg (V c main_arg0 : S50000x128.Idx → EReal) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

/-- Row `p` of the block of aggregated messages at point `t` is row `5000 t + p` of their array. -/
theorem aggBlock_row (c : Dev nD) (t : Fin cfg2.N) (p : Fin 5000) (r : Fin 50000) (hr : r.val = t.val * 5000 + p.val) :
    rowOf (R := 5000) (iblk2 V c 1 t : Vec Ideal S5000x128 .f32) p
      = rowOf (R := 50000) (V c main_v33 : S50000x128.Idx → EReal) r := by
  obtain ⟨-, -, e0, e1, -⟩ := index_facts t
  funext q
  show (iblk2 V c 1 t : Vec Ideal S5000x128 .f32) (ix2 p q) = (V c main_v33 : S50000x128.Idx → EReal) (ix2 r q)
  unfold iblk2
  rw [View.read_apply]
  show (V c main_v33 : S50000x128.Idx → EReal) _ = (V c main_v33 : S50000x128.Idx → EReal) _
  refine congrArg (V c main_v33 : S50000x128.Idx → EReal) (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * q.val = q.val; rw [e1]; omega

/-- The matrix's block at every point is the matrix. -/
theorem matBlock_eq (c : Dev nD) (t : Fin cfg2.N) :
    (iblk2 V c 2 t : Vec Ideal S128x128 .f32) = (V c main_v7 : S128x128.Idx → EReal) := by
  obtain ⟨-, -, -, -, e0, e1, -⟩ := index_facts t
  funext y
  unfold iblk2
  rw [View.read_apply]
  show (V c main_v7 : S128x128.Idx → EReal) _ = (V c main_v7 : S128x128.Idx → EReal) y
  refine congrArg (V c main_v7 : S128x128.Idx → EReal) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The gain's block at every point is the gain. -/
theorem gainBlock_eq (c : Dev nD) (t : Fin cfg2.N) :
    (iblk2 V c 3 t : Vec Ideal S1x128 .f32) = (V c main_v13 : S1x128.Idx → EReal) := by
  obtain ⟨-, -, -, -, -, -, e0, e1, -⟩ := index_facts t
  funext y
  unfold iblk2
  rw [View.read_apply]
  show (V c main_v13 : S1x128.Idx → EReal) _ = (V c main_v13 : S1x128.Idx → EReal) y
  refine congrArg (V c main_v13 : S1x128.Idx → EReal) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The bias's block at every point is the bias. -/
theorem biasBlock_eq (c : Dev nD) (t : Fin cfg2.N) :
    (iblk2 V c 4 t : Vec Ideal S1x128 .f32) = (V c main_v14 : S1x128.Idx → EReal) := by
  obtain ⟨-, -, -, -, -, -, -, -, e0, e1, -⟩ := index_facts t
  funext y
  unfold iblk2
  rw [View.read_apply]
  show (V c main_v14 : S1x128.Idx → EReal) _ = (V c main_v14 : S1x128.Idx → EReal) y
  refine congrArg (V c main_v14 : S1x128.Idx → EReal) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-! ## What each point writes back, and the whole array -/

/-- The updated nodes of the arrays the launch finds. -/
abbrev nodesOut (c : Dev nD) : S50000x128.Idx → EReal :=
  hnewA (R := 50000) (V c main_arg0 : S50000x128.Idx → EReal) (V c main_v33 : S50000x128.Idx → EReal)
    (matOf (V c main_v7 : S128x128.Idx → EReal)) (vecOf (V c main_v13 : S1x128.Idx → EReal))
    (vecOf (V c main_v14 : S1x128.Idx → EReal))

/-- Entry `(p, q)` of the output's block at point `t` sits in the array at `(5000 t + p, q)`. -/
theorem outBlock_emb (t : Fin cfg2.N) (p : Fin 5000) (q : Fin 128) (r : Fin 50000) (hr : r.val = t.val * 5000 + p.val) :
    ((cfg2.win 5).blk t).view.emb (ix2 p q) = (ix2 r q : S50000x128.Idx) := by
  obtain ⟨-, -, -, -, -, -, -, -, -, -, e0, e1⟩ := index_facts t
  refine funext fun a => Fin.ext ?_
  match a with
  | ⟨0, _⟩ => show win2_5.index t (0 : Fin 2) * 5000 + 1 * p.val = r.val; rw [e0, hr]; omega
  | ⟨1, _⟩ => show win2_5.index t (1 : Fin 2) * 128 + 1 * q.val = q.val; rw [e1]; omega

/-- Point `t` writes back block `t` of the updated nodes: at `(p, q)` of the block the payload is the updated node row of
    row `p` of the two blocks, which are rows `5000 t + p` of the two arrays. -/
theorem flushed_eq (c : Dev nD) (t : Fin cfg2.N) :
    (dat2 V c).flushed 5 t = ((cfg2.win 5).blk t).view.read (Elt Ideal) (nodesOut V c) := by
  have ht : t.val < 10 := lt_of_lt_of_eq t.isLt N_2
  show (cfg2.win 5).cut (grid2.coords t) ((dat2 V c).after 5 t) = _
  rw [after2_5, out2_5_eq (iblk2 V c 0 t) (iblk2 V c 1 t) (iblk2 V c 2 t) (iblk2 V c 3 t) (iblk2 V c 4 t)]
  funext y
  obtain ⟨p, q, rfl⟩ : ∃ (p : Fin 5000) (q : Fin 128), y = ix2 p q := ⟨y 0, y 1, eq_ix2 y⟩
  rw [View.read_apply]
  show hnewA (R := 5000) (iblk2 V c 0 t : Vec Ideal S5000x128 .f32) (iblk2 V c 1 t : Vec Ideal S5000x128 .f32)
        (matOf (iblk2 V c 2 t : Vec Ideal S128x128 .f32)) (vecOf (iblk2 V c 3 t : Vec Ideal S1x128 .f32))
        (vecOf (iblk2 V c 4 t : Vec Ideal S1x128 .f32)) (ix2 p q)
      = nodesOut V c (((cfg2.win 5).blk t).view.emb (ix2 p q))
  rw [outBlock_emb t p q ⟨t.val * 5000 + p.val, by have := p.isLt; omega⟩ rfl, matBlock_eq V c t, gainBlock_eq V c t,
    biasBlock_eq V c t]
  exact hnewA_rows _ _ _ _ _ _ _ p ⟨t.val * 5000 + p.val, by have := p.isLt; omega⟩ q
    (nodeBlock_row V c t p _ rfl) (aggBlock_row V c t p _ rfl)

/-- Every row of the array is in the block of the point its number divided by 5000 names, and every point writes back. -/
theorem covered (i : S50000x128.Idx) :
    ∃ t : Fin cfg2.N, (cfg2.win 5).flush t = true ∧ i ∈ ((cfg2.win 5).blk t).view.set := by
  have h0 : (i 0).val < 50000 := (i 0).isLt
  have h1 : (i 1).val < 128 := (i 1).isLt
  have hN : (i 0).val / 5000 < cfg2.N := lt_of_lt_of_eq (by omega : (i 0).val / 5000 < 10) N_2.symm
  obtain ⟨-, -, -, -, -, -, -, -, -, -, e0, e1⟩ := index_facts ⟨(i 0).val / 5000, hN⟩
  have e0' : win2_5.index ⟨(i 0).val / 5000, hN⟩ (0 : Fin 2) = (i 0).val / 5000 := e0
  refine ⟨⟨(i 0).val / 5000, hN⟩, flush2_5 _, ?_⟩
  show i ∈ ((View.whole main_v34).slice (win2_5.rect ⟨(i 0).val / 5000, hN⟩)).set
  rw [View.set_slice_whole, Rect.mem_set_unit]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [e0']; omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    rw [e1]; omega

/-- Output window 5 of the node launch ends holding the updated nodes. -/
theorem out5 (c : Dev nD) :
    ((dat2 (F := Ideal) V c).arrAt 5 cfg2.N : S50000x128.Idx → EReal)
      = hnewA (R := 50000) (V c main_arg0 : S50000x128.Idx → EReal) (V c main_v33 : S50000x128.Idx → EReal)
          (matOf (V c main_v7 : S128x128.Idx → EReal)) (vecOf (V c main_v13 : S1x128.Idx → EReal))
          (vecOf (V c main_v14 : S1x128.Idx → EReal)) :=
  (dat2 V c).arrAt_eq_of_cover 5 (nodesOut V c) (fun t _ => flushed_eq V c t) covered

end Cert.GraphLayer.Node

end
-- ==== Proof.KValue.lean ====
/-
  The kernel's two results as functions of the arguments. The launches' output arrays are the specification's functions of
  what each launch finds; what each finds is read back to the arguments through the host stretches; and under the
  precondition (every entry of the edge index in 0 … 49999) the three filled takes are plain gathers. So the updated
  edges are `enewA` of the edge array, the first projection gathered at the source row, the second gathered at the
  destination row, and the small operands; the updated nodes are `hnewA` of the node array and the messages (`msgA` with
  the third projection gathered at the destination row) accumulated per source node.
-/
import proofs.«426754_j1262720385540_1_alg».proof.Proof.KRun
import proofs.«426754_j1262720385540_1_alg».proof.Proof.KGlue
import proofs.«426754_j1262720385540_1_alg».proof.Proof.KProj
import proofs.«426754_j1262720385540_1_alg».proof.Proof.KEdge
import proofs.«426754_j1262720385540_1_alg».proof.Proof.KNode

set_option maxRecDepth 16384

noncomputable section

open Idealize.ShloMosaic Idealize.ShloMosaic.TcCoe Idealize.SL.Sem
open Idealize.ShloMosaic.Pipeline (Dat)

namespace Cert.GraphLayer.KernelValue

open Cert.KernelIdeal Cert.KernelIdeal.Gen Cert.GraphLayer Cert.GraphLayer.Take Cert.GraphLayer.Fold ValueIdx

/-- A node projection gathered at an index vector: every node row through the transposed matrix, then the rows at the
    wrapped index column. -/
def gathered (h : FVec Ideal S50000x128 .f32) (W : FVec Ideal S128x128 .f32) (ix : IVec S400000 32) : FVec Ideal S400000x128 .f32 :=
  Host.gather gather_S50000x128_S400000x1_S400000x128_1_0_n_n_0_1_1128
    (projA (R := 50000) h (matOf (transpose S128x128 [1, 0] W transposes_S128x128_S128x128_1_0))) (wrapCol ix)

/-- The updated edges as a function of the arguments. -/
def edgesOut (h : FVec Ideal S50000x128 .f32) (e : FVec Ideal S400000x128 .f32) (ei : IVec S2x400000 32)
    (t : FVec Ideal S1x128 .f32) (P Q R : FVec Ideal S128x128 .f32) (g b : FVec Ideal S128 .f32)
    (w1 : FVec Ideal S128x128 .f32) (b1 : FVec Ideal S128 .f32) (w2 : FVec Ideal S128x128 .f32) (b2 : FVec Ideal S128 .f32)
    (tw1 : FVec Ideal S128x128 .f32) (tb1 : FVec Ideal S128 .f32) (tw2 : FVec Ideal S128x128 .f32) (tb2 : FVec Ideal S128 .f32) :
    FVec Ideal S400000x128 .f32 :=
  enewA (R := 400000) e (gathered h Q (srcOf ei)) (gathered h R (dstOf ei))
    (matOf (transpose S128x128 [1, 0] P transposes_S128x128_S128x128_1_0)) (vecOf (shapeCast S1x128 g shapeCasts_S128_S1x128)) (vecOf (shapeCast S1x128 b shapeCasts_S128_S1x128))
    (matOf (transpose S128x128 [1, 0] w1 transposes_S128x128_S128x128_1_0)) (vecOf (shapeCast S1x128 b1 shapeCasts_S128_S1x128))
    (matOf (transpose S128x128 [1, 0] w2 transposes_S128x128_S128x128_1_0)) (vecOf (shapeCast S1x128 b2 shapeCasts_S128_S1x128))
    (vecOf (timeRow t tw1 tb1 tw2 tb2))

/-- The gated messages as a function of the arguments. -/
def messages (h : FVec Ideal S50000x128 .f32) (e : FVec Ideal S400000x128 .f32) (ei : IVec S2x400000 32)
    (P Q R V : FVec Ideal S128x128 .f32) : FVec Ideal S400000x128 .f32 :=
  msgA (R := 400000) e (gathered h Q (srcOf ei)) (gathered h R (dstOf ei)) (gathered h V (dstOf ei))
    (matOf (transpose S128x128 [1, 0] P transposes_S128x128_S128x128_1_0))

/-- The updated nodes as a function of the arguments. -/
def nodesOut (h : FVec Ideal S50000x128 .f32) (e : FVec Ideal S400000x128 .f32) (ei : IVec S2x400000 32)
    (P Q R U V : FVec Ideal S128x128 .f32) (g b : FVec Ideal S128 .f32) : FVec Ideal S50000x128 .f32 :=
  hnewA (R := 50000) h (aggOf (srcOf ei) (messages h e ei P Q R V)) (matOf (transpose S128x128 [1, 0] U transposes_S128x128_S128x128_1_0))
    (vecOf (shapeCast S1x128 g shapeCasts_S128_S1x128)) (vecOf (shapeCast S1x128 b shapeCasts_S128_S1x128))

variable (m : (ℓ : Loc nD τ sig) → Buf (Elt Ideal) ℓ) (ρ : Dev nD → PrngReg)

/-! ## The three projections -/

theorem Qh_value (c : Dev nD) : (dat0 (F := Ideal) (V3 m ρ) c).arrAt 4 cfg0.N
    = projA (R := 50000) (m ((c : Thread nD τ).loc main_arg0)) (matOf (transpose S128x128 [1, 0] (m ((c : Thread nD τ).loc main_arg5)) transposes_S128x128_S128x128_1_0)) := by
  rw [Proj.out4 (V3 m ρ) c, V3_nodes m ρ c, V3_QT m ρ c]
theorem Rh_value (c : Dev nD) : (dat0 (F := Ideal) (V3 m ρ) c).arrAt 5 cfg0.N
    = projA (R := 50000) (m ((c : Thread nD τ).loc main_arg0)) (matOf (transpose S128x128 [1, 0] (m ((c : Thread nD τ).loc main_arg6)) transposes_S128x128_S128x128_1_0)) := by
  rw [Proj.out5 (V3 m ρ) c, V3_nodes m ρ c, V3_RT m ρ c]
theorem Vh_value (c : Dev nD) : (dat0 (F := Ideal) (V3 m ρ) c).arrAt 6 cfg0.N
    = projA (R := 50000) (m ((c : Thread nD τ).loc main_arg0)) (matOf (transpose S128x128 [1, 0] (m ((c : Thread nD τ).loc main_arg8)) transposes_S128x128_S128x128_1_0)) := by
  rw [Proj.out6 (V3 m ρ) c, V3_nodes m ρ c, V3_VT m ρ c]

/-! ## The three gathers, under the precondition -/

theorem qs_value (hpre : Cert.Pre_KernelIdeal m) (c : Dev nD) : V7 m ρ c main_v27 = gathered (m ((c : Thread nD τ).loc main_arg0)) (m ((c : Thread nD τ).loc main_arg5)) (srcOf (m ((c : Thread nD τ).loc main_arg2))) := by
  rw [V7_qs m ρ c, Qh_value m ρ c]
  exact takeFill_of_range _ _ (src_range m hpre c)
theorem rd_value (hpre : Cert.Pre_KernelIdeal m) (c : Dev nD) : V7 m ρ c main_v28 = gathered (m ((c : Thread nD τ).loc main_arg0)) (m ((c : Thread nD τ).loc main_arg6)) (dstOf (m ((c : Thread nD τ).loc main_arg2))) := by
  rw [V7_rd m ρ c, Rh_value m ρ c]
  exact takeFill_of_range _ _ (dst_range m hpre c)
theorem vd_value (hpre : Cert.Pre_KernelIdeal m) (c : Dev nD) : V7 m ρ c main_v29 = gathered (m ((c : Thread nD τ).loc main_arg0)) (m ((c : Thread nD τ).loc main_arg8)) (dstOf (m ((c : Thread nD τ).loc main_arg2))) := by
  rw [V7_vd m ρ c, Vh_value m ρ c]
  exact takeFill_of_range _ _ (dst_range m hpre c)

/-! ## The results -/

theorem enew_value (hpre : Cert.Pre_KernelIdeal m) (c : Dev nD) : W10 m ρ c (Proc.devRef .tc main_v30_0)
    = edgesOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [W10_enew m ρ c, Edge.out12 (V7 m ρ) c, V7_edges m ρ c, qs_value m ρ hpre c, rd_value m ρ hpre c, V7_PT m ρ c, V7_gain m ρ c,
    V7_bias m ρ c, V7_W1T m ρ c, V7_b1 m ρ c, V7_W2T m ρ c, V7_b2 m ρ c, V7_time m ρ c]
  rfl

theorem msg_value (hpre : Cert.Pre_KernelIdeal m) (c : Dev nD) : (dat1 (F := Ideal) (V7 m ρ) c).arrAt 13 cfg1.N
    = messages (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) := by
  rw [Edge.out13 (V7 m ρ) c, V7_edges m ρ c, qs_value m ρ hpre c, rd_value m ρ hpre c, vd_value m ρ hpre c, V7_PT m ρ c]
  rfl

theorem hnew_value (hpre : Cert.Pre_KernelIdeal m) (c : Dev nD) : W10 m ρ c (Proc.devRef .tc main_v34)
    = nodesOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg19)) (m ((c : Thread nD τ).loc main_arg20)) := by
  rw [W10_hnew m ρ c, Node.out5 (V9 m ρ) c, V9_nodes m ρ c, V9_agg m ρ c, msg_value m ρ hpre c, V9_UT m ρ c, V9_gain m ρ c, V9_bias m ρ c]
  rfl

end Cert.GraphLayer.KernelValue

end
-- ==== Proof.RefValue.lean ====
/-
  The reference's side of the bridge. Its run's result terms (the generated stages `val_main_vN`, each a function of
  @main's arguments), read row by row, are the layer's row formulas: the three node projections are `projA`, the
  gated messages `msgA`, the updated edges `enewA` and the updated nodes `hnewA`, over the gathered projections and the
  accumulated messages exactly as the reference's own gather and scatter stages give them (those two kinds of stage
  are never opened here).
-/
import proofs.«426754_j1262720385540_1_alg».proof.Defs
import proofs.«426754_j1262720385540_1_alg».proof.Proof.Gen.ReferenceIdeal.Run
import proofs.«426754_j1262720385540_1_alg».proof.Proof.Gen.ReferenceIdeal.Read
import proofs.«426754_j1262720385540_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphLayer.Ref

open Cert.ReferenceIdeal Cert.ReferenceIdeal.Gen Cert.ReferenceIdeal.Read Cert.GraphLayer ValueIdx

variable (x0 : (⟨S50000x128, .f32⟩ : BufTy).Contents (Elt Ideal)) (x1 : (⟨S400000x128, .f32⟩ : BufTy).Contents (Elt Ideal)) (x2 : (⟨S2x400000, .i32⟩ : BufTy).Contents (Elt Ideal))
  (x3 : (⟨S1x128, .f32⟩ : BufTy).Contents (Elt Ideal)) (x4 x5 x6 x7 x8 : (⟨S128x128, .f32⟩ : BufTy).Contents (Elt Ideal))
  (x9 x10 : (⟨S128, .f32⟩ : BufTy).Contents (Elt Ideal)) (x11 : (⟨S128x128, .f32⟩ : BufTy).Contents (Elt Ideal)) (x12 : (⟨S128, .f32⟩ : BufTy).Contents (Elt Ideal))
  (x13 : (⟨S128x128, .f32⟩ : BufTy).Contents (Elt Ideal)) (x14 : (⟨S128, .f32⟩ : BufTy).Contents (Elt Ideal)) (x15 : (⟨S128x128, .f32⟩ : BufTy).Contents (Elt Ideal))
  (x16 : (⟨S128, .f32⟩ : BufTy).Contents (Elt Ideal)) (x17 : (⟨S128x128, .f32⟩ : BufTy).Contents (Elt Ideal)) (x18 x19 x20 : (⟨S128, .f32⟩ : BufTy).Contents (Elt Ideal))

/-! ## Index equations

  The generated index functions of a contraction over the second axis of the left operand and the first of the right,
  at an index written from its two coordinates: the left operand is read at `(r, k)`, the right at `(k, j)`. -/

namespace RefValue

theorem lidx5 (r : Fin 50000) (j k : Fin 128) : lidx_main_v5 (ix2 r j) k = ix2 r k :=
  funext fun a => Fin.ext (by match a with | ⟨0, _⟩ => rfl | ⟨1, _⟩ => rfl)
theorem ridx5 (r : Fin 50000) (j k : Fin 128) : ridx_main_v5 (ix2 r j) k = ix2 k j :=
  funext fun a => Fin.ext (by match a with | ⟨0, _⟩ => rfl | ⟨1, _⟩ => rfl)
theorem lidx7 (r : Fin 50000) (j k : Fin 128) : lidx_main_v7 (ix2 r j) k = ix2 r k :=
  funext fun a => Fin.ext (by match a with | ⟨0, _⟩ => rfl | ⟨1, _⟩ => rfl)
theorem ridx7 (r : Fin 50000) (j k : Fin 128) : ridx_main_v7 (ix2 r j) k = ix2 k j :=
  funext fun a => Fin.ext (by match a with | ⟨0, _⟩ => rfl | ⟨1, _⟩ => rfl)
theorem lidx74 (r : Fin 50000) (j k : Fin 128) : lidx_main_v74 (ix2 r j) k = ix2 r k :=
  funext fun a => Fin.ext (by match a with | ⟨0, _⟩ => rfl | ⟨1, _⟩ => rfl)
theorem ridx74 (r : Fin 50000) (j k : Fin 128) : ridx_main_v74 (ix2 r j) k = ix2 k j :=
  funext fun a => Fin.ext (by match a with | ⟨0, _⟩ => rfl | ⟨1, _⟩ => rfl)
theorem lidx9 (r : Fin 400000) (j k : Fin 128) : lidx_main_v9 (ix2 r j) k = ix2 r k :=
  funext fun a => Fin.ext (by match a with | ⟨0, _⟩ => rfl | ⟨1, _⟩ => rfl)
theorem ridx9 (r : Fin 400000) (j k : Fin 128) : ridx_main_v9 (ix2 r j) k = ix2 k j :=
  funext fun a => Fin.ext (by match a with | ⟨0, _⟩ => rfl | ⟨1, _⟩ => rfl)
theorem lidx93 (r : Fin 50000) (j k : Fin 128) : lidx_main_v93 (ix2 r j) k = ix2 r k :=
  funext fun a => Fin.ext (by match a with | ⟨0, _⟩ => rfl | ⟨1, _⟩ => rfl)
theorem ridx93 (r : Fin 50000) (j k : Fin 128) : ridx_main_v93 (ix2 r j) k = ix2 k j :=
  funext fun a => Fin.ext (by match a with | ⟨0, _⟩ => rfl | ⟨1, _⟩ => rfl)

end RefValue

open RefValue

/-! ## The node projections and the edges' pre-activation -/

/-- The reference's first node projection (its `h @ Q.T`) is every node row through the transposed matrix. -/
theorem proj_q : ((val_main_v5 (F := Ideal) x0 x5) : S50000x128.Idx → EReal) = projA (R := 50000) (x0 : S50000x128.Idx → EReal) (matOf ((val_main_v4 (F := Ideal) x5) : S128x128.Idx → EReal)) := by
  funext i
  obtain ⟨r, j, rfl⟩ : ∃ (r : Fin 50000) (j : Fin 128), i = ix2 r j := ⟨i 0, i 1, eq_ix2 i⟩
  show val_main_v5 (F := Ideal) x0 x5 (ix2 r j) = ∑ k : Fin 128, x0 (ix2 r k) * val_main_v4 (F := Ideal) x5 (ix2 k j)
  rw [val_main_v5_apply]
  exact Finset.sum_congr rfl fun k _ => by rw [lidx5, ridx5]

/-- The second (`h @ R.T`). -/
theorem proj_r : ((val_main_v7 (F := Ideal) x0 x6) : S50000x128.Idx → EReal) = projA (R := 50000) (x0 : S50000x128.Idx → EReal) (matOf ((val_main_v6 (F := Ideal) x6) : S128x128.Idx → EReal)) := by
  funext i
  obtain ⟨r, j, rfl⟩ : ∃ (r : Fin 50000) (j : Fin 128), i = ix2 r j := ⟨i 0, i 1, eq_ix2 i⟩
  show val_main_v7 (F := Ideal) x0 x6 (ix2 r j) = ∑ k : Fin 128, x0 (ix2 r k) * val_main_v6 (F := Ideal) x6 (ix2 k j)
  rw [val_main_v7_apply]
  exact Finset.sum_congr rfl fun k _ => by rw [lidx7, ridx7]

/-- The third (`h @ V.T`). -/
theorem proj_v : ((val_main_v74 (F := Ideal) x0 x8) : S50000x128.Idx → EReal) = projA (R := 50000) (x0 : S50000x128.Idx → EReal) (matOf ((val_main_v73 (F := Ideal) x8) : S128x128.Idx → EReal)) := by
  funext i
  obtain ⟨r, j, rfl⟩ : ∃ (r : Fin 50000) (j : Fin 128), i = ix2 r j := ⟨i 0, i 1, eq_ix2 i⟩
  show val_main_v74 (F := Ideal) x0 x8 (ix2 r j) = ∑ k : Fin 128, x0 (ix2 r k) * val_main_v73 (F := Ideal) x8 (ix2 k j)
  rw [val_main_v74_apply]
  exact Finset.sum_congr rfl fun k _ => by rw [lidx74, ridx74]

/-- The reference's pre-activation of the edges (`e @ P.T + Qh[src] + Rh[dst]`), row by row. -/
theorem ehat : ((val_main_v25 (F := Ideal) x0 x1 x2 x4 x5 x6) : S400000x128.Idx → EReal)
    = fun i => rEhat (rowOf (R := 400000) (x1 : S400000x128.Idx → EReal) (i 0)) (rowOf (R := 400000) ((val_main_v16 (F := Ideal) x0 x2 x5) : S400000x128.Idx → EReal) (i 0))
        (rowOf (R := 400000) ((val_main_v24 (F := Ideal) x0 x2 x6) : S400000x128.Idx → EReal) (i 0)) (matOf ((val_main_v8 (F := Ideal) x4) : S128x128.Idx → EReal)) (i 1) := by
  funext i
  obtain ⟨r, j, rfl⟩ : ∃ (r : Fin 400000) (j : Fin 128), i = ix2 r j := ⟨i 0, i 1, eq_ix2 i⟩
  show val_main_v25 (F := Ideal) x0 x1 x2 x4 x5 x6 (ix2 r j)
    = (∑ k : Fin 128, x1 (ix2 r k) * val_main_v8 (F := Ideal) x4 (ix2 k j))
      + val_main_v16 (F := Ideal) x0 x2 x5 (ix2 r j) + val_main_v24 (F := Ideal) x0 x2 x6 (ix2 r j)
  rw [val_main_v25_apply, val_main_v17_apply, val_main_v9_apply]
  generalize val_main_v16 (F := Ideal) x0 x2 x5 (ix2 r j) = a
  generalize val_main_v24 (F := Ideal) x0 x2 x6 (ix2 r j) = b
  rw [Ideal.addf_def, Ideal.addf_def]
  exact congrArg (· + a + b) (Finset.sum_congr rfl fun k _ => by rw [lidx9, ridx9])

namespace RefValue

/-- The pre-activation read at one entry. -/
theorem ehat_at (r : Fin 400000) (j : Fin 128) : val_main_v25 (F := Ideal) x0 x1 x2 x4 x5 x6 (ix2 r j)
    = rEhat (rowOf (R := 400000) (x1 : S400000x128.Idx → EReal) r) (rowOf (R := 400000) ((val_main_v16 (F := Ideal) x0 x2 x5) : S400000x128.Idx → EReal) r)
        (rowOf (R := 400000) ((val_main_v24 (F := Ideal) x0 x2 x6) : S400000x128.Idx → EReal) r) (matOf ((val_main_v8 (F := Ideal) x4) : S128x128.Idx → EReal)) j :=
  congrFun (ehat x0 x1 x2 x4 x5 x6) (ix2 r j)

end RefValue

/-! ## The gated messages -/

/-- The reference's gated messages, over its three gathered stages. -/
theorem msg : ((val_main_v88 (F := Ideal) x0 x1 x2 x4 x5 x6 x8) : S400000x128.Idx → EReal)
    = msgA (R := 400000) (x1 : S400000x128.Idx → EReal) ((val_main_v16 (F := Ideal) x0 x2 x5) : S400000x128.Idx → EReal) ((val_main_v24 (F := Ideal) x0 x2 x6) : S400000x128.Idx → EReal)
        ((val_main_v87 (F := Ideal) x0 x2 x8) : S400000x128.Idx → EReal) (matOf ((val_main_v8 (F := Ideal) x4) : S128x128.Idx → EReal)) := by
  funext i
  obtain ⟨r, j, rfl⟩ : ∃ (r : Fin 400000) (j : Fin 128), i = ix2 r j := ⟨i 0, i 1, eq_ix2 i⟩
  show val_main_v88 (F := Ideal) x0 x1 x2 x4 x5 x6 x8 (ix2 r j)
    = Ideal.logistic (rEhat (rowOf (R := 400000) (x1 : S400000x128.Idx → EReal) r)
          (rowOf (R := 400000) ((val_main_v16 (F := Ideal) x0 x2 x5) : S400000x128.Idx → EReal) r)
          (rowOf (R := 400000) ((val_main_v24 (F := Ideal) x0 x2 x6) : S400000x128.Idx → EReal) r)
          (matOf ((val_main_v8 (F := Ideal) x4) : S128x128.Idx → EReal)) j)
      * val_main_v87 (F := Ideal) x0 x2 x8 (ix2 r j)
  rw [val_main_v88_apply, val_main_v80_apply, val_main_v79_apply, val_main_cst_8_apply, val_main_v78_apply,
    val_main_v77_apply, val_main_cst_7_apply, val_main_v76_apply, val_main_v75_apply, ehat_at]
  generalize val_main_v87 (F := Ideal) x0 x2 x8 (ix2 r j) = v
  generalize rEhat (rowOf (R := 400000) (x1 : S400000x128.Idx → EReal) r)
          (rowOf (R := 400000) ((val_main_v16 (F := Ideal) x0 x2 x5) : S400000x128.Idx → EReal) r)
          (rowOf (R := 400000) ((val_main_v24 (F := Ideal) x0 x2 x6) : S400000x128.Idx → EReal) r)
          (matOf ((val_main_v8 (F := Ideal) x4) : S128x128.Idx → EReal)) j = z
  show Ideal.div cOne (cOne + Ideal.exp (-z)) * v = Ideal.logistic z * v
  rw [logistic_expanded]

/-! ## The updated nodes

  Fix a node `r`. The row that enters the normalisation is stage 94 read along row `r`: the node row through the
  transposed matrix plus the accumulated messages. The stages after it are stated over any row `X` that stage 94
  equals along `r`: the mean column (stage 98) is `rmean X`, the centred entries (stages 100 and 107) are `rcen X`,
  the variance column (stage 105) is `rvar X`, the scale column (stage 110) is the inverse square root of the shifted
  variance, and stage 118 is the normalised row with the gain and bias rows read at column `j`. -/

namespace RefValue

/-- Stage 94 at `(r, k)`: the node row `r` against column `k` of the transposed matrix, plus the scatter stage there. -/
theorem v94_at (r : Fin 50000) (k : Fin 128) : val_main_v94 (F := Ideal) x0 x1 x2 x4 x5 x6 x7 x8 (ix2 r k)
    = rdot (rowOf (R := 50000) (x0 : S50000x128.Idx → EReal) r) (matOf ((val_main_v92 (F := Ideal) x7) : S128x128.Idx → EReal)) k
      + val_main_v91 (F := Ideal) x0 x1 x2 x4 x5 x6 x8 (ix2 r k) := by
  rw [val_main_v94_apply, val_main_v93_apply]
  generalize val_main_v91 (F := Ideal) x0 x1 x2 x4 x5 x6 x8 (ix2 r k) = a
  show (∑ k' : Fin 128, x0 (lidx_main_v93 (ix2 r k) k') * val_main_v92 (F := Ideal) x7 (ridx_main_v93 (ix2 r k) k')) + a
    = (∑ k' : Fin 128, x0 (ix2 r k') * val_main_v92 (F := Ideal) x7 (ix2 k' k)) + a
  exact congrArg (· + a) (Finset.sum_congr rfl fun k' _ => by rw [lidx93, ridx93])

/-- The mean column at `r`: the sum of the row over the word of 128. The sum's initial value is the zero word. -/
theorem v98_at (r : Fin 50000) (X : Row) (hX : ∀ k : Fin 128, val_main_v94 (F := Ideal) x0 x1 x2 x4 x5 x6 x7 x8 (ix2 r k) = X k) :
    val_main_v98 (F := Ideal) x0 x1 x2 x4 x5 x6 x7 x8 (ix2 r (0 : Fin 1)) = rmean X := by
  have e96 : idx_main_v96 (ix2 r (0 : Fin 1)) = ix1 r := funext fun a => Fin.ext (by match a with | ⟨0, _⟩ => rfl)
  have e95 : ∀ k : Fin 128, idx_main_v95 (ix1 r) k = ix2 r k := fun k => funext fun a => Fin.ext (by match a with | ⟨0, _⟩ => rfl | ⟨1, _⟩ => rfl)
  rw [val_main_v98_apply, val_main_v96_apply, e96, val_main_v95_apply, val_main_v97_apply, val_main_cst_13_apply,
    val_main_cst_12_apply]
  show Ideal.div (Ideal.ofBits .f32 0x00000000#32 + ∑ k : Fin 128, val_main_v94 (F := Ideal) x0 x1 x2 x4 x5 x6 x7 x8 (idx_main_v95 (ix1 r) k)) c128
    = Ideal.div (∑ k : Fin 128, X k) c128
  rw [Ideal.ofBits_zero_f32, zero_add]
  exact congrArg (Ideal.div · c128) (Finset.sum_congr rfl fun k _ => by rw [e95, hX])

/-- The centred entry (first copy, the one that is squared). -/
theorem v100_at (r : Fin 50000) (X : Row) (hX : ∀ k : Fin 128, val_main_v94 (F := Ideal) x0 x1 x2 x4 x5 x6 x7 x8 (ix2 r k) = X k) (k : Fin 128) :
    val_main_v100 (F := Ideal) x0 x1 x2 x4 x5 x6 x7 x8 (ix2 r k) = rcen X k := by
  have e99 : idx_main_v99 (ix2 r k) = ix2 r (0 : Fin 1) := funext fun a => Fin.ext (by match a with | ⟨0, _⟩ => rfl | ⟨1, _⟩ => rfl)
  rw [val_main_v100_apply, val_main_v99_apply, e99, v98_at x0 x1 x2 x4 x5 x6 x7 x8 r X hX, hX]
  rfl

/-- The centred entry (second copy, the one that is scaled). -/
theorem v107_at (r : Fin 50000) (X : Row) (hX : ∀ k : Fin 128, val_main_v94 (F := Ideal) x0 x1 x2 x4 x5 x6 x7 x8 (ix2 r k) = X k) (k : Fin 128) :
    val_main_v107 (F := Ideal) x0 x1 x2 x4 x5 x6 x7 x8 (ix2 r k) = rcen X k := by
  have e106 : idx_main_v106 (ix2 r k) = ix2 r (0 : Fin 1) := funext fun a => Fin.ext (by match a with | ⟨0, _⟩ => rfl | ⟨1, _⟩ => rfl)
  rw [val_main_v107_apply, val_main_v106_apply, e106, v98_at x0 x1 x2 x4 x5 x6 x7 x8 r X hX, hX]
  rfl

/-- The variance column at `r`: the sum of the squared centred entries over the word of 128. -/
theorem v105_at (r : Fin 50000) (X : Row) (hX : ∀ k : Fin 128, val_main_v94 (F := Ideal) x0 x1 x2 x4 x5 x6 x7 x8 (ix2 r k) = X k) :
    val_main_v105 (F := Ideal) x0 x1 x2 x4 x5 x6 x7 x8 (ix2 r (0 : Fin 1)) = rvar X := by
  have e103 : idx_main_v103 (ix2 r (0 : Fin 1)) = ix1 r := funext fun a => Fin.ext (by match a with | ⟨0, _⟩ => rfl)
  have e102 : ∀ k : Fin 128, idx_main_v102 (ix1 r) k = ix2 r k := fun k => funext fun a => Fin.ext (by match a with | ⟨0, _⟩ => rfl | ⟨1, _⟩ => rfl)
  rw [val_main_v105_apply, val_main_v103_apply, e103, val_main_v102_apply, val_main_v104_apply, val_main_cst_15_apply,
    val_main_cst_14_apply]
  show Ideal.div (Ideal.ofBits .f32 0x00000000#32 + ∑ k : Fin 128, val_main_v101 (F := Ideal) x0 x1 x2 x4 x5 x6 x7 x8 (idx_main_v102 (ix1 r) k)) c128
    = Ideal.div (∑ k : Fin 128, rcen X k * rcen X k) c128
  rw [Ideal.ofBits_zero_f32, zero_add]
  exact congrArg (Ideal.div · c128) (Finset.sum_congr rfl fun k _ => by
    rw [e102, val_main_v101_apply, v100_at x0 x1 x2 x4 x5 x6 x7 x8 r X hX k]; rfl)

/-- The scale column at `r`: the inverse square root of the variance plus the small shift. -/
theorem v110_at (r : Fin 50000) (X : Row) (hX : ∀ k : Fin 128, val_main_v94 (F := Ideal) x0 x1 x2 x4 x5 x6 x7 x8 (ix2 r k) = X k) :
    val_main_v110 (F := Ideal) x0 x1 x2 x4 x5 x6 x7 x8 (ix2 r (0 : Fin 1)) = Ideal.rsqrt (rvar X + cEps) := by
  rw [val_main_v110_apply, val_main_v109_apply, v105_at x0 x1 x2 x4 x5 x6 x7 x8 r X hX, val_main_v108_apply, val_main_cst_16_apply]
  rfl

/-- The normalised row: centred entry times the scale, times the gain at `j`, plus the bias at `j`. -/
theorem v118_at (r : Fin 50000) (X : Row) (hX : ∀ k : Fin 128, val_main_v94 (F := Ideal) x0 x1 x2 x4 x5 x6 x7 x8 (ix2 r k) = X k) (j : Fin 128) :
    val_main_v118 (F := Ideal) x0 x1 x2 x4 x5 x6 x7 x8 x19 x20 (ix2 r j)
      = rln X (vecOf ((val_main_v113 (F := Ideal) x19) : S1x128.Idx → EReal)) (vecOf ((val_main_v116 (F := Ideal) x20) : S1x128.Idx → EReal)) j := by
  have e111 : idx_main_v111 (ix2 r j) = ix2 r (0 : Fin 1) := funext fun a => Fin.ext (by match a with | ⟨0, _⟩ => rfl | ⟨1, _⟩ => rfl)
  have e114 : idx_main_v114 (ix2 r j) = ix2 (0 : Fin 1) j := funext fun a => Fin.ext (by match a with | ⟨0, _⟩ => rfl | ⟨1, _⟩ => rfl)
  have e117 : idx_main_v117 (ix2 r j) = ix2 (0 : Fin 1) j := funext fun a => Fin.ext (by match a with | ⟨0, _⟩ => rfl | ⟨1, _⟩ => rfl)
  rw [val_main_v118_apply, val_main_v115_apply, val_main_v112_apply, v107_at x0 x1 x2 x4 x5 x6 x7 x8 r X hX j, val_main_v111_apply, e111,
    v110_at x0 x1 x2 x4 x5 x6 x7 x8 r X hX, val_main_v114_apply, e114, val_main_v117_apply, e117]
  rfl

end RefValue

/-- The reference's updated nodes, over its scatter stage. -/
theorem hnew : ((val_main_v120 (F := Ideal) x0 x1 x2 x4 x5 x6 x7 x8 x19 x20) : S50000x128.Idx → EReal)
    = hnewA (R := 50000) (x0 : S50000x128.Idx → EReal) ((val_main_v91 (F := Ideal) x0 x1 x2 x4 x5 x6 x8) : S50000x128.Idx → EReal)
        (matOf ((val_main_v92 (F := Ideal) x7) : S128x128.Idx → EReal)) (vecOf ((val_main_v113 (F := Ideal) x19) : S1x128.Idx → EReal)) (vecOf ((val_main_v116 (F := Ideal) x20) : S1x128.Idx → EReal)) := by
  funext i
  obtain ⟨r, j, rfl⟩ : ∃ (r : Fin 50000) (j : Fin 128), i = ix2 r j := ⟨i 0, i 1, eq_ix2 i⟩
  show val_main_v120 (F := Ideal) x0 x1 x2 x4 x5 x6 x7 x8 x19 x20 (ix2 r j)
    = rHnew (rowOf (R := 50000) (x0 : S50000x128.Idx → EReal) r)
        (rowOf (R := 50000) ((val_main_v91 (F := Ideal) x0 x1 x2 x4 x5 x6 x8) : S50000x128.Idx → EReal) r)
        (matOf ((val_main_v92 (F := Ideal) x7) : S128x128.Idx → EReal)) (vecOf ((val_main_v113 (F := Ideal) x19) : S1x128.Idx → EReal))
        (vecOf ((val_main_v116 (F := Ideal) x20) : S1x128.Idx → EReal)) j
  rw [val_main_v120_apply, val_main_v119_apply, val_main_call2_v0_apply, val_main_call2_cst_apply,
    v118_at x0 x1 x2 x4 x5 x6 x7 x8 x19 x20 r
      (fun j' => rdot (rowOf (R := 50000) (x0 : S50000x128.Idx → EReal) r) (matOf ((val_main_v92 (F := Ideal) x7) : S128x128.Idx → EReal)) j'
        + rowOf (R := 50000) ((val_main_v91 (F := Ideal) x0 x1 x2 x4 x5 x6 x8) : S50000x128.Idx → EReal) r j')
      (fun k => v94_at x0 x1 x2 x4 x5 x6 x7 x8 r k) j]
  rfl

end Cert.GraphLayer.Ref

end
-- ==== Proof.RefEdge.lean ====
/-
  The reference's updated edges, read row by row: the edge row, plus the two-layer perceptron of the layer-normalised
  pre-activation, plus the time row — the specification's `enewA` over the reference's own gathered stages and its own
  small operands (transposed matrices, broadcast vectors, the time row's stage).

  The lemmas go bottom-up, one per intermediate array of the reference, each read at one index `(r, j)` (or
  `(r, 0)` for the one-column arrays): the row sum and the mean of the pre-activation's row `r`, the centred row, the
  sum of its squares and the variance, the inverse square root of the shifted variance, the normalised row with gain and
  bias, the first affine map and its maximum with zero, the second affine map, and last the two additions. Every lemma
  depends only on row `r` of the pre-activation; the pre-activation's own row formula is brought in at the end.
-/
import proofs.«426754_j1262720385540_1_alg».proof.Proof.RefValue

set_option maxRecDepth 16384

noncomputable section

open Idealize.ShloMosaic Idealize.ShloMosaic.TcCoe Idealize.SL.Sem
open Idealize.ShloMosaic.Pipeline (Dat)

namespace Cert.GraphLayer.Ref

open Cert.ReferenceIdeal Cert.ReferenceIdeal.Gen Cert.ReferenceIdeal.Read Cert.GraphLayer ValueIdx

variable (x0 : (⟨S50000x128, .f32⟩ : BufTy).Contents (Elt Ideal)) (x1 : (⟨S400000x128, .f32⟩ : BufTy).Contents (Elt Ideal)) (x2 : (⟨S2x400000, .i32⟩ : BufTy).Contents (Elt Ideal))
  (x3 : (⟨S1x128, .f32⟩ : BufTy).Contents (Elt Ideal)) (x4 x5 x6 x7 x8 : (⟨S128x128, .f32⟩ : BufTy).Contents (Elt Ideal))
  (x9 x10 : (⟨S128, .f32⟩ : BufTy).Contents (Elt Ideal)) (x11 : (⟨S128x128, .f32⟩ : BufTy).Contents (Elt Ideal)) (x12 : (⟨S128, .f32⟩ : BufTy).Contents (Elt Ideal))
  (x13 : (⟨S128x128, .f32⟩ : BufTy).Contents (Elt Ideal)) (x14 : (⟨S128, .f32⟩ : BufTy).Contents (Elt Ideal)) (x15 : (⟨S128x128, .f32⟩ : BufTy).Contents (Elt Ideal))
  (x16 : (⟨S128, .f32⟩ : BufTy).Contents (Elt Ideal)) (x17 : (⟨S128x128, .f32⟩ : BufTy).Contents (Elt Ideal)) (x18 x19 x20 : (⟨S128, .f32⟩ : BufTy).Contents (Elt Ideal))

/-! ## Indices -/

/-- Two rank-2 indices with the same two coordinates are equal. -/
private theorem idx2_ext {n0 n1 : Nat} (i j : (⟨2, ![n0, n1]⟩ : Shape).Idx) (h0 : (i 0).val = (j 0).val) (h1 : (i 1).val = (j 1).val) :
    i = j :=
  funext fun a => Fin.ext (by match a with | ⟨0, _⟩ => exact h0 | ⟨1, _⟩ => exact h1)

/-- Two rank-1 indices with the same coordinate are equal. -/
private theorem idx1_ext {n0 : Nat} (i j : (⟨1, ![n0]⟩ : Shape).Idx) (h0 : (i 0).val = (j 0).val) : i = j :=
  funext fun a => Fin.ext (by match a with | ⟨0, _⟩ => exact h0)

/-! ## The pre-activation's row -/

/-- Row `r` of the reference's pre-activation of the edges. -/
private abbrev eRow (r : Fin 400000) : Row :=
  rowOf (R := 400000) ((val_main_v25 (F := Ideal) x0 x1 x2 x4 x5 x6) : S400000x128.Idx → EReal) r

/-! ## Layer normalisation of the row -/

/-- The row sum: the zero word plus the sum over the row's 128 entries. -/
private theorem v26_at (r : Fin 400000) :
    val_main_v26 (F := Ideal) x0 x1 x2 x4 x5 x6 (ix1 r) = ∑ k : Fin 128, eRow x0 x1 x2 x4 x5 x6 r k := by
  rw [val_main_v26_apply, val_main_cst_apply, Ideal.ofBits_def, Ideal.ofBits_zero_f32, zero_add]
  refine Finset.sum_congr rfl fun k _ => ?_
  exact congrArg _ (idx2_ext _ _ rfl rfl)

/-- The mean: the row sum over the word of 128. -/
private theorem v29_at (r : Fin 400000) :
    val_main_v29 (F := Ideal) x0 x1 x2 x4 x5 x6 (ix2 r (0 : Fin 1)) = rmean (eRow x0 x1 x2 x4 x5 x6 r) := by
  rw [val_main_v29_apply, val_main_v27_apply, val_main_v28_apply, val_main_cst_3_apply, Ideal.hostDivf_def, Ideal.ofBits_def,
    show idx_main_v27 (ix2 r (0 : Fin 1)) = ix1 r from idx1_ext _ _ rfl, v26_at]
  rfl

/-- The centred row (the copy that is squared). -/
private theorem v31_at (r : Fin 400000) (j : Fin 128) :
    val_main_v31 (F := Ideal) x0 x1 x2 x4 x5 x6 (ix2 r j) = rcen (eRow x0 x1 x2 x4 x5 x6 r) j := by
  rw [val_main_v31_apply, val_main_v30_apply, Ideal.subf_def,
    show idx_main_v30 (ix2 r j) = ix2 r (0 : Fin 1) from idx2_ext _ _ rfl rfl, v29_at]
  rfl

/-- The centred row (the copy that is scaled). -/
private theorem v38_at (r : Fin 400000) (j : Fin 128) :
    val_main_v38 (F := Ideal) x0 x1 x2 x4 x5 x6 (ix2 r j) = rcen (eRow x0 x1 x2 x4 x5 x6 r) j := by
  rw [val_main_v38_apply, val_main_v37_apply, Ideal.subf_def,
    show idx_main_v37 (ix2 r j) = ix2 r (0 : Fin 1) from idx2_ext _ _ rfl rfl, v29_at]
  rfl

/-- The sum of the squares of the centred row. -/
private theorem v33_at (r : Fin 400000) :
    val_main_v33 (F := Ideal) x0 x1 x2 x4 x5 x6 (ix1 r)
      = ∑ k : Fin 128, rcen (eRow x0 x1 x2 x4 x5 x6 r) k * rcen (eRow x0 x1 x2 x4 x5 x6 r) k := by
  rw [val_main_v33_apply, val_main_cst_4_apply, Ideal.ofBits_def, Ideal.ofBits_zero_f32, zero_add]
  refine Finset.sum_congr rfl fun k _ => ?_
  rw [show idx_main_v33 (ix1 r) k = ix2 r k from idx2_ext _ _ rfl rfl, val_main_v32_apply, Ideal.mulf_def, v31_at]

/-- The variance: that sum over the word of 128. -/
private theorem v36_at (r : Fin 400000) :
    val_main_v36 (F := Ideal) x0 x1 x2 x4 x5 x6 (ix2 r (0 : Fin 1)) = rvar (eRow x0 x1 x2 x4 x5 x6 r) := by
  rw [val_main_v36_apply, val_main_v34_apply, val_main_v35_apply, val_main_cst_5_apply, Ideal.hostDivf_def, Ideal.ofBits_def,
    show idx_main_v34 (ix2 r (0 : Fin 1)) = ix1 r from idx1_ext _ _ rfl, v33_at]
  rfl

/-- The inverse square root of the variance shifted by the small word. -/
private theorem v41_at (r : Fin 400000) :
    val_main_v41 (F := Ideal) x0 x1 x2 x4 x5 x6 (ix2 r (0 : Fin 1))
      = Ideal.rsqrt (rvar (eRow x0 x1 x2 x4 x5 x6 r) + cEps) := by
  rw [val_main_v41_apply, val_main_v40_apply, val_main_v39_apply, val_main_cst_6_apply, Ideal.hostUnary_rsqrt_def,
    Ideal.addf_def, Ideal.ofBits_def, v36_at]

/-- The normalised row with the gain and the bias. -/
private theorem v49_at (r : Fin 400000) (j : Fin 128) :
    val_main_v49 (F := Ideal) x0 x1 x2 x4 x5 x6 x9 x10 (ix2 r j)
      = rln (eRow x0 x1 x2 x4 x5 x6 r) (vecOf ((val_main_v44 (F := Ideal) x9) : S1x128.Idx → EReal))
          (vecOf ((val_main_v47 (F := Ideal) x10) : S1x128.Idx → EReal)) j := by
  rw [val_main_v49_apply, val_main_v46_apply, val_main_v43_apply, val_main_v42_apply, val_main_v45_apply, val_main_v48_apply,
    Ideal.addf_def, Ideal.mulf_def, Ideal.mulf_def,
    show idx_main_v42 (ix2 r j) = ix2 r (0 : Fin 1) from idx2_ext _ _ rfl rfl,
    show idx_main_v45 (ix2 r j) = ix2 (0 : Fin 1) j from idx2_ext _ _ rfl rfl,
    show idx_main_v48 (ix2 r j) = ix2 (0 : Fin 1) j from idx2_ext _ _ rfl rfl, v38_at, v41_at]
  rfl

/-! ## The perceptron -/

/-- The first affine map followed by the maximum with the zero word. -/
private theorem v55_at (r : Fin 400000) (j : Fin 128) :
    val_main_v55 (F := Ideal) x0 x1 x2 x4 x5 x6 x9 x10 x11 x12 (ix2 r j)
      = rrelu (raff (rln (eRow x0 x1 x2 x4 x5 x6 r) (vecOf ((val_main_v44 (F := Ideal) x9) : S1x128.Idx → EReal))
            (vecOf ((val_main_v47 (F := Ideal) x10) : S1x128.Idx → EReal)))
          (matOf ((val_main_v50 (F := Ideal) x11) : S128x128.Idx → EReal))
          (vecOf ((val_main_v52 (F := Ideal) x12) : S1x128.Idx → EReal))) j := by
  rw [val_main_v55_apply, val_main_v54_apply, val_main_v51_apply, val_main_v53_apply, val_main_call0_v0_apply,
    val_main_call0_cst_apply, Ideal.maximumf_def, Ideal.addf_def, Ideal.ofBits_def,
    show idx_main_v53 (ix2 r j) = ix2 (0 : Fin 1) j from idx2_ext _ _ rfl rfl]
  show max (_ + _) cZero = max (rdot _ _ j + _) cZero
  refine congrArg (fun t => max (t + _) cZero) (Finset.sum_congr rfl fun k _ => ?_)
  rw [show lidx_main_v51 (ix2 r j) k = ix2 r k from idx2_ext _ _ rfl rfl,
    show ridx_main_v51 (ix2 r j) k = ix2 k j from idx2_ext _ _ rfl rfl, v49_at]

/-- The second affine map. -/
private theorem v60_at (r : Fin 400000) (j : Fin 128) :
    val_main_v60 (F := Ideal) x0 x1 x2 x4 x5 x6 x9 x10 x11 x12 x13 x14 (ix2 r j)
      = raff (rrelu (raff (rln (eRow x0 x1 x2 x4 x5 x6 r) (vecOf ((val_main_v44 (F := Ideal) x9) : S1x128.Idx → EReal))
            (vecOf ((val_main_v47 (F := Ideal) x10) : S1x128.Idx → EReal)))
          (matOf ((val_main_v50 (F := Ideal) x11) : S128x128.Idx → EReal))
          (vecOf ((val_main_v52 (F := Ideal) x12) : S1x128.Idx → EReal))))
          (matOf ((val_main_v56 (F := Ideal) x13) : S128x128.Idx → EReal))
          (vecOf ((val_main_v58 (F := Ideal) x14) : S1x128.Idx → EReal)) j := by
  rw [val_main_v60_apply, val_main_v57_apply, val_main_v59_apply, Ideal.addf_def,
    show idx_main_v59 (ix2 r j) = ix2 (0 : Fin 1) j from idx2_ext _ _ rfl rfl]
  show _ + _ = rdot _ _ j + _
  refine congrArg (fun t => t + _) (Finset.sum_congr rfl fun k _ => ?_)
  rw [show lidx_main_v57 (ix2 r j) k = ix2 r k from idx2_ext _ _ rfl rfl,
    show ridx_main_v57 (ix2 r j) k = ix2 k j from idx2_ext _ _ rfl rfl, v55_at]

/-! ## The updated edges -/

/-- The pre-activation's row is the specification's row formula of the edge row and the two gathered rows. -/
private theorem eRow_eq (r : Fin 400000) :
    eRow x0 x1 x2 x4 x5 x6 r
      = rEhat (rowOf (R := 400000) (x1 : S400000x128.Idx → EReal) r)
          (rowOf (R := 400000) ((val_main_v16 (F := Ideal) x0 x2 x5) : S400000x128.Idx → EReal) r)
          (rowOf (R := 400000) ((val_main_v24 (F := Ideal) x0 x2 x6) : S400000x128.Idx → EReal) r)
          (matOf ((val_main_v8 (F := Ideal) x4) : S128x128.Idx → EReal)) := by
  funext k
  exact congrFun (ehat x0 x1 x2 x4 x5 x6) (ix2 r k)

/-- The reference's updated edges. -/
theorem enew : ((val_main_v72 (F := Ideal) x0 x1 x2 x3 x4 x5 x6 x9 x10 x11 x12 x13 x14 x15 x16 x17 x18) : S400000x128.Idx → EReal)
    = enewA (R := 400000) (x1 : S400000x128.Idx → EReal) ((val_main_v16 (F := Ideal) x0 x2 x5) : S400000x128.Idx → EReal) ((val_main_v24 (F := Ideal) x0 x2 x6) : S400000x128.Idx → EReal)
        (matOf ((val_main_v8 (F := Ideal) x4) : S128x128.Idx → EReal)) (vecOf ((val_main_v44 (F := Ideal) x9) : S1x128.Idx → EReal)) (vecOf ((val_main_v47 (F := Ideal) x10) : S1x128.Idx → EReal))
        (matOf ((val_main_v50 (F := Ideal) x11) : S128x128.Idx → EReal)) (vecOf ((val_main_v52 (F := Ideal) x12) : S1x128.Idx → EReal))
        (matOf ((val_main_v56 (F := Ideal) x13) : S128x128.Idx → EReal)) (vecOf ((val_main_v58 (F := Ideal) x14) : S1x128.Idx → EReal))
        (vecOf ((val_main_v69 (F := Ideal) x3 x15 x16 x17 x18) : S1x128.Idx → EReal)) := by
  funext i
  obtain ⟨r, j, rfl⟩ : ∃ (r : Fin 400000) (j : Fin 128), i = ix2 r j := ⟨i 0, i 1, eq_ix2 i⟩
  rw [val_main_v72_apply, val_main_v70_apply, val_main_v71_apply, Ideal.addf_def, Ideal.addf_def,
    show idx_main_v71 (ix2 r j) = ix2 (0 : Fin 1) j from idx2_ext _ _ rfl rfl, v60_at, eRow_eq]
  rfl

end Cert.GraphLayer.Ref

end
-- ==== Proof.Bridge.lean ====
/-
  The two programs meet. The reference's result stages, read row by row, and the kernel's result buffers, read back
  through its launches, are the same functions of the same arguments: the node projections are `projA` over the same
  transposed matrices; the index columns are the same wrapped rows of the edge index; a gain or bias vector reshaped to
  one row (the kernel) and the same vector broadcast to one row (the reference) have the same 128 entries; the time
  row is one chain of operations in both; and the gathers and the accumulation are the same operations applied to
  equal operands, never opened.
-/
import proofs.«426754_j1262720385540_1_alg».proof.Proof.KValue
import proofs.«426754_j1262720385540_1_alg».proof.Proof.RefValue
import proofs.«426754_j1262720385540_1_alg».proof.Proof.RefEdge
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.GraphLayer.Bridge

open Cert.GraphLayer Cert.GraphLayer.Take Cert.GraphLayer.Fold Cert.GraphLayer.KernelValue ValueIdx

variable (x0 : (⟨Cert.ReferenceIdeal.S50000x128, .f32⟩ : BufTy).Contents (Elt Ideal)) (x1 : (⟨Cert.ReferenceIdeal.S400000x128, .f32⟩ : BufTy).Contents (Elt Ideal)) (x2 : (⟨Cert.ReferenceIdeal.S2x400000, .i32⟩ : BufTy).Contents (Elt Ideal))
  (x3 : (⟨Cert.ReferenceIdeal.S1x128, .f32⟩ : BufTy).Contents (Elt Ideal)) (x4 x5 x6 x7 x8 : (⟨Cert.ReferenceIdeal.S128x128, .f32⟩ : BufTy).Contents (Elt Ideal))
  (x9 x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal))
  (x13 : (⟨Cert.ReferenceIdeal.S128x128, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal))
  (x16 : (⟨Cert.ReferenceIdeal.S128, .f32⟩ : BufTy).Contents (Elt Ideal)) (x17 : (⟨Cert.ReferenceIdeal.S128x128, .f32⟩ : BufTy).Contents (Elt Ideal)) (x18 x19 x20 : (⟨Cert.ReferenceIdeal.S128, .f32⟩ : BufTy).Contents (Elt Ideal))

/-! ## A vector as one row: reshaped or broadcast, the same entries -/

theorem row_of_reshape (g : FVec Ideal Cert.KernelIdeal.S128 .f32) :
    vecOf (shapeCast Cert.KernelIdeal.S1x128 g Cert.KernelIdeal.Gen.shapeCasts_S128_S1x128) = vec1 g := by
  funext j
  exact shapeCast_apply g _ (ix2 0 j) (ix1 j)
    (by rw [Shape.rowMajor_val_one, Shape.rowMajor_val_two]; show j.val = 0 * 128 + j.val; omega)

theorem row_of_broadcast (g : (⟨Cert.ReferenceIdeal.S128, .f32⟩ : BufTy).Contents (Elt Ideal)) :
    vecOf (broadcastInDim Cert.ReferenceIdeal.S1x128 ![1] Cert.ReferenceIdeal.Gen.bcast_S128_S1x128_1 g) = vec1 g := by
  funext j
  exact broadcastInDim_apply _ _ g (ix2 0 j) (ix1 j) (fun a => match a with
    | ⟨0, _⟩ => by show j.val = if (128 : Nat) = 1 then 0 else j.val; rw [if_neg (by decide)])

/-- The reference's broadcast row and the kernel's reshaped row of one vector. -/
theorem row_eq (g : (⟨Cert.ReferenceIdeal.S128, .f32⟩ : BufTy).Contents (Elt Ideal)) :
    vecOf (broadcastInDim Cert.ReferenceIdeal.S1x128 ![1] Cert.ReferenceIdeal.Gen.bcast_S128_S1x128_1 g)
      = vecOf (shapeCast Cert.KernelIdeal.S1x128 g Cert.KernelIdeal.Gen.shapeCasts_S128_S1x128) :=
  (row_of_broadcast g).trans (row_of_reshape g).symm

/-! ## The three gathered projections -/

theorem gather_q : (Cert.ReferenceIdeal.Read.val_main_v16 (F := Ideal) x0 x2 x5) = gathered x0 x5 (srcOf x2) := by
  unfold Cert.ReferenceIdeal.Read.val_main_v16 gathered
  rw [Ref.proj_q x0 x5]
  rfl

theorem gather_r : (Cert.ReferenceIdeal.Read.val_main_v24 (F := Ideal) x0 x2 x6) = gathered x0 x6 (dstOf x2) := by
  unfold Cert.ReferenceIdeal.Read.val_main_v24 gathered
  rw [Ref.proj_r x0 x6]
  rfl

theorem gather_v : (Cert.ReferenceIdeal.Read.val_main_v87 (F := Ideal) x0 x2 x8) = gathered x0 x8 (dstOf x2) := by
  unfold Cert.ReferenceIdeal.Read.val_main_v87 gathered
  rw [Ref.proj_v x0 x8]
  rfl

/-! ## The results -/

/-- The reference's updated edges are the kernel's function of the same arguments. -/
theorem edges : (Cert.ReferenceIdeal.Read.val_main_v72 (F := Ideal) x0 x1 x2 x3 x4 x5 x6 x9 x10 x11 x12 x13 x14 x15 x16 x17 x18) = edgesOut x0 x1 x2 x3 x4 x5 x6 x9 x10 x11 x12 x13 x14 x15 x16 x17 x18 := by
  rw [Ref.enew, gather_q x0 x2 x5, gather_r x0 x2 x6]
  unfold edgesOut
  rw [← row_eq x9, ← row_eq x10, ← row_eq x12, ← row_eq x14]
  rfl

/-- The reference's gated messages are the kernel's. -/
theorem msgs : (Cert.ReferenceIdeal.Read.val_main_v88 (F := Ideal) x0 x1 x2 x4 x5 x6 x8) = messages x0 x1 x2 x4 x5 x6 x8 := by
  rw [Ref.msg, gather_q x0 x2 x5, gather_r x0 x2 x6, gather_v x0 x2 x8]
  rfl

/-- The reference's updated nodes are the kernel's function of the same arguments. -/
theorem nodes : (Cert.ReferenceIdeal.Read.val_main_v120 (F := Ideal) x0 x1 x2 x4 x5 x6 x7 x8 x19 x20) = nodesOut x0 x1 x2 x4 x5 x6 x7 x8 x19 x20 := by
  rw [Ref.hnew]
  unfold Cert.ReferenceIdeal.Read.val_main_v91
  rw [msgs x0 x1 x2 x4 x5 x6 x8]
  unfold nodesOut
  rw [← row_eq x19, ← row_eq x20]
  rfl

end Cert.GraphLayer.Bridge

end
-- ==== Proof.lean ====
/-
  The certificate of one gated message-passing layer on a graph of 50000 nodes and 400000 edges, every array 128 wide.

  The kernel's program computes it in three launches: the three node projections `h @ Q.T`, `h @ R.T`, `h @ V.T`, block by
  block of 5000 nodes; then, after the rows of those projections are gathered at the edges' source and destination
  nodes, the edge update (layer normalisation of `e @ P.T + Qh[src] + Rh[dst]`, a two-layer perceptron, the time row) and
  the gated messages `sigmoid(e_hat) · Vh[dst]`, block by block of 4000 edges; then, after the messages are accumulated
  per source node, the node update `h + relu(LN(h @ U.T + agg))`, block by block of 5000 nodes. The reference computes the
  same on the host with whole-array operations.

  Over the extended reals the two are the same functions of the arguments, entry by entry. Every step acts on one row
  of 128 entries, so each launch's output array is one row formula applied to the rows of its operands (Proof/Spec.lean;
  Proof/KProj.lean, Proof/KEdge.lean, Proof/KNode.lean), whatever the blocks; the reference's stages are the same row
  formulas (Proof/RefValue.lean, Proof/RefEdge.lean): a block product into a zero accumulator and the host's product
  are the same sum, a lane sum and the host's sum likewise, the logistic is `1 / (1 + e^(-x))` on both sides. Between
  the launches the kernel's program reads rows with out-of-range reads filled by the not-a-number pattern, where the
  reference's gather clamps; the precondition puts every entry of the edge index in 0 … 49999, where both read the
  same row (Proof/TakeFill.lean). The gathers and the per-node accumulation are the same operations in both programs,
  applied to equal operands (Proof/KGlue.lean, Proof/KValue.lean, Proof/Bridge.lean); no law of the extended reals
  beyond that is used, and finiteness of the float inputs is not needed.

  The three frames are the generated ones (the reference's is its generated run with the results dropped); the ideal
  pass rewrote nothing, so the idealization claim is trivial.
-/
import proofs.«426754_j1262720385540_1_alg».proof.Defs
import proofs.«426754_j1262720385540_1_alg».proof.Proof.Gen.Kernel
import proofs.«426754_j1262720385540_1_alg».proof.Proof.Gen.Kernel.Frame
import proofs.«426754_j1262720385540_1_alg».proof.Proof.Gen.KernelIdeal
import proofs.«426754_j1262720385540_1_alg».proof.Proof.Gen.KernelIdeal.Frame
import proofs.«426754_j1262720385540_1_alg».proof.Proof.Gen.ReferenceIdeal
import proofs.«426754_j1262720385540_1_alg».proof.Proof.Gen.ReferenceIdeal.Run
import proofs.«426754_j1262720385540_1_alg».proof.Proof.Gen.ReferenceIdeal.Read
import proofs.«426754_j1262720385540_1_alg».proof.Proof.Gen.Pre_finite_inputs
import proofs.«426754_j1262720385540_1_alg».proof.Proof.KRun
import proofs.«426754_j1262720385540_1_alg».proof.Proof.KValue
import proofs.«426754_j1262720385540_1_alg».proof.Proof.Bridge
import Idealize.ShloMosaic.Adequacy
import Idealize.ShloMosaic.Init

set_option maxRecDepth 16384

noncomputable section

namespace Cert.Proof

open Idealize.ShloMosaic Idealize.SL.Sem
open Cert.GraphLayer Cert.GraphLayer.KernelValue

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- The kernel's run over the extended reals, read: with every entry of the edge index in 0 … 49999 it ends with the
    updated nodes and the updated edges at `nodesOut` and `edgesOut` of its arguments, the arguments as launched. -/
theorem kernel_run (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v34) = nodesOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      ∧ r.2.mem ((c.tc : Thread Cert.KernelIdeal.nD Cert.KernelIdeal.τ).loc Cert.KernelIdeal.main_v30_0) = edgesOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)) :=
  (θ_run Cert.KernelIdeal.defs _ _).mono
    (fun r h c => ⟨(h c).1.trans (hnew_value m ρ hpre c), (h c).2.1.trans (enew_value m ρ hpre c), (h c).2.2⟩)
    (Cert.KernelIdeal.Results.run_results m ρ)

/-- The reference's run, read: it ends with its two results at the same two functions of ITS arguments. -/
theorem reference_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v120) = nodesOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))
      ∧ r.2.mem ((c.tc : Thread Cert.ReferenceIdeal.nD Cert.ReferenceIdeal.τ).loc Cert.ReferenceIdeal.main_v72) = edgesOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)) :=
  (θ_run Cert.ReferenceIdeal.defs _ _).mono
    (fun r h c => ⟨(h c).1.trans ((Cert.ReferenceIdeal.Read.val_main_v120_eq m' c).trans (Bridge.nodes _ _ _ _ _ _ _ _ _ _)),
      (h c).2.1.trans ((Cert.ReferenceIdeal.Read.val_main_v72_eq m' c).trans (Bridge.edges _ _ _ _ _ _ _ _ _ _ _ _ _ _ _ _ _)), (h c).2.2⟩)
    (Cert.ReferenceIdeal.Value.run (F := Ideal) m' ρ')

/-- From memories agreeing on the arguments, with every entry of the edge index in 0 … 49999, both programs end with
    the updated nodes and the updated edges at the same functions of the arguments. -/
theorem algebraic : Cert.algebraic_KernelIdeal_ReferenceIdeal := by
  intro m ρ m' ρ' hpre hagree
  refine ⟨_, _, kernel_run m ρ hpre, ?_⟩
  refine (θ_run Cert.ReferenceIdeal.defs _ _).mono (fun r h c => ?_) (reference_run m' ρ')
  obtain ⟨a0, a1, a2, a3, a4, a5, a6, a7, a8, a9, a10, a11, a12, a13, a14, a15, a16, a17, a18, a19, a20⟩ := hagree c
  obtain ⟨hn, he, hargs⟩ := h c
  refine ⟨?_, ?_, hargs⟩
  · rw [hn, a0, a1, a2, a4, a5, a6, a7, a8, a19, a20]
  · rw [he, a0, a1, a2, a3, a4, a5, a6, a9, a10, a11, a12, a13, a14, a15, a16, a17, a18]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
